-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v22)) (v1 : (c : Dev Cert.KernelIdeal.nD) → Buf (Elt Ideal) ((c.tc : Thread Cert.KernelIdeal.nD Cert.KernelIdeal.τ).loc Cert.KernelIdeal.main_v23)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_v23) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_v50) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1 : Shape := ⟨1, ![1]⟩
abbrev S1x1x1024 : Shape := ⟨3, ![1, 1, 1024]⟩
abbrev S128000x1024 : Shape := ⟨2, ![128000, 1024]⟩
abbrev S3072x1024 : Shape := ⟨2, ![3072, 1024]⟩
abbrev S3072 : Shape := ⟨1, ![3072]⟩
abbrev S128000 : Shape := ⟨1, ![128000]⟩
abbrev S_ : Shape := ⟨0, ![]⟩

class Facts : Prop where
  bcast_S_S1x1x1024 : S_.BroadcastsInDim S1x1x1024 (![] : Fin 0 → Fin S1x1x1024.rank)
  reducesTo_S1x1x1024_S_d0_1_2 : S1x1x1024.ReducesTo [0, 1, 2] S_
  h_S_ : 0 < S_.numel
  bcast_S_S128000x1024 : S_.BroadcastsInDim S128000x1024 (![] : Fin 0 → Fin S128000x1024.rank)
  reducesTo_S128000x1024_S_d0_1 : S128000x1024.ReducesTo [0, 1] S_
  bcast_S_S3072x1024 : S_.BroadcastsInDim S3072x1024 (![] : Fin 0 → Fin S3072x1024.rank)
  reducesTo_S3072x1024_S_d0_1 : S3072x1024.ReducesTo [0, 1] S_
  bcast_S_S3072 : S_.BroadcastsInDim S3072 (![] : Fin 0 → Fin S3072.rank)
  reducesTo_S3072_S_d0 : S3072.ReducesTo [0] S_
  bcast_S_S128000 : S_.BroadcastsInDim S128000 (![] : Fin 0 → Fin S128000.rank)
  reducesTo_S128000_S_d0 : S128000.ReducesTo [0] S_
  bcast_S_S1 : S_.BroadcastsInDim S1 (![] : Fin 0 → Fin S1.rank)
  reducesTo_S1_S_d0 : S1.ReducesTo [0] S_

variable [Facts]

def fn_part2 {F : FTy → Type} [FloatOps F] (main_arg0 : IVec S1 32) (main_arg8 : FVec F S128000 .f32) (main_v33 : IVec S_ 1) : IVec S_ 1 :=
  let main_v34 : FVec F S128000 .f32 := Host.absf main_arg8
  let main_cst_12 : FVec F S_ .f32 := constant S_ .f32 0x7F800000#32
  let main_v35 : FVec F S128000 .f32 := broadcastInDim S128000 ![] bcast_S_S128000 main_cst_12
  let main_v36 : IVec S128000 1 := cmpf .olt main_v34 main_v35
  let main_c_13 : IVec S_ 1 := constantI S_ 1 1#1
  let main_v37 : IVec S_ 1 := (fun x v => Host.reduce IntOp.andi x v reducesTo_S128000_S_d0 h_S_) main_v36 main_c_13
  let main_v38 : IVec S_ 1 := andi main_v33 main_v37
  let main_c_14 : IVec S_ 32 := constantI S_ 32 0#32
  let main_v39 : IVec S1 32 := broadcastInDim S1 ![] bcast_S_S1 main_c_14
  let main_v40 : IVec S1 1 := cmpi .sge main_arg0 main_v39
  let main_c_15 : IVec S_ 1 := constantI S_ 1 1#1
  let main_v41 : IVec S_ 1 := (fun x v => Host.reduce IntOp.andi x v reducesTo_S1_S_d0 h_S_) main_v40 main_c_15
  let main_v42 : IVec S_ 1 := andi main_v38 main_v41
  let main_c_16 : IVec S_ 32 := constantI S_ 32 128000#32
  let main_v43 : IVec S1 32 := broadcastInDim S1 ![] bcast_S_S1 main_c_16
  let main_v44 : IVec S1 1 := cmpi .slt main_arg0 main_v43
  let main_c_17 : IVec S_ 1 := constantI S_ 1 1#1
  let main_v45 : IVec S_ 1 := (fun x v => Host.reduce IntOp.andi x v reducesTo_S1_S_d0 h_S_) main_v44 main_c_17
  let main_v46 : IVec S_ 1 := andi main_v42 main_v45
  main_v46

def fn_part1 {F : FTy → Type} [FloatOps F] (main_arg0 : IVec S1 32) (main_arg5 : FVec F S3072 .f32) (main_arg6 : FVec F S3072 .f32) (main_arg7 : FVec F S128000x1024 .f32) (main_arg8 : FVec F S128000 .f32) (main_v13 : IVec S_ 1) (main_v16 : IVec S3072x1024 1) : IVec S_ 1 :=
  let main_c_5 : IVec S_ 1 := constantI S_ 1 1#1
  let main_v17 : IVec S_ 1 := (fun x v => Host.reduce IntOp.andi x v reducesTo_S3072x1024_S_d0_1 h_S_) main_v16 main_c_5
  let main_v18 : IVec S_ 1 := andi main_v13 main_v17
  let main_v19 : FVec F S3072 .f32 := Host.absf main_arg5
  let main_cst_6 : FVec F S_ .f32 := constant S_ .f32 0x7F800000#32
  let main_v20 : FVec F S3072 .f32 := broadcastInDim S3072 ![] bcast_S_S3072 main_cst_6
  let main_v21 : IVec S3072 1 := cmpf .olt main_v19 main_v20
  let main_c_7 : IVec S_ 1 := constantI S_ 1 1#1
  let main_v22 : IVec S_ 1 := (fun x v => Host.reduce IntOp.andi x v reducesTo_S3072_S_d0 h_S_) main_v21 main_c_7
  let main_v23 : IVec S_ 1 := andi main_v18 main_v22
  let main_v24 : FVec F S3072 .f32 := Host.absf main_arg6
  let main_cst_8 : FVec F S_ .f32 := constant S_ .f32 0x7F800000#32
  let main_v25 : FVec F S3072 .f32 := broadcastInDim S3072 ![] bcast_S_S3072 main_cst_8
  let main_v26 : IVec S3072 1 := cmpf .olt main_v24 main_v25
  let main_c_9 : IVec S_ 1 := constantI S_ 1 1#1
  let main_v27 : IVec S_ 1 := (fun x v => Host.reduce IntOp.andi x v reducesTo_S3072_S_d0 h_S_) main_v26 main_c_9
  let main_v28 : IVec S_ 1 := andi main_v23 main_v27
  let main_v29 : FVec F S128000x1024 .f32 := Host.absf main_arg7
  let main_cst_10 : FVec F S_ .f32 := constant S_ .f32 0x7F800000#32
  let main_v30 : FVec F S128000x1024 .f32 := broadcastInDim S128000x1024 ![] bcast_S_S128000x1024 main_cst_10
  let main_v31 : IVec S128000x1024 1 := cmpf .olt main_v29 main_v30
  let main_c_11 : IVec S_ 1 := constantI S_ 1 1#1
  let main_v32 : IVec S_ 1 := (fun x v => Host.reduce IntOp.andi x v reducesTo_S128000x1024_S_d0_1 h_S_) main_v31 main_c_11
  let main_v33 : IVec S_ 1 := andi main_v28 main_v32
  fn_part2 (F := F) main_arg0 main_arg8 main_v33

def fn {F : FTy → Type} [FloatOps F] (main_arg0 : IVec S1 32) (main_arg1 : FVec F S1x1x1024 .f32) (main_arg2 : FVec F S128000x1024 .f32) (main_arg3 : FVec F S3072x1024 .f32) (main_arg4 : FVec F S3072x1024 .f32) (main_arg5 : FVec F S3072 .f32) (main_arg6 : FVec F S3072 .f32) (main_arg7 : FVec F S128000x1024 .f32) (main_arg8 : FVec F S128000 .f32) : IVec S_ 1 :=
  let main_v0 : FVec F S1x1x1024 .f32 := Host.absf main_arg1
  let main_cst : FVec F S_ .f32 := constant S_ .f32 0x7F800000#32
  let main_v1 : FVec F S1x1x1024 .f32 := broadcastInDim S1x1x1024 ![] bcast_S_S1x1x1024 main_cst
  let main_v2 : IVec S1x1x1024 1 := cmpf .olt main_v0 main_v1
  let main_c : IVec S_ 1 := constantI S_ 1 1#1
  let main_v3 : IVec S_ 1 := (fun x v => Host.reduce IntOp.andi x v reducesTo_S1x1x1024_S_d0_1_2 h_S_) main_v2 main_c
  let main_v4 : FVec F S128000x1024 .f32 := Host.absf main_arg2
  let main_cst_0 : FVec F S_ .f32 := constant S_ .f32 0x7F800000#32
  let main_v5 : FVec F S128000x1024 .f32 := broadcastInDim S128000x1024 ![] bcast_S_S128000x1024 main_cst_0
  let main_v6 : IVec S128000x1024 1 := cmpf .olt main_v4 main_v5
  let main_c_1 : IVec S_ 1 := constantI S_ 1 1#1
  let main_v7 : IVec S_ 1 := (fun x v => Host.reduce IntOp.andi x v reducesTo_S128000x1024_S_d0_1 h_S_) main_v6 main_c_1
  let main_v8 : IVec S_ 1 := andi main_v3 main_v7
  let main_v9 : FVec F S3072x1024 .f32 := Host.absf main_arg3
  let main_cst_2 : FVec F S_ .f32 := constant S_ .f32 0x7F800000#32
  let main_v10 : FVec F S3072x1024 .f32 := broadcastInDim S3072x1024 ![] bcast_S_S3072x1024 main_cst_2
  let main_v11 : IVec S3072x1024 1 := cmpf .olt main_v9 main_v10
  let main_c_3 : IVec S_ 1 := constantI S_ 1 1#1
  let main_v12 : IVec S_ 1 := (fun x v => Host.reduce IntOp.andi x v reducesTo_S3072x1024_S_d0_1 h_S_) main_v11 main_c_3
  let main_v13 : IVec S_ 1 := andi main_v8 main_v12
  let main_v14 : FVec F S3072x1024 .f32 := Host.absf main_arg4
  let main_cst_4 : FVec F S_ .f32 := constant S_ .f32 0x7F800000#32
  let main_v15 : FVec F S3072x1024 .f32 := broadcastInDim S3072x1024 ![] bcast_S_S3072x1024 main_cst_4
  let main_v16 : IVec S3072x1024 1 := cmpf .olt main_v14 main_v15
  fn_part1 (F := F) main_arg0 main_arg5 main_arg6 main_arg7 main_arg8 main_v13 main_v16
-- ==== Kernel.lean ====
abbrev S1 : Shape := ⟨1, ![1]⟩
abbrev S1x1x1024 : Shape := ⟨3, ![1, 1, 1024]⟩
abbrev S128000x1024 : Shape := ⟨2, ![128000, 1024]⟩
abbrev S3072x1024 : Shape := ⟨2, ![3072, 1024]⟩
abbrev S3072 : Shape := ⟨1, ![3072]⟩
abbrev S128000 : Shape := ⟨1, ![128000]⟩
abbrev S_ : Shape := ⟨0, ![]⟩
abbrev S1x1 : Shape := ⟨2, ![1, 1]⟩
abbrev S1x1024 : Shape := ⟨2, ![1, 1024]⟩
abbrev S1x3072 : Shape := ⟨2, ![1, 3072]⟩
abbrev S1x128000 : Shape := ⟨2, ![1, 128000]⟩
abbrev S1536x1024 : Shape := ⟨2, ![1536, 1024]⟩
abbrev S1x1536 : Shape := ⟨2, ![1, 1536]⟩
abbrev S25x1x128 : Shape := ⟨3, ![25, 1, 128]⟩
abbrev S5120x1024 : Shape := ⟨2, ![5120, 1024]⟩
abbrev S1x5120 : Shape := ⟨2, ![1, 5120]⟩
abbrev S1x1x128 : Shape := ⟨3, ![1, 1, 128]⟩
abbrev S1x1x1 : Shape := ⟨3, ![1, 1, 1]⟩
abbrev S25x1x1 : Shape := ⟨3, ![25, 1, 1]⟩
abbrev S25 : Shape := ⟨1, ![25]⟩

abbrev nBuf : Space → Nat
  | .hbm => 66
  | .vmem => 29
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128000x1024, .f32⟩
  | .hbm, ⟨3, _⟩ => ⟨S3072x1024, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S128000x1024, .f32⟩
  | .hbm, ⟨8, _⟩ => ⟨S128000, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S1, .i32⟩
  | .hbm, ⟨13, _⟩ => ⟨S1, .i32⟩
  | .hbm, ⟨14, _⟩ => ⟨S_, .i32⟩
  | .hbm, ⟨15, _⟩ => ⟨S1, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S1, .i1⟩
  | .hbm, ⟨20, _⟩ => ⟨S_, .i32⟩
  | .hbm, ⟨21, _⟩ => ⟨S1, .i32⟩
  | .hbm, ⟨22, _⟩ => ⟨S1, .i32⟩
  | .hbm, ⟨23, _⟩ => ⟨S1, .i32⟩
  | .hbm, ⟨24, _⟩ => ⟨S1x1, .i32⟩
  | .hbm, ⟨25, _⟩ => ⟨S1, .i32⟩
  | .hbm, ⟨26, _⟩ => ⟨S_, .i32⟩
  | .hbm, ⟨27, _⟩ => ⟨S1x1, .i32⟩
  | .hbm, ⟨28, _⟩ => ⟨S1x1, .i1⟩
  | .hbm, ⟨29, _⟩ => ⟨S1x1, .i32⟩
  | .hbm, ⟨30, _⟩ => ⟨S1x1, .i1⟩
  | .hbm, ⟨31, _⟩ => ⟨S1x1, .i1⟩
  | .hbm, ⟨32, _⟩ => ⟨S_, .i1⟩
  | .hbm, ⟨33, _⟩ => ⟨S1, .i1⟩
  | .hbm, ⟨34, _⟩ => ⟨S1x1024, .f32⟩
  | .hbm, ⟨35, _⟩ => ⟨S1x1024, .i1⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S1x3072, .f32⟩
  | .hbm, ⟨41, _⟩ => ⟨S1x3072, .f32⟩
  | .hbm, ⟨42, _⟩ => ⟨S1x128000, .f32⟩
  | .hbm, ⟨43, _⟩ => ⟨S1x3072, .f32⟩
  | .hbm, ⟨44, _⟩ => ⟨S1x3072, .f32⟩
  | .hbm, ⟨45, _⟩ => ⟨S1x1024, .f32⟩
  | .hbm, ⟨46, _⟩ => ⟨S1x128000, .f32⟩
  | .hbm, ⟨47, _⟩ => ⟨S25x1x128, .f32⟩
  | .hbm, ⟨48, _⟩ => ⟨S25x1x128, .f32⟩
  | .hbm, ⟨49, _⟩ => ⟨S25x1x1, .f32⟩
  | .hbm, ⟨50, _⟩ => ⟨S25, .f32⟩
  | .hbm, ⟨51, _⟩ => ⟨S25x1x1, .f32⟩
  | .hbm, ⟨52, _⟩ => ⟨S25, .f32⟩
  | .hbm, ⟨53, _⟩ => ⟨S_, .f32⟩
  | .hbm, ⟨54, _⟩ => ⟨S_, .f32⟩
  | .hbm, ⟨55, _⟩ => ⟨S25, .f32⟩
  | .hbm, ⟨56, _⟩ => ⟨S25, .f32⟩
  | .hbm, ⟨57, _⟩ => ⟨S25, .f32⟩
  | .hbm, ⟨58, _⟩ => ⟨S25, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S1x128000, .f32⟩
  | .hbm, ⟨64, _⟩ => ⟨S1x128000, .f32⟩
  | .hbm, ⟨65, _⟩ => ⟨S1x1x1024, .f32⟩
  | .local _ .vmem, ⟨0, _⟩ => ⟨S1x1024, .f32⟩
  | .local _ .vmem, ⟨1, _⟩ => ⟨S1x1024, .f32⟩
  | .local _ .vmem, ⟨2, _⟩ => ⟨S1536x1024, .f32⟩
  | .local _ .vmem, ⟨3, _⟩ => ⟨S1536x1024, .f32⟩
  | .local _ .vmem, ⟨4, _⟩ => ⟨S1536x1024, .f32⟩
  | .local _ .vmem, ⟨5, _⟩ => ⟨S1536x1024, .f32⟩
  | .local _ .vmem, ⟨6, _⟩ => ⟨S1x1536, .f32⟩
  | .local _ .vmem, ⟨7, _⟩ => ⟨S1x1536, .f32⟩
  | .local _ .vmem, ⟨8, _⟩ => ⟨S1x1536, .f32⟩
  | .local _ .vmem, ⟨9, _⟩ => ⟨S1x1536, .f32⟩
  | .local _ .vmem, ⟨10, _⟩ => ⟨S1x1536, .f32⟩
  | .local _ .vmem, ⟨11, _⟩ => ⟨S1x1536, .f32⟩
  | .local _ .vmem, ⟨12, _⟩ => ⟨S1x1536, .f32⟩
  | .local _ .vmem, ⟨13, _⟩ => ⟨S1x1536, .f32⟩
  | .local _ .vmem, ⟨14, _⟩ => ⟨S1x3072, .f32⟩
  | .local _ .vmem, ⟨15, _⟩ => ⟨S1x3072, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S5120x1024, .f32⟩
  | .local _ .vmem, ⟨20, _⟩ => ⟨S5120x1024, .f32⟩
  | .local _ .vmem, ⟨21, _⟩ => ⟨S1x5120, .f32⟩
  | .local _ .vmem, ⟨22, _⟩ => ⟨S1x5120, .f32⟩
  | .local _ .vmem, ⟨23, _⟩ => ⟨S1x5120, .f32⟩
  | .local _ .vmem, ⟨24, _⟩ => ⟨S1x5120, .f32⟩
  | .local _ .vmem, ⟨25, _⟩ => ⟨S1x1x128, .f32⟩
  | .local _ .vmem, ⟨26, _⟩ => ⟨S1x1x128, .f32⟩
  | .local _ .vmem, ⟨27, _⟩ => ⟨S1x1x128, .f32⟩
  | .local _ .vmem, ⟨28, _⟩ => ⟨S1x1x128, .f32⟩
  | _, _ => ⟨S1, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_call1_c : Ref sig .tc := ⟨.hbm, 17, rfl⟩
abbrev main_call1_v0 : Ref sig .tc := ⟨.hbm, 18, rfl⟩
abbrev main_call1_v1 : Ref sig .tc := ⟨.hbm, 19, rfl⟩
abbrev main_call1_c_0 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_call1_v5 : Ref sig .tc := ⟨.hbm, 24, rfl⟩
abbrev main_call1_c_1 : Ref sig .tc := ⟨.hbm, 25, rfl⟩
abbrev main_call1_c_2 : Ref sig .tc := ⟨.hbm, 26, rfl⟩
abbrev main_call1_v6 : Ref sig .tc := ⟨.hbm, 27, rfl⟩
abbrev main_call1_v7 : Ref sig .tc := ⟨.hbm, 28, rfl⟩
abbrev main_call1_v8 : Ref sig .tc := ⟨.hbm, 29, rfl⟩
abbrev main_call1_v9 : Ref sig .tc := ⟨.hbm, 30, rfl⟩
abbrev main_call1_v10 : Ref sig .tc := ⟨.hbm, 31, rfl⟩
abbrev main_call1_c_3 : Ref sig .tc := ⟨.hbm, 32, rfl⟩
abbrev main_call1_v11 : Ref sig .tc := ⟨.hbm, 33, rfl⟩
abbrev main_call1_v12 : Ref sig .tc := ⟨.hbm, 34, rfl⟩
abbrev main_call1_v13 : Ref sig .tc := ⟨.hbm, 35, rfl⟩
abbrev main_call1_cst : Ref sig .tc := ⟨.hbm, 36, rfl⟩
abbrev main_call1_v14 : Ref sig .tc := ⟨.hbm, 37, rfl⟩
abbrev main_v1 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_v5 : Ref sig .tc := ⟨.hbm, 42, rfl⟩
abbrev main_v6_0 : Ref sig .tc := ⟨.hbm, 43, rfl⟩
abbrev main_v6_1 : Ref sig .tc := ⟨.hbm, 44, rfl⟩
abbrev main_v7 : Ref sig .tc := ⟨.hbm, 45, rfl⟩
abbrev main_v8_0 : Ref sig .tc := ⟨.hbm, 46, rfl⟩
abbrev main_v8_1 : Ref sig .tc := ⟨.hbm, 47, rfl⟩
abbrev main_v8_2 : Ref sig .tc := ⟨.hbm, 48, rfl⟩
abbrev main_v9 : Ref sig .tc := ⟨.hbm, 49, rfl⟩
abbrev main_v10 : Ref sig .tc := ⟨.hbm, 50, rfl⟩
abbrev main_v11 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_v17 : Ref sig .tc := ⟨.hbm, 58, rfl⟩
abbrev main_cst_1 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc1_stg0_0 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc2_stg5_0 : Ref sig .tc := ⟨.vmem, 27, rfl⟩
abbrev cc2_stg5_1 : Ref sig .tc := ⟨.vmem, 28, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc1_sem0_0 : DmaSem sig := 14
abbrev cc1_sem1_0 : DmaSem sig := 15
abbrev cc1_sem2_0 : DmaSem sig := 16
abbrev cc1_sem3_0 : DmaSem sig := 17
abbrev cc2_sem0_0 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26
abbrev cc2_sem5_0 : DmaSem sig := 27
abbrev cc2_sem5_1 : DmaSem sig := 28

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1536x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S1x3072 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_4 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_5 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S5120x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S1x5120 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S1x5120 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S1x1x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S1x1x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1 : S_.BroadcastsInDim S1x1 (![] : Fin 0 → Fin S1x1.rank)
  bcast_S1_S1x1_1 : S1.BroadcastsInDim S1x1 (![1] : Fin 1 → Fin S1x1.rank)
  reducesTo_S1x1_S1_d1 : S1x1.ReducesTo [1] S1
  h_S_ : 0 < S_.numel
  bcast_S1_S1x1024_0 : S1.BroadcastsInDim S1x1024 (![0] : Fin 1 → Fin S1x1024.rank)
  bcast_S_S1x1024 : S_.BroadcastsInDim S1x1024 (![] : Fin 0 → Fin S1x1024.rank)
  shapeCasts_S1x1x1024_S1x1024 : S1x1x1024.ShapeCasts S1x1024
  shapeCasts_S3072_S1x3072 : S3072.ShapeCasts S1x3072
  shapeCasts_S128000_S1x128000 : S128000.ShapeCasts S1x128000
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1536x1024_S1536x1024_0_0 : ∀ a, (![0, 0] : Fin 2 → Nat) a + S1536x1024.size a ≤ S1536x1024.size a
  h_S1536x1024 : 0 < S1536x1024.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  slices_S1x3072_o0_0_S1x1024 : S1x3072.Slices ![0, 0] S1x1024
  slices_S1x3072_o0_1024_S1x1024 : S1x3072.Slices ![0, 1024] S1x1024
  slices_S1x3072_o0_2048_S1x1024 : S1x3072.Slices ![0, 2048] S1x1024
  inb_S5120x1024_S5120x1024_0_0 : ∀ a, (![0, 0] : Fin 2 → Nat) a + S5120x1024.size a ≤ S5120x1024.size a
  h_S5120x1024 : 0 < S5120x1024.numel
  inb_S1x5120_S1x5120_0_0 : ∀ a, (![0, 0] : Fin 2 → Nat) a + S1x5120.size a ≤ S1x5120.size a
  h_S1x5120 : 0 < S1x5120.numel
  shapeCasts_S1x5120_S1x5120 : S1x5120.ShapeCasts S1x5120
  reduces_S1x5120_S1 : S1x5120.Reduces [1] S1
  shapeCasts_S1_S1x1 : S1.ShapeCasts S1x1
  broadcasts_S1x1_S1x5120 : S1x1.Broadcasts S1x5120
  shapeCasts_S1x1_S1x1x1 : S1x1.ShapeCasts S1x1x1
  broadcasts_S1x1x1_S1x1x128 : S1x1x1.Broadcasts S1x1x128
  inb_S1x1x128_S1x1x128_0_0_0 : ∀ a, (![0, 0, 0] : Fin 3 → Nat) a + S1x1x128.size a ≤ S1x1x128.size a
  h_S1x1x128 : 0 < S1x1x128.numel
  slices_S25x1x128_S25x1x1_0_0_0 : S25x1x128.Slices ![0, 0, 0] S25x1x1
  shapeCasts_S25x1x1_S25 : S25x1x1.ShapeCasts S25
  reducesTo_S25_S_d0 : S25.ReducesTo [0] S_
  bcast_S_S25 : S_.BroadcastsInDim S25 (![] : Fin 0 → Fin S25.rank)
  bcast_S_S1x128000 : S_.BroadcastsInDim S1x128000 (![] : Fin 0 → Fin S1x128000.rank)
  shapeCasts_S1x1024_S1x1x1024 : S1x1024.ShapeCasts S1x1x1024
  gather_S128000x1024_S1x1_S1x1024_1_0_n_n_0_1_11024_wf : GatherDims.WF S128000x1024 S1x1 S1x1024 [1] [0] [] [0] [] 1 ![1, 1024]
  dot_S1x1024_S1536x1024_S1x1536_1_1_0_0_n_n_wf : DotDims.WF S1x1024 S1536x1024 S1x1536 [1] [1] [0] [0] [] []
  dot_S1x1024_S5120x1024_S1x5120_1_1_0_0_n_n_wf : DotDims.WF S1x1024 S5120x1024 S1x5120 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1x1024.size a ≤ S1x1024.size a
  hwx0_0 : ∀ i : grid0.Coords, EltTy.bits .f32 = 32 ∨ (Rect.block (s := S1x1024) S1x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1536x1024.size a ≤ S3072x1024.size a
  hwx0_2 : ∀ i : grid0.Coords, EltTy.bits .f32 = 32 ∨ (Rect.block (s := S3072x1024) S1536x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1536x1024.size a ≤ S3072x1024.size a
  hwx0_3 : ∀ i : grid0.Coords, EltTy.bits .f32 = 32 ∨ (Rect.block (s := S3072x1024) S1536x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1536.size a ≤ S1x3072.size a
  hwx0_4 : ∀ i : grid0.Coords, EltTy.bits .f32 = 32 ∨ (Rect.block (s := S1x3072) S1x1536.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1536.size a ≤ S1x3072.size a
  hwx0_5 : ∀ i : grid0.Coords, EltTy.bits .f32 = 32 ∨ (Rect.block (s := S1x3072) S1x1536.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1536.size a ≤ S1x3072.size a
  hwx0_6 : ∀ i : grid0.Coords, EltTy.bits .f32 = 32 ∨ (Rect.block (s := S1x3072) S1x1536.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1536.size a ≤ S1x3072.size a
  hwx0_7 : ∀ i : grid0.Coords, EltTy.bits .f32 = 32 ∨ (Rect.block (s := S1x3072) S1x1536.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S1x3072.size a ≤ S1x3072.size a
  hwx1_0 : ∀ i : grid1.Coords, EltTy.bits .f32 = 32 ∨ (Rect.block (s := S1x3072) S1x3072.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x3072.size a ≤ S1x3072.size a
  hwx1_1 : ∀ i : grid1.Coords, EltTy.bits .f32 = 32 ∨ (Rect.block (s := S1x3072) S1x3072.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hrank2 : 0 < grid2.rank
  hstage2_0 : ∀ j, (stage2_0 j).IsWhole
  nbuf2_0 : grid2.bufCount reads2_0 true = 1
  hreads2_0 : ∀ i i' : grid2.Coords, (∀ a, reads2_0 a = true → i a = i' a) → cc2_transform_0 i = cc2_transform_0 i'
  hinb2_0 : ∀ (i : grid2.Coords) a, (cc2_transform_0 i a + 1) * S1x1024.size a ≤ S1x1024.size a
  hwx2_0 : ∀ i : grid2.Coords, EltTy.bits .f32 = 32 ∨ (Rect.block (s := S1x1024) S1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5120x1024.size a ≤ S128000x1024.size a
  hwx2_1 : ∀ i : grid2.Coords, EltTy.bits .f32 = 32 ∨ (Rect.block (s := S128000x1024) S5120x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1x5120.size a ≤ S1x128000.size a
  hwx2_2 : ∀ i : grid2.Coords, EltTy.bits .f32 = 32 ∨ (Rect.block (s := S1x128000) S1x5120.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x5120.size a ≤ S1x128000.size a
  hwx2_3 : ∀ i : grid2.Coords, EltTy.bits .f32 = 32 ∨ (Rect.block (s := S1x128000) S1x5120.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1x1x128.size a ≤ S25x1x128.size a
  hwx2_4 : ∀ i : grid2.Coords, EltTy.bits .f32 = 32 ∨ (Rect.block (s := S25x1x128) S1x1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S1x1x128.size a ≤ S25x1x128.size a
  hwx2_5 : ∀ i : grid2.Coords, EltTy.bits .f32 = 32 ∨ (Rect.block (s := S25x1x128) S1x1x128.size (cc2_transform_5 i) (hinb2_5 i)).WholeWords (EltTy.packing .f32)

variable [Facts₀]

def gather_S128000x1024_S1x1_S1x1024_1_0_n_n_0_1_11024 : GatherDims S128000x1024 S1x1 S1x1024 where
  offsetDims := [1]
  collapsedSliceDims := [0]
  operandBatchingDims := []
  startIndicesBatchingDims := []
  startIndexMap := [0]
  indexVectorDim := 1
  sliceSizes := ![1, 1024]
  wf := gather_S128000x1024_S1x1_S1x1024_1_0_n_n_0_1_11024_wf
def dot_S1x1024_S1536x1024_S1x1536_1_1_0_0_n_n : DotDims S1x1024 S1536x1024 S1x1536 where
  lhsContracting := [1]
  rhsContracting := [1]
  lhsNonContracting := [0]
  rhsNonContracting := [0]
  lhsBatch := []
  rhsBatch := []
  wf := dot_S1x1024_S1536x1024_S1x1536_1_1_0_0_n_n_wf
def dot_S1x1024_S5120x1024_S1x5120_1_1_0_0_n_n : DotDims S1x1024 S5120x1024 S1x5120 where
  lhsContracting := [1]
  rhsContracting := [1]
  lhsNonContracting := [0]
  rhsNonContracting := [0]
  lhsBatch := []
  rhsBatch := []
  wf := dot_S1x1024_S5120x1024_S1x5120_1_1_0_0_n_n_wf

abbrev win0_0 : Pipeline.Window sig grid0 :=
  Pipeline.Window.ofSpec (Memref.whole main_v1) S1x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1536x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S1536x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1x1536.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1536.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S1x1536.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S1x1536.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v6_0) S1x3072.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v6_1) S1x3072.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1x1024.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v7) S1x1024.size cc2_transform_0 reads2_0 false true 1 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S5120x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v5) S1x5120.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v8_0) S1x5120.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v8_1) S1x1x128.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v8_2) S1x1x128.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S1 : Shape := ⟨1, ![1]⟩
abbrev S1x1x1024 : Shape := ⟨3, ![1, 1, 1024]⟩
abbrev S128000x1024 : Shape := ⟨2, ![128000, 1024]⟩
abbrev S3072x1024 : Shape := ⟨2, ![3072, 1024]⟩
abbrev S3072 : Shape := ⟨1, ![3072]⟩
abbrev S128000 : Shape := ⟨1, ![128000]⟩
abbrev S_ : Shape := ⟨0, ![]⟩
abbrev S1x1 : Shape := ⟨2, ![1, 1]⟩
abbrev S1x1024 : Shape := ⟨2, ![1, 1024]⟩
abbrev S1024x3072 : Shape := ⟨2, ![1024, 3072]⟩
abbrev S1x3072 : Shape := ⟨2, ![1, 3072]⟩
abbrev S1024x128000 : Shape := ⟨2, ![1024, 128000]⟩
abbrev S1x128000 : Shape := ⟨2, ![1, 128000]⟩

abbrev nBuf : Space → Nat
  | .hbm => 83
  | .vmem => 0
  | .smem => 0
  | _ => 0

abbrev bufTy : (tb : Table) → Fin (tcTables nBuf tb) → BufTy
  | .hbm, ⟨0, _⟩ => ⟨S1, .i32⟩
  | .hbm, ⟨1, _⟩ => ⟨S1x1x1024, .f32⟩
  | .hbm, ⟨2, _⟩ => ⟨S128000x1024, .f32⟩
  | .hbm, ⟨3, _⟩ => ⟨S3072x1024, .f32⟩
  | .hbm, ⟨4, _⟩ => ⟨S3072x1024, .f32⟩
  | .hbm, ⟨5, _⟩ => ⟨S3072, .f32⟩
  | .hbm, ⟨6, _⟩ => ⟨S3072, .f32⟩
  | .hbm, ⟨7, _⟩ => ⟨S128000x1024, .f32⟩
  | .hbm, ⟨8, _⟩ => ⟨S128000, .f32⟩
  | .hbm, ⟨9, _⟩ => ⟨S_, .i32⟩
  | .hbm, ⟨10, _⟩ => ⟨S1, .i32⟩
  | .hbm, ⟨11, _⟩ => ⟨S1, .i1⟩
  | .hbm, ⟨12, _⟩ => ⟨S_, .i32⟩
  | .hbm, ⟨13, _⟩ => ⟨S1, .i32⟩
  | .hbm, ⟨14, _⟩ => ⟨S1, .i32⟩
  | .hbm, ⟨15, _⟩ => ⟨S1, .i32⟩
  | .hbm, ⟨16, _⟩ => ⟨S1x1, .i32⟩
  | .hbm, ⟨17, _⟩ => ⟨S1x1024, .f32⟩
  | .hbm, ⟨18, _⟩ => ⟨S_, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S1024x3072, .f32⟩
  | .hbm, ⟨23, _⟩ => ⟨S1x3072, .f32⟩
  | .hbm, ⟨24, _⟩ => ⟨S1x3072, .f32⟩
  | .hbm, ⟨25, _⟩ => ⟨S1x3072, .f32⟩
  | .hbm, ⟨26, _⟩ => ⟨S1024x3072, .f32⟩
  | .hbm, ⟨27, _⟩ => ⟨S1x3072, .f32⟩
  | .hbm, ⟨28, _⟩ => ⟨S1x3072, .f32⟩
  | .hbm, ⟨29, _⟩ => ⟨S1x3072, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S1x1024, .f32⟩
  | .hbm, ⟨38, _⟩ => ⟨S1x1024, .f32⟩
  | .hbm, ⟨39, _⟩ => ⟨S_, .f32⟩
  | .hbm, ⟨40, _⟩ => ⟨S1x1024, .f32⟩
  | .hbm, ⟨41, _⟩ => ⟨S1x1024, .f32⟩
  | .hbm, ⟨42, _⟩ => ⟨S_, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S_, .f32⟩
  | .hbm, ⟨58, _⟩ => ⟨S1x1024, .f32⟩
  | .hbm, ⟨59, _⟩ => ⟨S1x1024, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1024x128000, .f32⟩
  | .hbm, ⟨64, _⟩ => ⟨S1x128000, .f32⟩
  | .hbm, ⟨65, _⟩ => ⟨S1x128000, .f32⟩
  | .hbm, ⟨66, _⟩ => ⟨S1x128000, .f32⟩
  | .hbm, ⟨67, _⟩ => ⟨S_, .f32⟩
  | .hbm, ⟨68, _⟩ => ⟨S1, .f32⟩
  | .hbm, ⟨69, _⟩ => ⟨S_, .f32⟩
  | .hbm, ⟨70, _⟩ => ⟨S1, .f32⟩
  | .hbm, ⟨71, _⟩ => ⟨S1, .f32⟩
  | .hbm, ⟨72, _⟩ => ⟨S1x1, .f32⟩
  | .hbm, ⟨73, _⟩ => ⟨S1x128000, .f32⟩
  | .hbm, ⟨74, _⟩ => ⟨S1x128000, .f32⟩
  | .hbm, ⟨75, _⟩ => ⟨S1x128000, .f32⟩
  | .hbm, ⟨76, _⟩ => ⟨S_, .f32⟩
  | .hbm, ⟨77, _⟩ => ⟨S1, .f32⟩
  | .hbm, ⟨78, _⟩ => ⟨S1x1, .f32⟩
  | .hbm, ⟨79, _⟩ => ⟨S1x1, .f32⟩
  | .hbm, ⟨80, _⟩ => ⟨S1x128000, .f32⟩
  | .hbm, ⟨81, _⟩ => ⟨S1x128000, .f32⟩
  | .hbm, ⟨82, _⟩ => ⟨S1x1x1024, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_call0_cst : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst : Ref sig .tc := ⟨.hbm, 39, rfl⟩
abbrev main_v26 : Ref sig .tc := ⟨.hbm, 40, rfl⟩
abbrev main_v27 : Ref sig .tc := ⟨.hbm, 41, rfl⟩
abbrev main_cst_1 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_2 : Ref sig .tc := ⟨.hbm, 48, rfl⟩
abbrev main_v33 : Ref sig .tc := ⟨.hbm, 49, rfl⟩
abbrev main_v34 : Ref sig .tc := ⟨.hbm, 50, rfl⟩
abbrev main_cst_3 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_4 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_call1_cst : Ref sig .tc := ⟨.hbm, 67, rfl⟩
abbrev main_call1_v0 : Ref sig .tc := ⟨.hbm, 68, rfl⟩
abbrev main_call1_cst_0 : Ref sig .tc := ⟨.hbm, 69, rfl⟩
abbrev main_call1_v1 : Ref sig .tc := ⟨.hbm, 70, rfl⟩
abbrev main_call1_v2 : Ref sig .tc := ⟨.hbm, 71, rfl⟩
abbrev main_call1_v3 : Ref sig .tc := ⟨.hbm, 72, rfl⟩
abbrev main_call1_v4 : Ref sig .tc := ⟨.hbm, 73, rfl⟩
abbrev main_call1_v5 : Ref sig .tc := ⟨.hbm, 74, rfl⟩
abbrev main_call1_v6 : Ref sig .tc := ⟨.hbm, 75, rfl⟩
abbrev main_call1_cst_1 : Ref sig .tc := ⟨.hbm, 76, rfl⟩
abbrev main_call1_v7 : Ref sig .tc := ⟨.hbm, 77, rfl⟩
abbrev main_call1_v8 : Ref sig .tc := ⟨.hbm, 78, rfl⟩
abbrev main_call1_v9 : Ref sig .tc := ⟨.hbm, 79, rfl⟩
abbrev main_call1_v10 : Ref sig .tc := ⟨.hbm, 80, rfl⟩
abbrev main_v49 : Ref sig .tc := ⟨.hbm, 81, rfl⟩
abbrev main_v50 : Ref sig .tc := ⟨.hbm, 82, rfl⟩

abbrev nD : Nat := 1
abbrev τ : Topo := Topo.v7x

variable {F : FTy → Type} [FloatOps F]

class Facts₀ : Prop where
  bcast_S_S1 : S_.BroadcastsInDim S1 (![] : Fin 0 → Fin S1.rank)
  bcast_S1_S1x1_0 : S1.BroadcastsInDim S1x1 (![0] : Fin 1 → Fin S1x1.rank)
  bcast_S_S1x1024 : S_.BroadcastsInDim S1x1024 (![] : Fin 0 → Fin S1x1024.rank)
  shapeCasts_S1x1x1024_S1x1024 : S1x1x1024.ShapeCasts S1x1024
  transposes_S3072x1024_S1024x3072_1_0 : S3072x1024.Transposes [1, 0] S1024x3072
  bcast_S3072_S1x3072_1 : S3072.BroadcastsInDim S1x3072 (![1] : Fin 1 → Fin S1x3072.rank)
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  transposes_S128000x1024_S1024x128000_1_0 : S128000x1024.Transposes [1, 0] S1024x128000
  bcast_S128000_S1x128000_1 : S128000.BroadcastsInDim S1x128000 (![1] : Fin 1 → Fin S1x128000.rank)
  reducesTo_S1x128000_S1_d1 : S1x128000.ReducesTo [1] S1
  h_S_ : 0 < S_.numel
  bcast_S1x1_S1x128000_0_1 : S1x1.BroadcastsInDim S1x128000 (![0, 1] : Fin 2 → Fin S1x128000.rank)
  bcast_S1x1024_S1x1x1024_1_2 : S1x1024.BroadcastsInDim S1x1x1024 (![1, 2] : Fin 2 → Fin S1x1x1024.rank)
  gather_S128000x1024_S1x1_S1x1024_1_0_n_n_0_1_11024_wf : GatherDims.WF S128000x1024 S1x1 S1x1024 [1] [0] [] [0] [] 1 ![1, 1024]
  dot_S1x1024_S1024x3072_S1x3072_1_0_0_1_n_n_wf : DotDims.WF S1x1024 S1024x3072 S1x3072 [1] [0] [0] [1] [] []
  dot_S1x1024_S1024x128000_S1x128000_1_0_0_1_n_n_wf : DotDims.WF S1x1024 S1024x128000 S1x128000 [1] [0] [0] [1] [] []

variable [Facts₀]

def gather_S128000x1024_S1x1_S1x1024_1_0_n_n_0_1_11024 : GatherDims S128000x1024 S1x1 S1x1024 where
  offsetDims := [1]
  collapsedSliceDims := [0]
  operandBatchingDims := []
  startIndicesBatchingDims := []
  startIndexMap := [0]
  indexVectorDim := 1
  sliceSizes := ![1, 1024]
  wf := gather_S128000x1024_S1x1_S1x1024_1_0_n_n_0_1_11024_wf
def dot_S1x1024_S1024x3072_S1x3072_1_0_0_1_n_n : DotDims S1x1024 S1024x3072 S1x3072 where
  lhsContracting := [1]
  rhsContracting := [0]
  lhsNonContracting := [0]
  rhsNonContracting := [1]
  lhsBatch := []
  rhsBatch := []
  wf := dot_S1x1024_S1024x3072_S1x3072_1_0_0_1_n_n_wf
def dot_S1x1024_S1024x128000_S1x128000_1_0_0_1_n_n : DotDims S1x1024 S1024x128000 S1x128000 where
  lhsContracting := [1]
  rhsContracting := [0]
  lhsNonContracting := [0]
  rhsNonContracting := [1]
  lhsBatch := []
  rhsBatch := []
  wf := dot_S1x1024_S1024x128000_S1x128000_1_0_0_1_n_n_wf

class Facts : Prop extends Facts₀ where

variable [Facts]
-- ==== Proof.LibRowOps.lean ====
/-
  Row gathers and row scatter-adds of a matrix, read at an index, and their commutation with a slice of columns.

  A matrix `x : [N, C]` gathered at a column `idx : [E, 1]` of row numbers gives `[E, C]`: row `e` of the result is
  row `clamp(idx e)` of `x` (the start index read signed and clamped into `[0, N - 1]`).
  A scatter-add of updates `u : [E, C]` at the same kind of column into `x : [N, C]` adds to row `r` every update
  row `e` whose index, read signed and unclamped, is `r`; rows whose index is out of range are dropped.
  Both act column by column, so both commute with taking a block of columns.
-/
import Idealize.ShloMosaic.PureOps.Ideal
import Idealize.ShloMosaic.Lib.ValueIdx

noncomputable section

open scoped BigOperators

namespace RowOps

open Idealize.ShloMosaic Idealize.ShloMosaic.ValueIdx

/-! ## A block of columns of a matrix -/

/-- The block of `C'` columns starting at column `off`, read at `(r, q)`: the matrix at `(r, off + q)`. -/
theorem colSlice_apply {α : Type} {M C C' off : Nat} (h : (⟨2, ![M, C]⟩ : Shape).Slices ![0, off] ⟨2, ![M, C']⟩)
    (x : (⟨2, ![M, C]⟩ : Shape).Idx → α) (r : Fin M) (q : Fin C') (hq : off + q.val < C) :
    extractStridedSlice ⟨2, ![M, C']⟩ ![0, off] x h (ix2 r q) = x (ix2 r ⟨off + q.val, hq⟩) := by
  unfold extractStridedSlice
  congr 1
  funext a
  match a with
  | ⟨0, _⟩ => exact Fin.ext (Nat.zero_add _)
  | ⟨1, _⟩ => rfl

/-! ## The row gather -/

section Gather
variable {α : Type}

/-- The dimension numbers of `x[idx]` over the rows of a matrix: operand `[N, C]`, start indices `[E, 1]`, result `[E, C]`. -/
abbrev gatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- The row a start index names: read signed, clamped into `[0, N - 1]`. -/
def clampRow {w : Nat} (N : Nat) (hN : 0 < N) (b : BitVec w) : Fin N := ⟨min b.toInt.toNat (N - 1), by omega⟩

/-- Entry `(e, q)` of the row gather is the matrix at the clamped row `idx e`, column `q`. -/
theorem gather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (q : Fin C) :
    Host.gather (gatherDims N E C wf) x idx (ix2 e q) = x (ix2 (clampRow N hN (idx (ix2 e 0))) q) := by
  unfold Host.gather
  congr 1
  funext a
  refine Fin.ext ?_
  match a with
  | ⟨0, _⟩ =>
    show (gatherDims N E C wf).start (ix2 e q) idx 0 + (gatherDims N E C wf).batchCoord (ix2 e q) 0
      + (gatherDims N E C wf).offCoord (ix2 e q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N E C wf).startIndexMap from List.mem_singleton.mpr rfl)]
    have hsi : (gatherDims N E C wf).siIdx (ix2 e q) ⟨List.idxOf (0 : Fin 2) (gatherDims N E C wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi]
    rfl
  | ⟨1, _⟩ =>
    show (gatherDims N E C wf).start (ix2 e q) idx 1 + (gatherDims N E C wf).batchCoord (ix2 e q) 1
      + (gatherDims N E C wf).offCoord (ix2 e q) 1 = q.val
    rw [GatherDims.batchCoord_eq_zero _ _ _ List.not_mem_nil]
    unfold GatherDims.start
    rw [dif_neg (show (1 : Fin 2) ∉ (gatherDims N E C wf).startIndexMap from by
      show (1 : Fin 2) ∉ [(0 : Fin 2)]; decide)]
    simp only [Nat.add_zero, Nat.zero_add]
    rfl

/-- The row gather commutes with a block of columns. -/
theorem gather_colSlice {N E C C' off w : Nat} (hN : 0 < N)
    (wf : GatherDims.WF ⟨2, ![N, C]⟩ ⟨2, ![E, 1]⟩ ⟨2, ![E, C]⟩ [1] [0] [] [0] [] 1 ![1, C])
    (wf' : GatherDims.WF ⟨2, ![N, C']⟩ ⟨2, ![E, 1]⟩ ⟨2, ![E, C']⟩ [1] [0] [] [0] [] 1 ![1, C'])
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : (⟨2, ![N, C]⟩ : Shape).Idx → α) (idx : IVec ⟨2, ![E, 1]⟩ w) :
    extractStridedSlice ⟨2, ![E, C']⟩ ![0, off] (Host.gather (gatherDims N E C wf) x idx) hE
      = Host.gather (gatherDims N E C' wf') (extractStridedSlice ⟨2, ![N, C']⟩ ![0, off] x hNs) idx := by
  funext j
  obtain ⟨e, q, rfl⟩ : ∃ (e : Fin E) (q : Fin C'), j = ix2 e q := ⟨j 0, j 1, eq_ix2 j⟩
  have hq : off + q.val < C := by have := q.isLt; omega
  rw [colSlice_apply hE _ e q hq, gather_apply hN wf, gather_apply hN wf', colSlice_apply hNs _ _ q hq]

end Gather

/-! ## The row scatter-add -/

section Scatter

/-- The dimension numbers of `x.at[idx].add(u)` over the rows of a matrix: operand `[N, C]`, scatter indices `[E, 1]`,
    updates `[E, C]`. -/
abbrev scatterDims (N E C : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w) (e : Fin E) (q : Fin C)

/-- Update `(e, q)` starts at the row its index names, read signed and not clamped … -/
theorem start_row : (scatterDims N E C wf).start (ix2 e q) idx 0 = (idx (ix2 e 0)).toInt := by
  unfold ScatterDims.start
  rw [dif_pos (show (0 : Fin 2) ∈ (scatterDims N E C wf).scatterDimsToOperandDims from List.mem_singleton.mpr rfl)]
  have hsi : (scatterDims N E C wf).siIdx (ix2 e q) ⟨List.idxOf (0 : Fin 2) (scatterDims N E C wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]
/-- … and at column 0 … -/
theorem start_col : (scatterDims N E C wf).start (ix2 e q) idx 1 = 0 := by
  unfold ScatterDims.start
  rw [dif_neg (show (1 : Fin 2) ∉ (scatterDims N E C wf).scatterDimsToOperandDims from by
    show (1 : Fin 2) ∉ [(0 : Fin 2)]; decide)]
/-- … its window coordinate is 0 on the rows … -/
theorem window_row : (scatterDims N E C wf).window (ix2 e q) 0 = 0 := by
  unfold ScatterDims.window
  rw [dif_neg (show (0 : Fin 2) ∉ (scatterDims N E C wf).sKept from by
    show (0 : Fin 2) ∉ (List.finRange 2).filter (fun a => a ∉ [(0 : Fin 2)]); decide)]
/-- … and its own column on the columns. -/
theorem window_col : (scatterDims N E C wf).window (ix2 e q) 1 = q.val := by
  unfold ScatterDims.window
  rw [dif_pos (show (1 : Fin 2) ∈ (scatterDims N E C wf).sKept from by
    show (1 : Fin 2) ∈ (List.finRange 2).filter (fun a => a ∉ [(0 : Fin 2)]); decide)]
  rfl

/-- Update `(e, q)` lands on `(r, p)` exactly when its index, read signed, is `r` and its column is `p`. -/
theorem resultIdx?_eq_some_iff (r : Fin N) (p : Fin C) :
    (scatterDims N E C wf).resultIdx? (ix2 e q) idx = some (ix2 r p) ↔ (idx (ix2 e 0)).toInt = (r.val : Int) ∧ q = p := by
  unfold ScatterDims.resultIdx?
  have hr := r.isLt
  have hq := q.isLt
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only [start_row, start_col, window_row, window_col] at h0 h1
      have hh := (h 0).1
      simp only [start_row, window_row] at hh
      refine ⟨?_, Fin.ext ?_⟩
      · have : ((idx (ix2 e 0)).toInt + ((0 : Nat) : Int)).toNat = r.val := h0
        omega
      · have : ((0 : Int) + ((q.val : Nat) : Int)).toNat = p.val := h1
        omega
    · rintro ⟨hs, rfl⟩
      funext a
      refine Fin.ext ?_
      match a with
      | ⟨0, _⟩ =>
        show ((scatterDims N E C wf).start (ix2 e q) idx 0 + ((scatterDims N E C wf).window (ix2 e q) 0 : Nat)).toNat = r.val
        rw [start_row, window_row, hs]; omega
      | ⟨1, _⟩ =>
        show ((scatterDims N E C wf).start (ix2 e q) idx 1 + ((scatterDims N E C wf).window (ix2 e q) 1 : Nat)).toNat = q.val
        rw [start_col, window_col]; omega
  · rename_i h
    constructor
    · intro hf; exact absurd hf (by simp)
    · rintro ⟨hs, rfl⟩
      refine absurd (fun a => ?_) h
      match a with
      | ⟨0, _⟩ =>
        show 0 ≤ (scatterDims N E C wf).start (ix2 e q) idx 0 + ((scatterDims N E C wf).window (ix2 e q) 0 : Nat)
          ∧ (scatterDims N E C wf).start (ix2 e q) idx 0 + ((scatterDims N E C wf).window (ix2 e q) 0 : Nat) < (N : Int)
        rw [start_row, window_row, hs]; omega
      | ⟨1, _⟩ =>
        show 0 ≤ (scatterDims N E C wf).start (ix2 e q) idx 1 + ((scatterDims N E C wf).window (ix2 e q) 1 : Nat)
          ∧ (scatterDims N E C wf).start (ix2 e q) idx 1 + ((scatterDims N E C wf).window (ix2 e q) 1 : Nat) < (C : Int)
        rw [start_col, window_col]; omega

/-- Entry `(r, p)` of the scatter-add over the extended reals: the operand's entry plus the sum of column `p` of the
    update rows whose index is `r`. -/
theorem scatterAdd_apply {φ : FTy} (x : FVec Ideal ⟨2, ![N, C]⟩ φ) (upd : FVec Ideal ⟨2, ![E, C]⟩ φ) (r : Fin N) (p : Fin C) :
    Host.scatterAdd (F := Ideal) (scatterDims N E C wf) x idx upd (ix2 r p)
      = x (ix2 r p) + ∑ e ∈ Finset.univ.filter (fun e : Fin E => (idx (ix2 e 0)).toInt = (r.val : Int)), upd (ix2 e p) := by
  unfold Host.scatterAdd
  rw [Ideal.hostScatterAdd_def]
  unfold Ideal.hostScatterAdd
  congr 1
  rw [Finset.sum_filter, sum_idx2, Finset.sum_filter]
  refine Finset.sum_congr rfl fun e _ => ?_
  simp only [resultIdx?_eq_some_iff]
  by_cases hs : (idx (ix2 e 0)).toInt = (r.val : Int)
  · simp [hs]
  · simp [hs]

end Scatter

/-- The row scatter-add commutes with a block of columns (of the operand, of the updates, of the result). -/
theorem scatterAdd_colSlice {N E C C' off w : Nat} {φ : FTy}
    (wf : ScatterDims.WF ⟨2, ![N, C]⟩ ⟨2, ![E, 1]⟩ ⟨2, ![E, C]⟩ [1] [0] [0] 1)
    (wf' : ScatterDims.WF ⟨2, ![N, C']⟩ ⟨2, ![E, 1]⟩ ⟨2, ![E, C']⟩ [1] [0] [0] 1)
    (hE : (⟨2, ![E, C]⟩ : Shape).Slices ![0, off] ⟨2, ![E, C']⟩)
    (hNs : (⟨2, ![N, C]⟩ : Shape).Slices ![0, off] ⟨2, ![N, C']⟩) (hoff : off + C' ≤ C)
    (x : FVec Ideal ⟨2, ![N, C]⟩ φ) (idx : IVec ⟨2, ![E, 1]⟩ w) (upd : FVec Ideal ⟨2, ![E, C]⟩ φ) :
    extractStridedSlice ⟨2, ![N, C']⟩ ![0, off] (Host.scatterAdd (F := Ideal) (scatterDims N E C wf) x idx upd) hNs
      = Host.scatterAdd (F := Ideal) (scatterDims N E C' wf') (extractStridedSlice ⟨2, ![N, C']⟩ ![0, off] x hNs) idx
          (extractStridedSlice ⟨2, ![E, C']⟩ ![0, off] upd hE) := by
  funext j
  obtain ⟨r, p, rfl⟩ : ∃ (r : Fin N) (p : Fin C'), j = ix2 r p := ⟨j 0, j 1, eq_ix2 j⟩
  have hp : off + p.val < C := by have := p.isLt; omega
  rw [colSlice_apply hNs _ r p hp, scatterAdd_apply wf, scatterAdd_apply wf', colSlice_apply hNs _ r p hp]
  congr 1
  refine Finset.sum_congr rfl fun e _ => ?_
  rw [colSlice_apply hE _ e p hp]

end RowOps

end
-- ==== Proof.Spec.lean ====
/-
  One decoding step of a GRU language model, as functions on extended reals, index by index.

  A token's embedding row is rectified; two affine maps of it and of the previous hidden row give the gate
  pre-activations; the gates (reset, update, candidate: columns [0,1024), [1024,2048), [2048,3072)) give the new
  hidden row; an affine map of that row gives the 128000 logits; the result is their log-softmax.
  The log-softmax is written twice: over the whole row at once, and from the maxima and shifted exponential sums of
  the 25 consecutive tiles of 5120 logits.
-/
import Idealize.ShloMosaic.PureOps.Ideal
import Idealize.ShloMosaic.Lib.ValueIdx
import proofs.«401664_j15015205666921_3_alg».proof.Proof.LibRowOps

noncomputable section

open scoped BigOperators

namespace GruStep

open Idealize.ShloMosaic Idealize.ShloMosaic.ValueIdx

abbrev Row : Shape := ⟨2, ![1, 1024]⟩
abbrev Hid3 : Shape := ⟨3, ![1, 1, 1024]⟩
abbrev Gates : Shape := ⟨2, ![1, 3072]⟩
abbrev GateW : Shape := ⟨2, ![3072, 1024]⟩
abbrev GateB : Shape := ⟨1, ![3072]⟩
abbrev Logit : Shape := ⟨2, ![1, 128000]⟩
abbrev ProjW : Shape := ⟨2, ![128000, 1024]⟩
abbrev ProjB : Shape := ⟨1, ![128000]⟩
abbrev Stat : Shape := ⟨3, ![25, 1, 128]⟩

/-- Row `tok` of the embedding table (the token read signed and clamped into the table), as a [1, 1024] row. -/
def tokenRow (emb : ProjW.Idx → EReal) (tok : BitVec 32) : Row.Idx → EReal :=
  fun j => emb (ix2 (RowOps.clampRow 128000 (by decide) tok) (j 1))

/-- The rectifier: the larger of each entry and zero. -/
def relu (x : Row.Idx → EReal) : Row.Idx → EReal := fun j => max (x j) 0

/-- A rank-1 array as a [1, n] row. -/
def gateRow (b : GateB.Idx → EReal) : Gates.Idx → EReal := fun j => b (ix1 (j 1))
def logitRow (b : ProjB.Idx → EReal) : Logit.Idx → EReal := fun j => b (ix1 (j 1))
/-- The [1, 1, 1024] hidden state as a [1, 1024] row, and back. -/
def hidRow (h : Hid3.Idx → EReal) : Row.Idx → EReal := fun j => h (ix3 0 0 (j 1))
def hid3 (h : Row.Idx → EReal) : Hid3.Idx → EReal := fun i => h (ix2 0 (i 2))

/-- Gate pre-activations: entry j is the row's inner product with row j of the weights, plus the bias. -/
def gate (x : Row.Idx → EReal) (w : GateW.Idx → EReal) (b : Gates.Idx → EReal) : Gates.Idx → EReal :=
  fun j => (∑ k : Fin 1024, x (ix2 0 k) * w (ix2 (j 1) k)) + b j

/-- Column `off + q` of a [1, 3072] row. -/
def gcol (g : Gates.Idx → EReal) (off : Nat) (q : Fin 1024) (h : off + 1024 ≤ 3072) : EReal :=
  g (ix2 0 ⟨off + q.val, by have := q.isLt; omega⟩)

/-- The new hidden row: with r = σ(i_r + h_r), z = σ(i_z + h_z), n = tanh(i_n + r · h_n), it is (1 − z) · n + z · h. -/
def hnew (gi gh : Gates.Idx → EReal) (h : Row.Idx → EReal) : Row.Idx → EReal := fun j =>
  let r := Ideal.logistic (gcol gi 0 (j 1) (by decide) + gcol gh 0 (j 1) (by decide))
  let z := Ideal.logistic (gcol gi 1024 (j 1) (by decide) + gcol gh 1024 (j 1) (by decide))
  let n := Ideal.tanh (gcol gi 2048 (j 1) (by decide) + r * gcol gh 2048 (j 1) (by decide))
  (1 - z) * n + z * h j

/-- The logits: entry v is the hidden row's inner product with row v of the output weights, plus the bias. -/
def proj (hn : Row.Idx → EReal) (w : ProjW.Idx → EReal) (b : Logit.Idx → EReal) : Logit.Idx → EReal :=
  fun v => (∑ k : Fin 1024, hn (ix2 0 k) * w (ix2 (v 1) k)) + b v

/-- Logit number j of tile t. -/
def tileIx (t : Fin 25) (j : Fin 5120) : Logit.Idx :=
  ix2 0 ⟨5120 * t.val + j.val, by have := t.isLt; have := j.isLt; omega⟩

/-- A tile's maximum, and its sum of exponentials shifted by that maximum. -/
def tileMax (L : Logit.Idx → EReal) (t : Fin 25) : EReal := Finset.univ.fold max ⊥ fun j : Fin 5120 => L (tileIx t j)
def tileSum (L : Logit.Idx → EReal) (t : Fin 25) : EReal := ∑ j : Fin 5120, Ideal.exp (L (tileIx t j) - tileMax L t)

/-- The log-softmax recombined from per-tile maxima `mt` and shifted sums `st`: with g their maximum,
    entry v is L v − (g + log Σ_t exp(mt t − g) · st t). -/
def lsmFrom (L : Logit.Idx → EReal) (mt st : Fin 25 → EReal) : Logit.Idx → EReal := fun v =>
  L v - (Finset.univ.fold max ⊥ mt + Ideal.log (∑ t : Fin 25, Ideal.exp (mt t - Finset.univ.fold max ⊥ mt) * st t))

/-- The log-softmax from the 25 tiles' own statistics. -/
def lsmTiled (L : Logit.Idx → EReal) : Logit.Idx → EReal := lsmFrom L (tileMax L) (tileSum L)

/-- The log-softmax over the whole row: with M the row's maximum, entry v is (L v − M) − log Σ_u exp(L u − M). -/
def rowMax (L : Logit.Idx → EReal) : EReal := Finset.univ.fold max ⊥ fun u : Fin 128000 => L (ix2 0 u)
def lsmRow (L : Logit.Idx → EReal) : Logit.Idx → EReal := fun v =>
  (L v - rowMax L) - Ideal.log (∑ u : Fin 128000, Ideal.exp (L (ix2 0 u) - rowMax L))

/-- The whole step from the nine arguments. -/
def hiddenOf (tok : BitVec 32) (h : Hid3.Idx → EReal) (emb : ProjW.Idx → EReal) (wih whh : GateW.Idx → EReal)
    (bih bhh : GateB.Idx → EReal) : Row.Idx → EReal :=
  hnew (gate (relu (tokenRow emb tok)) wih (gateRow bih)) (gate (hidRow h) whh (gateRow bhh)) (hidRow h)

def logitsOf (tok : BitVec 32) (h : Hid3.Idx → EReal) (emb : ProjW.Idx → EReal) (wih whh : GateW.Idx → EReal)
    (bih bhh : GateB.Idx → EReal) (wout : ProjW.Idx → EReal) (bout : ProjB.Idx → EReal) : Logit.Idx → EReal :=
  proj (hiddenOf tok h emb wih whh bih bhh) wout (logitRow bout)

/-- The token id: the one entry of the [1] index array; it is in range when, read signed, it lies in [0, 128000). -/
def tokOf (a0 : (⟨1, ![1]⟩ : Shape).Idx → BitVec 32) : BitVec 32 := a0 (ix1 0)
def TokOk (t : BitVec 32) : Prop := 0 ≤ t.toInt ∧ t.toInt < 128000

/-- Every entry is a real number. -/
def IsReal {ι : Type} (f : ι → EReal) : Prop := ∀ i, ∃ r : ℝ, f i = (r : EReal)

end GruStep

end
-- ==== Proof.K0Value.lean ====
import proofs.«401664_j15015205666921_3_alg».proof.Proof.Gen.KernelIdeal.Frame
import proofs.«401664_j15015205666921_3_alg».proof.Proof.Spec
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace GruStep.K0

variable (V : (c : Dev nD) → (b : Ref sig .tc) → Buf (Elt Ideal) ((c : Thread nD τ).loc b))

/-! ## The block products read at an index -/

/-- The dot's operand indices at output index (p, q) and contraction index k: (p, k) and (q, k). -/
theorem dotL0 (i : S1x1536.Idx) (k : dot_S1x1024_S1536x1024_S1x1536_1_1_0_0_n_n.contr.Idx) :
    (dot_S1x1024_S1536x1024_S1x1536_1_1_0_0_n_n.lhsIdx i k 0).val = (i 0).val := by
  unfold DotDims.lhsIdx
  rw [dif_neg (show ¬(0 : Fin S1x1024.rank) ∈ dot_S1x1024_S1536x1024_S1x1536_1_1_0_0_n_n.lhsBatch by decide),
    dif_pos (show (0 : Fin S1x1024.rank) ∈ dot_S1x1024_S1536x1024_S1x1536_1_1_0_0_n_n.lhsNonContracting by decide)]
  rfl
theorem dotL1 (i : S1x1536.Idx) (k : dot_S1x1024_S1536x1024_S1x1536_1_1_0_0_n_n.contr.Idx) :
    (dot_S1x1024_S1536x1024_S1x1536_1_1_0_0_n_n.lhsIdx i k 1).val = (k ⟨0, by decide⟩).val :=
  dot_S1x1024_S1536x1024_S1x1536_1_1_0_0_n_n.lhsIdx_val_of_single rfl i k
theorem dotR0 (i : S1x1536.Idx) (k : dot_S1x1024_S1536x1024_S1x1536_1_1_0_0_n_n.contr.Idx) :
    (dot_S1x1024_S1536x1024_S1x1536_1_1_0_0_n_n.rhsIdx i k 0).val = (i 1).val := by
  unfold DotDims.rhsIdx
  rw [dif_neg (show ¬(0 : Fin S1536x1024.rank) ∈ dot_S1x1024_S1536x1024_S1x1536_1_1_0_0_n_n.rhsBatch by decide),
    dif_pos (show (0 : Fin S1536x1024.rank) ∈ dot_S1x1024_S1536x1024_S1x1536_1_1_0_0_n_n.rhsNonContracting by decide)]
  rfl
theorem dotR1 (i : S1x1536.Idx) (k : dot_S1x1024_S1536x1024_S1x1536_1_1_0_0_n_n.contr.Idx) :
    (dot_S1x1024_S1536x1024_S1x1536_1_1_0_0_n_n.rhsIdx i k 1).val = (k ⟨0, by decide⟩).val :=
  dot_S1x1024_S1536x1024_S1x1536_1_1_0_0_n_n.rhsIdx_val_of_single rfl i k

/-- The block product into the zero accumulator, at column q: the row's inner product with row q of the block. -/
theorem mm_apply (x : FVec Ideal S1x1024 .f32) (w : FVec Ideal S1536x1024 .f32) (p : Fin 1) (q : Fin 1536) :
    matmul (F := Ideal) dot_S1x1024_S1536x1024_S1x1536_1_1_0_0_n_n none x w (constant (F := Ideal) S1x1536 .f32 0x00000000#32) (ix2 p q)
      = ∑ k : Fin 1024, x (ix2 0 k) * w (ix2 q k) := by
  refine (Ideal.matmul_constant_zero_apply dot_S1x1024_S1536x1024_S1x1536_1_1_0_0_n_n none x w (ix2 p q)).trans ?_
  rw [← Equiv.sum_comp (contrEquiv1 dot_S1x1024_S1536x1024_S1x1536_1_1_0_0_n_n 1024 rfl rfl).symm]
  refine Finset.sum_congr rfl fun k _ => ?_
  have hk := contrEquiv1_symm_val dot_S1x1024_S1536x1024_S1x1536_1_1_0_0_n_n 1024 rfl rfl k
  have el : dot_S1x1024_S1536x1024_S1x1536_1_1_0_0_n_n.lhsIdx (ix2 p q) ((contrEquiv1 dot_S1x1024_S1536x1024_S1x1536_1_1_0_0_n_n 1024 rfl rfl).symm k) = ix2 0 k :=
    funext fun a => Fin.ext (by
      match a with
      | ⟨0, _⟩ => exact (dotL0 _ _).trans (by have := p.isLt; show p.val = 0; omega)
      | ⟨1, _⟩ => exact (dotL1 _ _).trans hk)
  have er : dot_S1x1024_S1536x1024_S1x1536_1_1_0_0_n_n.rhsIdx (ix2 p q) ((contrEquiv1 dot_S1x1024_S1536x1024_S1x1536_1_1_0_0_n_n 1024 rfl rfl).symm k) = ix2 q k :=
    funext fun a => Fin.ext (by
      match a with
      | ⟨0, _⟩ => exact dotR0 _ _
      | ⟨1, _⟩ => exact (dotR1 _ _).trans hk)
  rw [el, er]

/-- The first payload at column q of a block: the rectified row's inner product with row q of the weight block, plus the bias block's entry. -/
theorem pay1_apply (x : Vec Ideal S1x1024 .f32) (w : Vec Ideal S1536x1024 .f32) (b : Vec Ideal S1x1536 .f32) (p : Fin 1) (q : Fin 1536) :
    k0_pay1 (F := Ideal) x w b (ix2 p q) = (∑ k : Fin 1024, max (x (ix2 0 k)) 0 * w (ix2 q k)) + b (ix2 p q) := by
  unfold k0_pay1
  simp only [shapeCast_self]
  show _ + b (ix2 p q) = _
  rw [mm_apply]
  congr 1
  refine Finset.sum_congr rfl fun k _ => ?_
  congr 1
  show max (x (ix2 0 k)) (Ideal.ofBits .f32 0x00000000#32) = _
  rw [Ideal.ofBits_zero_f32]

/-- The second payload at column q of a block: the row's inner product with row q of the weight block, plus the bias block's entry. -/
theorem pay2_apply (x : Vec Ideal S1x1024 .f32) (w : Vec Ideal S1536x1024 .f32) (b : Vec Ideal S1x1536 .f32) (p : Fin 1) (q : Fin 1536) :
    k0_pay2 (F := Ideal) x w b (ix2 p q) = (∑ k : Fin 1024, x (ix2 0 k) * w (ix2 q k)) + b (ix2 p q) := by
  unfold k0_pay2
  simp only [shapeCast_self]
  show _ + b (ix2 p q) = _
  rw [mm_apply]

/-! ## What each grid point writes back -/

theorem hz : (![0, 0] : Fin 2 → Nat) = fun _ => 0 := funext fun a => by fin_cases a <;> rfl

/-- The index maps over the two grid points: the row and its bias are read whole or by the point's column block, the
    weights by the point's row block; the output's column block is the point's. -/
theorem idx_facts : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = 0 ∧ win0_4.index t (1 : Fin 2) = t.val
    ∧ win0_5.index t (0 : Fin 2) = 0 ∧ win0_5.index t (1 : Fin 2) = t.val
    ∧ win0_6.index t (0 : Fin 2) = 0 ∧ win0_6.index t (1 : Fin 2) = t.val
    ∧ win0_7.index t (0 : Fin 2) = 0 ∧ win0_7.index t (1 : Fin 2) = t.val :=
  (by decide +kernel : ∀ t : Fin grid0.N, _)

/-- What point t writes back to window 6 is its block of the gate row of the rectified input row: the row and the
    weights' row block t against it, plus the bias's column block t. -/
theorem flushed6_eq (c : Dev nD) (t : Fin cfg0.N) :
    (dat0 (F := Ideal) V c).flushed 6 t = ((cfg0.win 6).blk t).view.read (Elt Ideal)
      (GruStep.gate (GruStep.relu (V c main_v1)) (V c main_arg3) (V c main_v3)) := by
  show (cfg0.win 6).cut (grid0.coords t) ((dat0 (F := Ideal) V c).after 6 t) = _
  rw [after0_6]
  unfold out0_6
  rw [View.canon_unit_zero hz]
  simp only [View.ld_unit_zero (S := S1x1024) hz, View.ld_unit_zero (S := S1536x1024) hz, View.ld_unit_zero (S := S1x1536) hz]
  funext j
  obtain ⟨p, q, rfl⟩ : ∃ (p : Fin 1) (q : Fin 1536), j = ix2 p q := ⟨j 0, j 1, eq_ix2 j⟩
  obtain ⟨a00, a01, a10, a11, a20, a21, a30, a31, a40, a41, a50, a51, a60, a61, a70, a71⟩ := idx_facts t
  refine (pay1_apply _ _ _ p q).trans ?_
  have hN : cfg0.N = 2 := N_0
  have ht := t.isLt
  have hq := q.isLt
  have hp := p.isLt
  have e0 : ∀ k : Fin 1024, iblk0 V c 0 t (ix2 0 k) = V c main_v1 (ix2 0 k) := fun k => by
    show V c main_v1 (((cfg0.win 0).blk t).view.emb (ix2 0 k)) = _
    refine congrArg (fun i : S1x1024.Idx => V c main_v1 i) ?_
    funext a; apply Fin.ext
    match a with
    | ⟨0, _⟩ => show win0_0.index t (0 : Fin 2) * 1 + 1 * 0 = 0; omega
    | ⟨1, _⟩ => show win0_0.index t (1 : Fin 2) * 1024 + 1 * k.val = k.val; omega
  have e2 : ∀ k : Fin 1024, iblk0 V c 2 t (ix2 q k) = V c main_arg3 (ix2 (⟨t.val * 1536 + q.val, by omega⟩ : Fin 3072) k) := fun k => by
    show V c main_arg3 (((cfg0.win 2).blk t).view.emb (ix2 q k)) = _
    refine congrArg (fun i : S3072x1024.Idx => V c main_arg3 i) ?_
    funext a; apply Fin.ext
    match a with
    | ⟨0, _⟩ => show win0_2.index t (0 : Fin 2) * 1536 + 1 * q.val = t.val * 1536 + q.val; omega
    | ⟨1, _⟩ => show win0_2.index t (1 : Fin 2) * 1024 + 1 * k.val = k.val; omega
  have e4 : iblk0 V c 4 t (ix2 p q) = V c main_v3 (ix2 (0 : Fin 1) (⟨t.val * 1536 + q.val, by omega⟩ : Fin 3072)) := by
    show V c main_v3 (((cfg0.win 4).blk t).view.emb (ix2 p q)) = _
    refine congrArg (fun i : S1x3072.Idx => V c main_v3 i) ?_
    funext a; apply Fin.ext
    match a with
    | ⟨0, _⟩ => show win0_4.index t (0 : Fin 2) * 1 + 1 * p.val = 0; omega
    | ⟨1, _⟩ => show win0_4.index t (1 : Fin 2) * 1536 + 1 * q.val = t.val * 1536 + q.val; omega
  have e6 : ((cfg0.win 6).blk t).view.emb (ix2 p q) = (ix2 (0 : Fin 1) (⟨t.val * 1536 + q.val, by omega⟩ : Fin 3072) : S1x3072.Idx) := by
    funext a; apply Fin.ext
    match a with
    | ⟨0, _⟩ => show win0_6.index t (0 : Fin 2) * 1 + 1 * p.val = 0; omega
    | ⟨1, _⟩ => show win0_6.index t (1 : Fin 2) * 1536 + 1 * q.val = t.val * 1536 + q.val; omega
  show _ = GruStep.gate (GruStep.relu (V c main_v1)) (V c main_arg3) (V c main_v3) (((cfg0.win 6).blk t).view.emb (ix2 p q))
  rw [e6, e4]
  simp only [e0, e2]
  rfl

/-- What point t writes back to window 7 is its block of the gate row of the hidden row. -/
theorem flushed7_eq (c : Dev nD) (t : Fin cfg0.N) :
    (dat0 (F := Ideal) V c).flushed 7 t = ((cfg0.win 7).blk t).view.read (Elt Ideal)
      (GruStep.gate (V c main_v2) (V c main_arg4) (V c main_v4)) := by
  show (cfg0.win 7).cut (grid0.coords t) ((dat0 (F := Ideal) V c).after 7 t) = _
  rw [after0_7]
  unfold out0_7
  rw [View.canon_unit_zero hz]
  simp only [View.ld_unit_zero (S := S1x1024) hz, View.ld_unit_zero (S := S1536x1024) hz, View.ld_unit_zero (S := S1x1536) hz]
  funext j
  obtain ⟨p, q, rfl⟩ : ∃ (p : Fin 1) (q : Fin 1536), j = ix2 p q := ⟨j 0, j 1, eq_ix2 j⟩
  obtain ⟨a00, a01, a10, a11, a20, a21, a30, a31, a40, a41, a50, a51, a60, a61, a70, a71⟩ := idx_facts t
  refine (pay2_apply _ _ _ p q).trans ?_
  have hN : cfg0.N = 2 := N_0
  have ht := t.isLt
  have hq := q.isLt
  have hp := p.isLt
  have e1 : ∀ k : Fin 1024, iblk0 V c 1 t (ix2 0 k) = V c main_v2 (ix2 0 k) := fun k => by
    show V c main_v2 (((cfg0.win 1).blk t).view.emb (ix2 0 k)) = _
    refine congrArg (fun i : S1x1024.Idx => V c main_v2 i) ?_
    funext a; apply Fin.ext
    match a with
    | ⟨0, _⟩ => show win0_1.index t (0 : Fin 2) * 1 + 1 * 0 = 0; omega
    | ⟨1, _⟩ => show win0_1.index t (1 : Fin 2) * 1024 + 1 * k.val = k.val; omega
  have e3 : ∀ k : Fin 1024, iblk0 V c 3 t (ix2 q k) = V c main_arg4 (ix2 (⟨t.val * 1536 + q.val, by omega⟩ : Fin 3072) k) := fun k => by
    show V c main_arg4 (((cfg0.win 3).blk t).view.emb (ix2 q k)) = _
    refine congrArg (fun i : S3072x1024.Idx => V c main_arg4 i) ?_
    funext a; apply Fin.ext
    match a with
    | ⟨0, _⟩ => show win0_3.index t (0 : Fin 2) * 1536 + 1 * q.val = t.val * 1536 + q.val; omega
    | ⟨1, _⟩ => show win0_3.index t (1 : Fin 2) * 1024 + 1 * k.val = k.val; omega
  have e5 : iblk0 V c 5 t (ix2 p q) = V c main_v4 (ix2 (0 : Fin 1) (⟨t.val * 1536 + q.val, by omega⟩ : Fin 3072)) := by
    show V c main_v4 (((cfg0.win 5).blk t).view.emb (ix2 p q)) = _
    refine congrArg (fun i : S1x3072.Idx => V c main_v4 i) ?_
    funext a; apply Fin.ext
    match a with
    | ⟨0, _⟩ => show win0_5.index t (0 : Fin 2) * 1 + 1 * p.val = 0; omega
    | ⟨1, _⟩ => show win0_5.index t (1 : Fin 2) * 1536 + 1 * q.val = t.val * 1536 + q.val; omega
  have e7 : ((cfg0.win 7).blk t).view.emb (ix2 p q) = (ix2 (0 : Fin 1) (⟨t.val * 1536 + q.val, by omega⟩ : Fin 3072) : S1x3072.Idx) := by
    funext a; apply Fin.ext
    match a with
    | ⟨0, _⟩ => show win0_7.index t (0 : Fin 2) * 1 + 1 * p.val = 0; omega
    | ⟨1, _⟩ => show win0_7.index t (1 : Fin 2) * 1536 + 1 * q.val = t.val * 1536 + q.val; omega
  show _ = GruStep.gate (V c main_v2) (V c main_arg4) (V c main_v4) (((cfg0.win 7).blk t).view.emb (ix2 p q))
  rw [e7, e5]
  simp only [e1, e3]
  rfl

/-! ## The two column blocks cover the gate row -/

/-- An index of the gate row is in point t's block of window 6 iff each coordinate is in the block's range on its axis. -/
theorem mem_blk6 (t : Fin cfg0.N) (i : S1x3072.Idx) :
    i ∈ ((cfg0.win 6).blk t).view.set ↔ ∀ a : Fin 2, win0_6.index t a * S1x1536.size a ≤ (i a).val ∧ (i a).val < win0_6.index t a * S1x1536.size a + S1x1536.size a := by
  show i ∈ ((View.whole main_v6_0).slice (win0_6.rect t)).set ↔ _
  rw [View.set_slice_whole, Rect.mem_set_unit]
  exact Iff.rfl

theorem mem_blk7 (t : Fin cfg0.N) (i : S1x3072.Idx) :
    i ∈ ((cfg0.win 7).blk t).view.set ↔ ∀ a : Fin 2, win0_7.index t a * S1x1536.size a ≤ (i a).val ∧ (i a).val < win0_7.index t a * S1x1536.size a + S1x1536.size a := by
  show i ∈ ((View.whole main_v6_1).slice (win0_7.rect t)).set ↔ _
  rw [View.set_slice_whole, Rect.mem_set_unit]
  exact Iff.rfl

/-- Column q of the gate row lies in the block of point q / 1536. -/
theorem cover6 (i : S1x3072.Idx) : ∃ t : Fin cfg0.N, (cfg0.win 6).flush t = true ∧ i ∈ ((cfg0.win 6).blk t).view.set := by
  have hN : cfg0.N = 2 := N_0
  have h0 : (i 0).val < 1 := (i 0).isLt
  have h1 : (i 1).val < 3072 := (i 1).isLt
  obtain ⟨t, ht⟩ : ∃ t : Fin cfg0.N, t.val = (i 1).val / 1536 := ⟨⟨(i 1).val / 1536, by omega⟩, rfl⟩
  obtain ⟨a00, a01, a10, a11, a20, a21, a30, a31, a40, a41, a50, a51, a60, a61, a70, a71⟩ := idx_facts t
  refine ⟨t, flush0_6 t, ?_⟩
  rw [mem_blk6]
  intro a
  match a with
  | ⟨0, _⟩ => show win0_6.index t (0 : Fin 2) * 1 ≤ (i 0).val ∧ (i 0).val < win0_6.index t (0 : Fin 2) * 1 + 1; omega
  | ⟨1, _⟩ => show win0_6.index t (1 : Fin 2) * 1536 ≤ (i 1).val ∧ (i 1).val < win0_6.index t (1 : Fin 2) * 1536 + 1536; omega

theorem cover7 (i : S1x3072.Idx) : ∃ t : Fin cfg0.N, (cfg0.win 7).flush t = true ∧ i ∈ ((cfg0.win 7).blk t).view.set := by
  have hN : cfg0.N = 2 := N_0
  have h0 : (i 0).val < 1 := (i 0).isLt
  have h1 : (i 1).val < 3072 := (i 1).isLt
  obtain ⟨t, ht⟩ : ∃ t : Fin cfg0.N, t.val = (i 1).val / 1536 := ⟨⟨(i 1).val / 1536, by omega⟩, rfl⟩
  obtain ⟨a00, a01, a10, a11, a20, a21, a30, a31, a40, a41, a50, a51, a60, a61, a70, a71⟩ := idx_facts t
  refine ⟨t, flush0_7 t, ?_⟩
  rw [mem_blk7]
  intro a
  match a with
  | ⟨0, _⟩ => show win0_7.index t (0 : Fin 2) * 1 ≤ (i 0).val ∧ (i 0).val < win0_7.index t (0 : Fin 2) * 1 + 1; omega
  | ⟨1, _⟩ => show win0_7.index t (1 : Fin 2) * 1536 ≤ (i 1).val ∧ (i 1).val < win0_7.index t (1 : Fin 2) * 1536 + 1536; omega

theorem gi_final (c : Dev nD) :
    (dat0 (F := Ideal) V c).arrAt 6 cfg0.N
      = GruStep.gate (GruStep.relu (V c main_v1)) (V c main_arg3) (V c main_v3) :=
  (dat0 (F := Ideal) V c).arrAt_eq_of_cover 6 _ (fun t _ => flushed6_eq V c t) cover6

theorem gh_final (c : Dev nD) :
    (dat0 (F := Ideal) V c).arrAt 7 cfg0.N
      = GruStep.gate (V c main_v2) (V c main_arg4) (V c main_v4) :=
  (dat0 (F := Ideal) V c).arrAt_eq_of_cover 7 _ (fun t _ => flushed7_eq V c t) cover7

end GruStep.K0

end
-- ==== Proof.K1Value.lean ====
import proofs.«401664_j15015205666921_3_alg».proof.Proof.Gen.KernelIdeal.Frame
import proofs.«401664_j15015205666921_3_alg».proof.Proof.Spec
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace GruStep.K1

variable (V : (c : Dev nD) → (b : Ref sig .tc) → Buf (Elt Ideal) ((c : Thread nD τ).loc b))

/-- The bit pattern of the constant one denotes the extended real 1. -/
theorem one_bits : (Scalar.ofBits (F := Ideal) .f32 0x3F800000#32 : EReal) = 1 := by
  show Ideal.ofBits .f32 0x3F800000#32 = 1
  simp [Ideal.ofBits, Ideal.ieee, -EReal.coe_mul]; norm_num

/-- The body's arithmetic, entry by entry: the three column blocks of the two gate rows, the two sigmoids,
    the hyperbolic tangent and the convex combination with the old row are the new hidden row of the loaded blocks. -/
theorem pay1_apply (x0 x1 : Vec Ideal S1x3072 .f32) (x2 : Vec Ideal S1x1024 .f32) (j : S1x1024.Idx) :
    k1_pay1 (F := Ideal) x0 x1 x2 j = GruStep.hnew x0 x1 x2 j := by
  obtain ⟨p, q, rfl⟩ : ∃ (p : Fin 1) (q : Fin 1024), j = ix2 p q := ⟨j 0, j 1, eq_ix2 j⟩
  obtain rfl : p = 0 := Subsingleton.elim _ _
  have hq := q.isLt
  have h0 : 0 + q.val < 3072 := by omega
  have h1 : 1024 + q.val < 3072 := by omega
  have h2 : 2048 + q.val < 3072 := by omega
  unfold k1_pay1
  simp only [shapeCast_self]
  simp only [addf, mulf, subf, logistic, tanh, broadcast]
  rw [RowOps.colSlice_apply slices_S1x3072_o0_0_S1x1024 x0 0 q h0,
    RowOps.colSlice_apply slices_S1x3072_o0_0_S1x1024 x1 0 q h0,
    RowOps.colSlice_apply slices_S1x3072_o0_1024_S1x1024 x0 0 q h1,
    RowOps.colSlice_apply slices_S1x3072_o0_1024_S1x1024 x1 0 q h1,
    RowOps.colSlice_apply slices_S1x3072_o0_2048_S1x1024 x0 0 q h2,
    RowOps.colSlice_apply slices_S1x3072_o0_2048_S1x1024 x1 0 q h2]
  simp only [Ideal.addf_def, Ideal.mulf_def, Ideal.subf_def, Ideal.logistic_def, Ideal.tanh_def]
  rw [one_bits]
  rfl

theorem hz : (![0, 0] : Fin 2 → Nat) = fun _ => 0 := funext fun a => by fin_cases a <;> rfl

/-- The index maps, decided over the one grid point: every window's block index is zero on both axes. -/
theorem idx_facts : ∀ t : Fin cfg1.N, win1_0.index t (0 : Fin 2) = 0 ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0 :=
  (by decide +kernel : ∀ t : Fin grid1.N, _)

/-- Each input window's one block is its whole array. -/
theorem iblk_0 (c : Dev nD) (t : Fin cfg1.N) : iblk1 (F := Ideal) V c 0 t = V c main_v6_0 := by
  obtain ⟨a0, a1, -⟩ := idx_facts t
  funext k
  show V c main_v6_0 (((cfg1.win 0).blk t).view.emb k) = V c main_v6_0 k
  congr 1; funext a; apply Fin.ext
  match a with
  | ⟨0, _⟩ => show win1_0.index t (0 : Fin 2) * 1 + 1 * (k 0).val = (k 0).val; omega
  | ⟨1, _⟩ => show win1_0.index t (1 : Fin 2) * 3072 + 1 * (k 1).val = (k 1).val; omega

theorem iblk_1 (c : Dev nD) (t : Fin cfg1.N) : iblk1 (F := Ideal) V c 1 t = V c main_v6_1 := by
  obtain ⟨-, -, b0, b1, -⟩ := idx_facts t
  funext k
  show V c main_v6_1 (((cfg1.win 1).blk t).view.emb k) = V c main_v6_1 k
  congr 1; funext a; apply Fin.ext
  match a with
  | ⟨0, _⟩ => show win1_1.index t (0 : Fin 2) * 1 + 1 * (k 0).val = (k 0).val; omega
  | ⟨1, _⟩ => show win1_1.index t (1 : Fin 2) * 3072 + 1 * (k 1).val = (k 1).val; omega

theorem iblk_2 (c : Dev nD) (t : Fin cfg1.N) : iblk1 (F := Ideal) V c 2 t = V c main_v2 := by
  obtain ⟨-, -, -, -, c0, c1, -⟩ := idx_facts t
  funext k
  show V c main_v2 (((cfg1.win 2).blk t).view.emb k) = V c main_v2 k
  congr 1; funext a; apply Fin.ext
  match a with
  | ⟨0, _⟩ => show win1_2.index t (0 : Fin 2) * 1 + 1 * (k 0).val = (k 0).val; omega
  | ⟨1, _⟩ => show win1_2.index t (1 : Fin 2) * 1024 + 1 * (k 1).val = (k 1).val; omega

/-- What the one point writes back is the block of the new hidden row of the arrays as the region finds them. -/
theorem flushed_eq (c : Dev nD) (t : Fin cfg1.N) :
    (dat1 (F := Ideal) V c).flushed 3 t
      = ((cfg1.win 3).blk t).view.read (Elt Ideal) (GruStep.hnew (V c main_v6_0) (V c main_v6_1) (V c main_v2)) := by
  show (cfg1.win 3).cut (grid1.coords t) ((dat1 (F := Ideal) V c).after 3 t) = _
  rw [after1_3]
  unfold out1_3
  rw [View.canon_unit_zero hz]
  simp only [View.ld_unit_zero (S := S1x3072) hz, View.ld_unit_zero (S := S1x1024) hz]
  rw [iblk_0, iblk_1, iblk_2]
  obtain ⟨-, -, -, -, -, -, d0, d1⟩ := idx_facts t
  funext j
  show k1_pay1 (F := Ideal) (V c main_v6_0) (V c main_v6_1) (V c main_v2) j
    = GruStep.hnew (V c main_v6_0) (V c main_v6_1) (V c main_v2) (((cfg1.win 3).blk t).view.emb j)
  refine (pay1_apply _ _ _ _).trans ?_
  congr 1; funext a; apply Fin.ext
  match a with
  | ⟨0, _⟩ => show (j 0).val = win1_3.index t (0 : Fin 2) * 1 + 1 * (j 0).val; omega
  | ⟨1, _⟩ => show (j 1).val = win1_3.index t (1 : Fin 2) * 1024 + 1 * (j 1).val; omega

/-- An index of the array is in the point's block iff each coordinate is in the block's range on its axis. -/
theorem mem_blk (t : Fin cfg1.N) (i : S1x1024.Idx) :
    i ∈ ((cfg1.win 3).blk t).view.set ↔ ∀ a : Fin 2, win1_3.index t a * S1x1024.size a ≤ (i a).val
      ∧ (i a).val < win1_3.index t a * S1x1024.size a + S1x1024.size a := by
  show i ∈ ((View.whole main_v7).slice (win1_3.rect t)).set ↔ _
  rw [View.set_slice_whole, Rect.mem_set_unit]
  exact Iff.rfl

/-- The one block is the whole array, so the array ends holding the new hidden row. -/
theorem hnew_final (c : Dev nD) :
    (dat1 (F := Ideal) V c).arrAt 3 cfg1.N
      = GruStep.hnew (V c main_v6_0) (V c main_v6_1) (V c main_v2) := by
  refine (dat1 (F := Ideal) V c).arrAt_eq_of_cover 3 _ (fun t _ => flushed_eq V c t) (fun i => ?_)
  have t : Fin cfg1.N := ⟨0, by decide⟩
  refine ⟨t, flush1_3 t, ?_⟩
  obtain ⟨-, -, -, -, -, -, d0, d1⟩ := idx_facts t
  have hi0 : (i 0).val < 1 := (i 0).isLt
  have hi1 : (i 1).val < 1024 := (i 1).isLt
  rw [mem_blk]
  intro a
  match a with
  | ⟨0, _⟩ =>
    show win1_3.index t (0 : Fin 2) * 1 ≤ (i 0).val ∧ (i 0).val < win1_3.index t (0 : Fin 2) * 1 + 1
    omega
  | ⟨1, _⟩ =>
    show win1_3.index t (1 : Fin 2) * 1024 ≤ (i 1).val ∧ (i 1).val < win1_3.index t (1 : Fin 2) * 1024 + 1024
    omega

end GruStep.K1

end
-- ==== Proof.K2Value.lean ====
import proofs.«401664_j15015205666921_3_alg».proof.Proof.Gen.KernelIdeal.Frame
import proofs.«401664_j15015205666921_3_alg».proof.Proof.Spec
import Idealize.ShloMosaic.Lib.Pipeline.Value
import Idealize.ShloMosaic.PureOps.Ideal.Laws

set_option maxRecDepth 16384

noncomputable section

open scoped BigOperators
open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace GruStep.K2

/-- The product's left operand index: row of the output, contraction coordinate. -/
theorem lhs_proj_0 (i : S1x5120.Idx) (q : dot_S1x1024_S5120x1024_S1x5120_1_1_0_0_n_n.contr.Idx) :
    (dot_S1x1024_S5120x1024_S1x5120_1_1_0_0_n_n.lhsIdx i q 0).val = (i 0).val := by
  unfold DotDims.lhsIdx
  rw [dif_neg (show ¬(0 : Fin S1x1024.rank) ∈ dot_S1x1024_S5120x1024_S1x5120_1_1_0_0_n_n.lhsBatch by decide), dif_pos (show (0 : Fin S1x1024.rank) ∈ dot_S1x1024_S5120x1024_S1x5120_1_1_0_0_n_n.lhsNonContracting by decide)]
  rfl
theorem lhs_proj_1 (i : S1x5120.Idx) (q : dot_S1x1024_S5120x1024_S1x5120_1_1_0_0_n_n.contr.Idx) :
    (dot_S1x1024_S5120x1024_S1x5120_1_1_0_0_n_n.lhsIdx i q 1).val = (q ⟨0, by decide⟩).val :=
  dot_S1x1024_S5120x1024_S1x5120_1_1_0_0_n_n.lhsIdx_val_of_single rfl i q
theorem rhs_proj_0 (i : S1x5120.Idx) (q : dot_S1x1024_S5120x1024_S1x5120_1_1_0_0_n_n.contr.Idx) :
    (dot_S1x1024_S5120x1024_S1x5120_1_1_0_0_n_n.rhsIdx i q 0).val = (i 1).val := by
  unfold DotDims.rhsIdx
  rw [dif_neg (show ¬(0 : Fin S5120x1024.rank) ∈ dot_S1x1024_S5120x1024_S1x5120_1_1_0_0_n_n.rhsBatch by decide), dif_pos (show (0 : Fin S5120x1024.rank) ∈ dot_S1x1024_S5120x1024_S1x5120_1_1_0_0_n_n.rhsNonContracting by decide)]
  rfl
theorem rhs_proj_1 (i : S1x5120.Idx) (q : dot_S1x1024_S5120x1024_S1x5120_1_1_0_0_n_n.contr.Idx) :
    (dot_S1x1024_S5120x1024_S1x5120_1_1_0_0_n_n.rhsIdx i q 1).val = (q ⟨0, by decide⟩).val :=
  dot_S1x1024_S5120x1024_S1x5120_1_1_0_0_n_n.rhsIdx_val_of_single rfl i q

/-- The tile's logits at column q: the hidden row's inner product with weight row q of the block, plus the bias. -/
theorem pay1_apply (x0 : Vec Ideal S1x1024 .f32) (x1 : Vec Ideal S5120x1024 .f32) (x2 : Vec Ideal S1x5120 .f32)
    (p : Fin 1) (q : Fin 5120) :
    k2_pay1 x0 x1 x2 (ix2 p q) = (∑ k : Fin 1024, x0 (ix2 p k) * x1 (ix2 q k)) + x2 (ix2 p q) := by
  unfold k2_pay1
  rw [shapeCast_self, shapeCast_self]
  show FloatOps.matmul dot_S1x1024_S5120x1024_S1x5120_1_1_0_0_n_n none x0 x1 (constant (F := Ideal) S1x5120 .f32 0x00000000#32) (ix2 p q) + x2 (ix2 p q) = _
  rw [Ideal.matmul_constant_zero_apply, ← Equiv.sum_comp (ValueIdx.contrEquiv1 dot_S1x1024_S5120x1024_S1x5120_1_1_0_0_n_n 1024 rfl rfl).symm]
  refine congrArg (· + x2 (ix2 p q)) (Finset.sum_congr rfl fun k _ => ?_)
  have hk := ValueIdx.contrEquiv1_symm_val dot_S1x1024_S5120x1024_S1x5120_1_1_0_0_n_n 1024 rfl rfl k
  have el : dot_S1x1024_S5120x1024_S1x5120_1_1_0_0_n_n.lhsIdx (ix2 p q) ((ValueIdx.contrEquiv1 dot_S1x1024_S5120x1024_S1x5120_1_1_0_0_n_n 1024 rfl rfl).symm k) = ix2 p k := funext fun a => Fin.ext (by
    match a with
    | ⟨0, _⟩ => exact lhs_proj_0 _ _
    | ⟨1, _⟩ => exact (lhs_proj_1 _ _).trans hk)
  have er : dot_S1x1024_S5120x1024_S1x5120_1_1_0_0_n_n.rhsIdx (ix2 p q) ((ValueIdx.contrEquiv1 dot_S1x1024_S5120x1024_S1x5120_1_1_0_0_n_n 1024 rfl rfl).symm k) = ix2 q k := funext fun a => Fin.ext (by
    match a with
    | ⟨0, _⟩ => exact rhs_proj_0 _ _
    | ⟨1, _⟩ => exact (rhs_proj_1 _ _).trans hk)
  rw [el, er]

/-- The word 0xFF800000 is −∞. -/
theorem ofBits_neg_inf : Ideal.ofBits .f32 0xFF800000#32 = ⊥ := by simp [Ideal.ofBits, Ideal.ieee]

/-- Inserting coordinate k on the reduced axis over the one index of the [1] result gives (0, k). -/
theorem lift_row (k : Fin 5120) : reduces_S1x5120_S1.lift (ix1 (0 : Fin 1)) k = ix2 (0 : Fin 1) k :=
  funext fun c => Fin.ext (by match c with | ⟨0, _⟩ => rfl | ⟨1, _⟩ => rfl)

/-- The tile's maximum as the kernel takes it: the fold of max from −∞ over the tile's 5120 logits. -/
theorem pay2_apply (x0 : Vec Ideal S1x1024 .f32) (x1 : Vec Ideal S5120x1024 .f32) (x2 : Vec Ideal S1x5120 .f32)
    (a b : Fin 1) :
    k2_pay2 x0 x1 x2 (ix2 a b) = Finset.univ.fold max ⊥ (fun q : Fin 5120 => k2_pay1 x0 x1 x2 (ix2 0 q)) := by
  unfold k2_pay2
  refine (shapeCast_apply _ shapeCasts_S1_S1x1 (ix2 a b) (ix1 (0 : Fin 1)) ?_).trans ?_
  · rw [Shape.rowMajor_val_one, Shape.rowMajor_val_two]
    have := a.isLt; have := b.isLt
    show (0 : Nat) = a.val * 1 + b.val
    omega
  · refine (Ideal.multiReduction_maximumf_single (k2_pay1 x0 x1 x2) 0xFF800000#32 reduces_S1x5120_S1 (.inl rfl) rfl (ix1 (0 : Fin 1))).trans ?_
    show Finset.univ.fold max (Ideal.ofBits .f32 0xFF800000#32) (fun k : Fin 5120 => k2_pay1 x0 x1 x2 (reduces_S1x5120_S1.lift (ix1 (0 : Fin 1)) k)) = _
    rw [ofBits_neg_inf]
    exact congrArg (fun f => Finset.univ.fold max ⊥ f) (funext fun k => congrArg (k2_pay1 x0 x1 x2) (lift_row k))

/-- The stored maximum: the same value on all 128 lanes. -/
theorem pay3_apply (x0 : Vec Ideal S1x1024 .f32) (x1 : Vec Ideal S5120x1024 .f32) (x2 : Vec Ideal S1x5120 .f32)
    (a b : Fin 1) (l : Fin 128) :
    k2_pay3 x0 x1 x2 (ix3 a b l) = Finset.univ.fold max ⊥ (fun q : Fin 5120 => k2_pay1 x0 x1 x2 (ix2 0 q)) := by
  unfold k2_pay3
  refine (broadcastTo_apply _ broadcasts_S1x1x1_S1x1x128 (ix3 a b l) (ix3 (0 : Fin 1) (0 : Fin 1) (0 : Fin 1)) ?_).trans ?_
  · intro d
    match d with
    | ⟨0, _⟩ => exact (if_pos rfl).symm
    | ⟨1, _⟩ => exact (if_pos rfl).symm
    | ⟨2, _⟩ => exact (if_pos rfl).symm
  · refine (shapeCast_apply _ shapeCasts_S1x1_S1x1x1 (ix3 (0 : Fin 1) (0 : Fin 1) (0 : Fin 1)) (ix2 (0 : Fin 1) (0 : Fin 1)) ?_).trans ?_
    · rw [Shape.rowMajor_val_two, Shape.rowMajor_val_three]; rfl
    · exact pay2_apply x0 x1 x2 0 0

/-- The stored sum: Σ_q exp(logit_q − the tile's maximum), the same value on all 128 lanes. -/
theorem pay4_apply (x0 : Vec Ideal S1x1024 .f32) (x1 : Vec Ideal S5120x1024 .f32) (x2 : Vec Ideal S1x5120 .f32)
    (a b : Fin 1) (l : Fin 128) :
    k2_pay4 x0 x1 x2 (ix3 a b l)
      = ∑ q : Fin 5120, Ideal.exp (k2_pay1 x0 x1 x2 (ix2 0 q) - Finset.univ.fold max ⊥ (fun q : Fin 5120 => k2_pay1 x0 x1 x2 (ix2 0 q))) := by
  unfold k2_pay4
  refine (broadcastTo_apply _ broadcasts_S1x1x1_S1x1x128 (ix3 a b l) (ix3 (0 : Fin 1) (0 : Fin 1) (0 : Fin 1)) ?_).trans ?_
  · intro d
    match d with
    | ⟨0, _⟩ => exact (if_pos rfl).symm
    | ⟨1, _⟩ => exact (if_pos rfl).symm
    | ⟨2, _⟩ => exact (if_pos rfl).symm
  refine (shapeCast_apply _ shapeCasts_S1x1_S1x1x1 (ix3 (0 : Fin 1) (0 : Fin 1) (0 : Fin 1)) (ix2 (0 : Fin 1) (0 : Fin 1)) ?_).trans ?_
  · rw [Shape.rowMajor_val_two, Shape.rowMajor_val_three]; rfl
  refine (shapeCast_apply _ shapeCasts_S1_S1x1 (ix2 (0 : Fin 1) (0 : Fin 1)) (ix1 (0 : Fin 1)) ?_).trans ?_
  · rw [Shape.rowMajor_val_one, Shape.rowMajor_val_two]; rfl
  refine (Ideal.multiReduction_add_single _ 0x00000000#32 reduces_S1x5120_S1 (.inl rfl) rfl (ix1 (0 : Fin 1))).trans ?_
  refine Finset.sum_congr rfl fun (k : Fin 5120) _ => ?_
  rw [lift_row k]
  show Ideal.exp (k2_pay1 x0 x1 x2 (ix2 0 k) - broadcastTo S1x5120 (k2_pay2 x0 x1 x2) broadcasts_S1x1_S1x5120 (ix2 0 k)) = _
  rw [broadcastTo_apply _ broadcasts_S1x1_S1x5120 (ix2 (0 : Fin 1) k) (ix2 (0 : Fin 1) (0 : Fin 1)) (fun d => by
    match d with
    | ⟨0, _⟩ => exact (if_pos rfl).symm
    | ⟨1, _⟩ => exact (if_pos rfl).symm), pay2_apply]

theorem hz2 : (![0, 0] : Fin 2 → Nat) = fun _ => 0 := funext fun a => by fin_cases a <;> rfl
theorem hz3 : (![0, 0, 0] : Fin 3 → Nat) = fun _ => 0 := funext fun a => by fin_cases a <;> rfl

/-- The printed index maps over the 25 grid points: the hidden row's block is always block (0, 0); the weights move
    down by one block of rows per point, the bias and the logits right by one block of columns, the statistics down by
    one row. -/
theorem idx_facts : ∀ t : Fin cfg2.N,
    win2_0.index t (0 : Fin 2) = 0 ∧ win2_0.index t (1 : Fin 2) = 0
    ∧ win2_1.index t (0 : Fin 2) = t.val ∧ win2_1.index t (1 : Fin 2) = 0
    ∧ win2_2.index t (0 : Fin 2) = 0 ∧ win2_2.index t (1 : Fin 2) = t.val
    ∧ win2_3.index t (0 : Fin 2) = 0 ∧ win2_3.index t (1 : Fin 2) = t.val
    ∧ win2_4.index t (0 : Fin 3) = t.val ∧ win2_4.index t (1 : Fin 3) = 0 ∧ win2_4.index t (2 : Fin 3) = 0
    ∧ win2_5.index t (0 : Fin 3) = t.val ∧ win2_5.index t (1 : Fin 3) = 0 ∧ win2_5.index t (2 : Fin 3) = 0 :=
  (by decide +kernel : ∀ t : Fin grid2.N, _)

variable (V : (c : Dev nD) → (b : Ref sig .tc) → Buf (Elt Ideal) ((c : Thread nD τ).loc b))

/-- The hidden row's block at any point is the whole row. -/
theorem iblk0_apply (c : Dev nD) (t : Fin cfg2.N) (x : S1x1024.Idx) (k : S1x1024.Idx)
    (hk0 : (k 0).val = (x 0).val) (hk1 : (k 1).val = (x 1).val) :
    (iblk2 V c 0 t : Vec Ideal S1x1024 .f32) x = (V c main_v7 : S1x1024.Idx → EReal) k := by
  obtain ⟨e0, e1, -⟩ := idx_facts t
  unfold iblk2
  rw [View.read_apply]
  show V c main_v7 _ = V c main_v7 _
  congr 1
  funext a
  apply Fin.ext
  match a with
  | ⟨0, _⟩ => show win2_0.index t 0 * 1 + 1 * (x 0).val = (k 0).val; rw [e0, hk0]; omega
  | ⟨1, _⟩ => show win2_0.index t 1 * 1024 + 1 * (x 1).val = (k 1).val; rw [e1, hk1]; omega

/-- The weights' block at point t is rows 5120·t … 5120·t + 5119. -/
theorem iblk1_apply (c : Dev nD) (t : Fin cfg2.N) (x : S5120x1024.Idx) (k : S128000x1024.Idx)
    (hk0 : (k 0).val = 5120 * t.val + (x 0).val) (hk1 : (k 1).val = (x 1).val) :
    (iblk2 V c 1 t : Vec Ideal S5120x1024 .f32) x = (V c main_arg7 : S128000x1024.Idx → EReal) k := by
  obtain ⟨-, -, e0, e1, -⟩ := idx_facts t
  unfold iblk2
  rw [View.read_apply]
  show V c main_arg7 _ = V c main_arg7 _
  congr 1
  funext a
  apply Fin.ext
  match a with
  | ⟨0, _⟩ => show win2_1.index t 0 * 5120 + 1 * (x 0).val = (k 0).val; rw [e0, hk0]; omega
  | ⟨1, _⟩ => show win2_1.index t 1 * 1024 + 1 * (x 1).val = (k 1).val; rw [e1, hk1]; omega

/-- The bias's block at point t is columns 5120·t … 5120·t + 5119. -/
theorem iblk2_apply (c : Dev nD) (t : Fin cfg2.N) (x : S1x5120.Idx) (k : S1x128000.Idx)
    (hk0 : (k 0).val = (x 0).val) (hk1 : (k 1).val = 5120 * t.val + (x 1).val) :
    (iblk2 V c 2 t : Vec Ideal S1x5120 .f32) x = (V c main_v5 : S1x128000.Idx → EReal) k := by
  obtain ⟨-, -, -, -, e0, e1, -⟩ := idx_facts t
  unfold iblk2
  rw [View.read_apply]
  show V c main_v5 _ = V c main_v5 _
  congr 1
  funext a
  apply Fin.ext
  match a with
  | ⟨0, _⟩ => show win2_2.index t 0 * 1 + 1 * (x 0).val = (k 0).val; rw [e0, hk0]; omega
  | ⟨1, _⟩ => show win2_2.index t 1 * 5120 + 1 * (x 1).val = (k 1).val; rw [e1, hk1]; omega

/-- The tile's logits from blocks that are restrictions of the whole arrays: the projection at the covered index. -/
theorem pay1_eq_proj (x0 : Vec Ideal S1x1024 .f32) (x1 : Vec Ideal S5120x1024 .f32) (x2 : Vec Ideal S1x5120 .f32)
    (h : GruStep.Row.Idx → EReal) (w : GruStep.ProjW.Idx → EReal) (b : GruStep.Logit.Idx → EReal)
    (p : Fin 1) (q : Fin 5120) (v : GruStep.Logit.Idx)
    (h0 : ∀ k : Fin 1024, x0 (ix2 p k) = h (ix2 0 k))
    (h1 : ∀ k : Fin 1024, x1 (ix2 q k) = w (ix2 (v 1) k))
    (h2 : x2 (ix2 p q) = b v) :
    k2_pay1 x0 x1 x2 (ix2 p q) = GruStep.proj h w b v := by
  rw [pay1_apply]
  unfold GruStep.proj
  rw [h2]
  exact congrArg (· + b v) (Finset.sum_congr rfl fun k _ => by rw [h0 k, h1 k])

/-- What point t writes back to the logits is block t of the projection of the arrays as the region finds them. -/
theorem flushed3_eq (c : Dev nD) (t : Fin cfg2.N) :
    (dat2 (F := Ideal) V c).flushed 3 t
      = ((cfg2.win 3).blk t).view.read (Elt Ideal) (GruStep.proj (V c main_v7) (V c main_arg7) (V c main_v5)) := by
  show (cfg2.win 3).cut (grid2.coords t) ((dat2 V c).after 3 t) = _
  rw [after2_3]
  unfold out2_3
  rw [View.canon_unit_zero hz2]
  simp only [View.ld_unit_zero (S := S1x1024) hz2, View.ld_unit_zero (S := S5120x1024) hz2, View.ld_unit_zero (S := S1x5120) hz2]
  obtain ⟨-, -, -, -, -, -, e0, e1, -⟩ := idx_facts t
  funext j
  have hp : (j 0).val < 1 := ((cfg2.win 3).xinj (grid2.coords t) j 0).isLt
  have hq : (j 1).val < 5120 := ((cfg2.win 3).xinj (grid2.coords t) j 1).isLt
  have hpq : (cfg2.win 3).xinj (grid2.coords t) j = ix2 (⟨(j 0).val, hp⟩ : Fin 1) (⟨(j 1).val, hq⟩ : Fin 5120) :=
    funext fun a => Fin.ext (by match a with | ⟨0, _⟩ => rfl | ⟨1, _⟩ => rfl)
  show k2_pay1 (iblk2 V c 0 t) (iblk2 V c 1 t) (iblk2 V c 2 t) ((cfg2.win 3).xinj (grid2.coords t) j)
    = GruStep.proj (V c main_v7) (V c main_arg7) (V c main_v5) (((cfg2.win 3).blk t).view.emb j)
  rw [hpq]
  have hv0 : ((((cfg2.win 3).blk t).view.emb j) 0).val = (j 0).val := by
    show win2_3.index t 0 * 1 + 1 * (j 0).val = _; rw [e0]; omega
  have hv1 : ((((cfg2.win 3).blk t).view.emb j) 1).val = 5120 * t.val + (j 1).val := by
    show win2_3.index t 1 * 5120 + 1 * (j 1).val = _; rw [e1]; omega
  refine pay1_eq_proj (iblk2 V c 0 t) (iblk2 V c 1 t) (iblk2 V c 2 t) _ _ _ _ _ _ (fun k => ?_) (fun k => ?_) ?_
  · exact iblk0_apply V c t _ _ (by show (0 : Nat) = (j 0).val; omega) rfl
  · exact iblk1_apply V c t _ _ hv1 rfl
  · exact iblk2_apply V c t _ _ hv0 hv1

/-- An index of the logits is in point t's block iff each coordinate is in the block's range on its axis. -/
theorem mem_blk3 (t : Fin cfg2.N) (i : S1x128000.Idx) :
    i ∈ ((cfg2.win 3).blk t).view.set ↔ ∀ a : Fin 2, win2_3.index t a * S1x5120.size a ≤ (i a).val ∧ (i a).val < win2_3.index t a * S1x5120.size a + S1x5120.size a := by
  show i ∈ ((View.whole main_v8_0).slice (win2_3.rect t)).set ↔ _
  rw [View.set_slice_whole, Rect.mem_set_unit]
  exact Iff.rfl

/-- Column v of the logits is in the block of point v / 5120. -/
theorem cover3 (i : S1x128000.Idx) :
    ∃ t : Fin cfg2.N, (cfg2.win 3).flush t = true ∧ i ∈ ((cfg2.win 3).blk t).view.set := by
  have hi0 : (i 0).val < 1 := (i 0).isLt
  have hi1 : (i 1).val < 128000 := (i 1).isLt
  have hN : cfg2.N = 25 := N_2
  have ht : (i 1).val / 5120 < cfg2.N := by rw [hN]; omega
  refine ⟨⟨(i 1).val / 5120, ht⟩, flush2_3 _, ?_⟩
  rw [mem_blk3]
  obtain ⟨-, -, -, -, -, -, e0, e1, -⟩ := idx_facts ⟨(i 1).val / 5120, ht⟩
  intro a
  match a with
  | ⟨0, _⟩ =>
    show win2_3.index ⟨(i 1).val / 5120, ht⟩ 0 * 1 ≤ (i 0).val ∧ (i 0).val < win2_3.index ⟨(i 1).val / 5120, ht⟩ 0 * 1 + 1
    rw [e0]; omega
  | ⟨1, _⟩ =>
    show win2_3.index ⟨(i 1).val / 5120, ht⟩ 1 * 5120 ≤ (i 1).val ∧ (i 1).val < win2_3.index ⟨(i 1).val / 5120, ht⟩ 1 * 5120 + 5120
    rw [e1]; show (i 1).val / 5120 * 5120 ≤ (i 1).val ∧ (i 1).val < (i 1).val / 5120 * 5120 + 5120; omega

theorem logits_final (c : Dev nD) :
    (dat2 (F := Ideal) V c).arrAt 3 cfg2.N
      = GruStep.proj (V c main_v7) (V c main_arg7) (V c main_v5) :=
  (dat2 (F := Ideal) V c).arrAt_eq_of_cover 3 _ (fun t _ => flushed3_eq V c t) cover3

/-- A tile's logits from blocks that are the tile's restrictions of the whole arrays. -/
theorem tile_logits (x0 : Vec Ideal S1x1024 .f32) (x1 : Vec Ideal S5120x1024 .f32) (x2 : Vec Ideal S1x5120 .f32)
    (h : GruStep.Row.Idx → EReal) (w : GruStep.ProjW.Idx → EReal) (b : GruStep.Logit.Idx → EReal) (s : Fin 25)
    (h0 : ∀ k : Fin 1024, x0 (ix2 0 k) = h (ix2 0 k))
    (h1 : ∀ (q : Fin 5120) (k : Fin 1024), x1 (ix2 q k) = w (ix2 ((GruStep.tileIx s q) 1) k))
    (h2 : ∀ q : Fin 5120, x2 (ix2 0 q) = b (GruStep.tileIx s q)) (q : Fin 5120) :
    k2_pay1 x0 x1 x2 (ix2 0 q) = GruStep.proj h w b (GruStep.tileIx s q) :=
  pay1_eq_proj x0 x1 x2 h w b 0 q (GruStep.tileIx s q) h0 (h1 q) (h2 q)

/-- The stored maximum is the tile's maximum of the projection. -/
theorem pay3_eq_tileMax (x0 : Vec Ideal S1x1024 .f32) (x1 : Vec Ideal S5120x1024 .f32) (x2 : Vec Ideal S1x5120 .f32)
    (h : GruStep.Row.Idx → EReal) (w : GruStep.ProjW.Idx → EReal) (b : GruStep.Logit.Idx → EReal) (s : Fin 25)
    (h0 : ∀ k : Fin 1024, x0 (ix2 0 k) = h (ix2 0 k))
    (h1 : ∀ (q : Fin 5120) (k : Fin 1024), x1 (ix2 q k) = w (ix2 ((GruStep.tileIx s q) 1) k))
    (h2 : ∀ q : Fin 5120, x2 (ix2 0 q) = b (GruStep.tileIx s q)) (a a' : Fin 1) (l : Fin 128) :
    k2_pay3 x0 x1 x2 (ix3 a a' l) = GruStep.tileMax (GruStep.proj h w b) s := by
  rw [pay3_apply]
  unfold GruStep.tileMax
  exact congrArg (fun f => Finset.univ.fold max ⊥ f) (funext fun q => tile_logits x0 x1 x2 h w b s h0 h1 h2 q)

/-- The stored sum is the tile's shifted sum of exponentials of the projection. -/
theorem pay4_eq_tileSum (x0 : Vec Ideal S1x1024 .f32) (x1 : Vec Ideal S5120x1024 .f32) (x2 : Vec Ideal S1x5120 .f32)
    (h : GruStep.Row.Idx → EReal) (w : GruStep.ProjW.Idx → EReal) (b : GruStep.Logit.Idx → EReal) (s : Fin 25)
    (h0 : ∀ k : Fin 1024, x0 (ix2 0 k) = h (ix2 0 k))
    (h1 : ∀ (q : Fin 5120) (k : Fin 1024), x1 (ix2 q k) = w (ix2 ((GruStep.tileIx s q) 1) k))
    (h2 : ∀ q : Fin 5120, x2 (ix2 0 q) = b (GruStep.tileIx s q)) (a a' : Fin 1) (l : Fin 128) :
    k2_pay4 x0 x1 x2 (ix3 a a' l) = GruStep.tileSum (GruStep.proj h w b) s := by
  rw [pay4_apply]
  unfold GruStep.tileSum GruStep.tileMax
  have e : (fun q : Fin 5120 => k2_pay1 x0 x1 x2 (ix2 0 q)) = fun q : Fin 5120 => GruStep.proj h w b (GruStep.tileIx s q) :=
    funext fun q => tile_logits x0 x1 x2 h w b s h0 h1 h2 q
  rw [e]
  exact Finset.sum_congr rfl fun q _ => by rw [tile_logits x0 x1 x2 h w b s h0 h1 h2 q]

/-- Grid point t as a tile number. -/
def tileOf (t : Fin cfg2.N) : Fin 25 := ⟨t.val, N_2 ▸ t.isLt⟩

/-- At point t the three input blocks are tile t's restrictions of the hidden row, the weights and the bias. -/
theorem blocks_at (c : Dev nD) (t : Fin cfg2.N) :
    (∀ k : Fin 1024, (iblk2 V c 0 t : Vec Ideal S1x1024 .f32) (ix2 0 k) = (V c main_v7 : GruStep.Row.Idx → EReal) (ix2 0 k))
    ∧ (∀ (q : Fin 5120) (k : Fin 1024), (iblk2 V c 1 t : Vec Ideal S5120x1024 .f32) (ix2 q k)
        = (V c main_arg7 : GruStep.ProjW.Idx → EReal) (ix2 ((GruStep.tileIx (tileOf t) q) 1) k))
    ∧ (∀ q : Fin 5120, (iblk2 V c 2 t : Vec Ideal S1x5120 .f32) (ix2 0 q)
        = (V c main_v5 : GruStep.Logit.Idx → EReal) (GruStep.tileIx (tileOf t) q)) :=
  ⟨fun k => iblk0_apply V c t _ _ rfl rfl, fun q k => iblk1_apply V c t _ _ rfl rfl,
    fun q => iblk2_apply V c t _ _ rfl rfl⟩

/-- What point t writes back to the maxima is row t of the tiles' maxima, on every lane. -/
theorem flushed4_eq (c : Dev nD) (t : Fin cfg2.N) :
    (dat2 (F := Ideal) V c).flushed 4 t
      = ((cfg2.win 4).blk t).view.read (Elt Ideal)
          (fun i : GruStep.Stat.Idx => GruStep.tileMax (GruStep.proj (V c main_v7) (V c main_arg7) (V c main_v5)) (i 0)) := by
  show (cfg2.win 4).cut (grid2.coords t) ((dat2 V c).after 4 t) = _
  rw [after2_4]
  unfold out2_4
  rw [View.canon_unit_zero hz3]
  simp only [View.ld_unit_zero (S := S1x1024) hz2, View.ld_unit_zero (S := S5120x1024) hz2, View.ld_unit_zero (S := S1x5120) hz2]
  obtain ⟨-, -, -, -, -, -, -, -, e0, -⟩ := idx_facts t
  obtain ⟨h0, h1, h2⟩ := blocks_at V c t
  funext j
  have ha : (j 0).val < 1 := ((cfg2.win 4).xinj (grid2.coords t) j 0).isLt
  have hb : (j 1).val < 1 := ((cfg2.win 4).xinj (grid2.coords t) j 1).isLt
  have hl : (j 2).val < 128 := ((cfg2.win 4).xinj (grid2.coords t) j 2).isLt
  have hj : (cfg2.win 4).xinj (grid2.coords t) j = ix3 (⟨(j 0).val, ha⟩ : Fin 1) (⟨(j 1).val, hb⟩ : Fin 1) (⟨(j 2).val, hl⟩ : Fin 128) :=
    funext fun a => Fin.ext (by match a with | ⟨0, _⟩ => rfl | ⟨1, _⟩ => rfl | ⟨2, _⟩ => rfl)
  have hs : ((((cfg2.win 4).blk t).view.emb j) 0 : Fin 25) = tileOf t := Fin.ext (by
    show win2_4.index t 0 * 1 + 1 * (j 0).val = t.val; rw [e0]; omega)
  show k2_pay3 (iblk2 V c 0 t) (iblk2 V c 1 t) (iblk2 V c 2 t) ((cfg2.win 4).xinj (grid2.coords t) j)
    = GruStep.tileMax (GruStep.proj (V c main_v7) (V c main_arg7) (V c main_v5)) ((((cfg2.win 4).blk t).view.emb j) 0)
  rw [hj]
  exact (pay3_eq_tileMax (iblk2 V c 0 t) (iblk2 V c 1 t) (iblk2 V c 2 t) _ _ _ (tileOf t) h0 h1 h2 _ _ _).trans
    (congrArg (GruStep.tileMax _) hs.symm)

/-- What point t writes back to the sums is row t of the tiles' shifted sums, on every lane. -/
theorem flushed5_eq (c : Dev nD) (t : Fin cfg2.N) :
    (dat2 (F := Ideal) V c).flushed 5 t
      = ((cfg2.win 5).blk t).view.read (Elt Ideal)
          (fun i : GruStep.Stat.Idx => GruStep.tileSum (GruStep.proj (V c main_v7) (V c main_arg7) (V c main_v5)) (i 0)) := by
  show (cfg2.win 5).cut (grid2.coords t) ((dat2 V c).after 5 t) = _
  rw [after2_5]
  unfold out2_5
  rw [View.canon_unit_zero hz3]
  simp only [View.ld_unit_zero (S := S1x1024) hz2, View.ld_unit_zero (S := S5120x1024) hz2, View.ld_unit_zero (S := S1x5120) hz2]
  obtain ⟨-, -, -, -, -, -, -, -, -, -, -, e0, -⟩ := idx_facts t
  obtain ⟨h0, h1, h2⟩ := blocks_at V c t
  funext j
  have ha : (j 0).val < 1 := ((cfg2.win 5).xinj (grid2.coords t) j 0).isLt
  have hb : (j 1).val < 1 := ((cfg2.win 5).xinj (grid2.coords t) j 1).isLt
  have hl : (j 2).val < 128 := ((cfg2.win 5).xinj (grid2.coords t) j 2).isLt
  have hj : (cfg2.win 5).xinj (grid2.coords t) j = ix3 (⟨(j 0).val, ha⟩ : Fin 1) (⟨(j 1).val, hb⟩ : Fin 1) (⟨(j 2).val, hl⟩ : Fin 128) :=
    funext fun a => Fin.ext (by match a with | ⟨0, _⟩ => rfl | ⟨1, _⟩ => rfl | ⟨2, _⟩ => rfl)
  have hs : ((((cfg2.win 5).blk t).view.emb j) 0 : Fin 25) = tileOf t := Fin.ext (by
    show win2_5.index t 0 * 1 + 1 * (j 0).val = t.val; rw [e0]; omega)
  show k2_pay4 (iblk2 V c 0 t) (iblk2 V c 1 t) (iblk2 V c 2 t) ((cfg2.win 5).xinj (grid2.coords t) j)
    = GruStep.tileSum (GruStep.proj (V c main_v7) (V c main_arg7) (V c main_v5)) ((((cfg2.win 5).blk t).view.emb j) 0)
  rw [hj]
  exact (pay4_eq_tileSum (iblk2 V c 0 t) (iblk2 V c 1 t) (iblk2 V c 2 t) _ _ _ (tileOf t) h0 h1 h2 _ _ _).trans
    (congrArg (GruStep.tileSum _) hs.symm)

/-- An index of a statistics array is in point t's block iff each coordinate is in the block's range on its axis. -/
theorem mem_blk4 (t : Fin cfg2.N) (i : S25x1x128.Idx) :
    i ∈ ((cfg2.win 4).blk t).view.set ↔ ∀ a : Fin 3, win2_4.index t a * S1x1x128.size a ≤ (i a).val ∧ (i a).val < win2_4.index t a * S1x1x128.size a + S1x1x128.size a := by
  show i ∈ ((View.whole main_v8_1).slice (win2_4.rect t)).set ↔ _
  rw [View.set_slice_whole, Rect.mem_set_unit]
  exact Iff.rfl

theorem mem_blk5 (t : Fin cfg2.N) (i : S25x1x128.Idx) :
    i ∈ ((cfg2.win 5).blk t).view.set ↔ ∀ a : Fin 3, win2_5.index t a * S1x1x128.size a ≤ (i a).val ∧ (i a).val < win2_5.index t a * S1x1x128.size a + S1x1x128.size a := by
  show i ∈ ((View.whole main_v8_2).slice (win2_5.rect t)).set ↔ _
  rw [View.set_slice_whole, Rect.mem_set_unit]
  exact Iff.rfl

/-- Row r of the maxima is the block of point r. -/
theorem cover4 (i : S25x1x128.Idx) :
    ∃ t : Fin cfg2.N, (cfg2.win 4).flush t = true ∧ i ∈ ((cfg2.win 4).blk t).view.set := by
  have hi0 : (i 0).val < 25 := (i 0).isLt
  have hi1 : (i 1).val < 1 := (i 1).isLt
  have hi2 : (i 2).val < 128 := (i 2).isLt
  have hN : cfg2.N = 25 := N_2
  have ht : (i 0).val < cfg2.N := by rw [hN]; omega
  refine ⟨⟨(i 0).val, ht⟩, flush2_4 _, ?_⟩
  rw [mem_blk4]
  obtain ⟨-, -, -, -, -, -, -, -, e0, e1, e2, -⟩ := idx_facts ⟨(i 0).val, ht⟩
  intro a
  match a with
  | ⟨0, _⟩ =>
    show win2_4.index ⟨(i 0).val, ht⟩ 0 * 1 ≤ (i 0).val ∧ (i 0).val < win2_4.index ⟨(i 0).val, ht⟩ 0 * 1 + 1
    rw [e0]; show (i 0).val * 1 ≤ (i 0).val ∧ (i 0).val < (i 0).val * 1 + 1; omega
  | ⟨1, _⟩ =>
    show win2_4.index ⟨(i 0).val, ht⟩ 1 * 1 ≤ (i 1).val ∧ (i 1).val < win2_4.index ⟨(i 0).val, ht⟩ 1 * 1 + 1
    rw [e1]; omega
  | ⟨2, _⟩ =>
    show win2_4.index ⟨(i 0).val, ht⟩ 2 * 128 ≤ (i 2).val ∧ (i 2).val < win2_4.index ⟨(i 0).val, ht⟩ 2 * 128 + 128
    rw [e2]; omega

/-- Row r of the sums is the block of point r. -/
theorem cover5 (i : S25x1x128.Idx) :
    ∃ t : Fin cfg2.N, (cfg2.win 5).flush t = true ∧ i ∈ ((cfg2.win 5).blk t).view.set := by
  have hi0 : (i 0).val < 25 := (i 0).isLt
  have hi1 : (i 1).val < 1 := (i 1).isLt
  have hi2 : (i 2).val < 128 := (i 2).isLt
  have hN : cfg2.N = 25 := N_2
  have ht : (i 0).val < cfg2.N := by rw [hN]; omega
  refine ⟨⟨(i 0).val, ht⟩, flush2_5 _, ?_⟩
  rw [mem_blk5]
  obtain ⟨-, -, -, -, -, -, -, -, -, -, -, e0, e1, e2⟩ := idx_facts ⟨(i 0).val, ht⟩
  intro a
  match a with
  | ⟨0, _⟩ =>
    show win2_5.index ⟨(i 0).val, ht⟩ 0 * 1 ≤ (i 0).val ∧ (i 0).val < win2_5.index ⟨(i 0).val, ht⟩ 0 * 1 + 1
    rw [e0]; show (i 0).val * 1 ≤ (i 0).val ∧ (i 0).val < (i 0).val * 1 + 1; omega
  | ⟨1, _⟩ =>
    show win2_5.index ⟨(i 0).val, ht⟩ 1 * 1 ≤ (i 1).val ∧ (i 1).val < win2_5.index ⟨(i 0).val, ht⟩ 1 * 1 + 1
    rw [e1]; omega
  | ⟨2, _⟩ =>
    show win2_5.index ⟨(i 0).val, ht⟩ 2 * 128 ≤ (i 2).val ∧ (i 2).val < win2_5.index ⟨(i 0).val, ht⟩ 2 * 128 + 128
    rw [e2]; omega

theorem tmax_final (c : Dev nD) :
    (dat2 (F := Ideal) V c).arrAt 4 cfg2.N
      = fun i : GruStep.Stat.Idx => GruStep.tileMax (GruStep.proj (V c main_v7) (V c main_arg7) (V c main_v5)) (i 0) := by
  exact (dat2 (F := Ideal) V c).arrAt_eq_of_cover 4 _ (fun t _ => flushed4_eq V c t) cover4

theorem tsum_final (c : Dev nD) :
    (dat2 (F := Ideal) V c).arrAt 5 cfg2.N
      = fun i : GruStep.Stat.Idx => GruStep.tileSum (GruStep.proj (V c main_v7) (V c main_arg7) (V c main_v5)) (i 0) := by
  exact (dat2 (F := Ideal) V c).arrAt_eq_of_cover 5 _ (fun t _ => flushed5_eq V c t) cover5

end GruStep.K2

end
-- ==== Proof.KHost.lean ====
import proofs.«401664_j15015205666921_3_alg».proof.Proof.Gen.KernelIdeal.Frame
import proofs.«401664_j15015205666921_3_alg».proof.Proof.Spec
import Idealize.ShloMosaic.Lib.Pipeline.Value
import Idealize.ShloMosaic.Lib.StableHlo.Run
import Idealize.ShloMosaic.Lib.StableHlo.Predicate
import Idealize.ShloMosaic.PureOps.Ideal.Laws

set_option maxRecDepth 16384

noncomputable section

open scoped BigOperators
open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace GruStep.KHost

variable (m : (ℓ : Loc nD τ sig) → Buf (Elt Ideal) ℓ) (ρ : Dev nD → PrngReg)

/-! ## The token's embedding row: the clip, the wrap of a negative index, the range mask and the row gather -/

/-- The token clipped into [0, 127999]. -/
def clipTerm (a : IVec S1 32) : IVec S1 32 :=
  minsi (broadcastInDim S1 ![] bcast_S_S1 (id (constantI S_ 32 127999#32)))
    (maxsi (broadcastInDim S1 ![] bcast_S_S1 (id (constantI S_ 32 0#32))) a)

/-- A negative index wrapped once, as a [1, 1] column of row numbers. -/
def wrapTerm (v0 : IVec S1 32) : IVec S1x1 32 :=
  broadcastInDim S1x1 ![0] bcast_S1_S1x1_0
    (select (cmpi .slt v0 (broadcastInDim S1 ![] bcast_S_S1 (constantI S_ 32 0#32)))
      (addi v0 (broadcastInDim S1 ![] bcast_S_S1 (constantI S_ 32 128000#32))) v0)

/-- The mask "the row number lies in [0, 127999]", reduced over the size-1 axis. -/
def maskTerm (t5 : IVec S1x1 32) : IVec S1 1 :=
  Host.reduce IntOp.andi
    (andi (cmpi .sge t5 (broadcastInDim S1x1 ![] bcast_S_S1x1 (constantI S_ 32 0#32)))
      (cmpi .sle t5 (broadcastInDim S1x1 ![1] bcast_S1_S1x1_1 (constantI S1 32 127999#32))))
    (constantI S_ 1 1#1) reducesTo_S1x1_S1_d1 h_S_

/-- The gathered row where the mask holds, the NaN pattern elsewhere. -/
def takeTerm (emb : S128000x1024.Idx → EReal) (t5 : IVec S1x1 32) : S1x1024.Idx → EReal :=
  select (broadcastInDim S1x1024 ![0] bcast_S1_S1x1024_0 (maskTerm t5))
    (Host.gather gather_S128000x1024_S1x1_S1x1024_1_0_n_n_0_1_11024 emb t5)
    (broadcastInDim S1x1024 ![] bcast_S_S1x1024 (constant (F := Ideal) S_ .f32 0x7FC00000#32))

/-- Every index of a [1] array is its one index. -/
theorem idx_S1 (i : S1.Idx) : i = ix1 0 := (eq_ix1 i).trans (congrArg ix1 (Subsingleton.elim (α := Fin 1) _ _))

theorem toInt_zero32 : (0#32 : BitVec 32).toInt = 0 := by decide
theorem toInt_top32 : (127999#32 : BitVec 32).toInt = 127999 := by decide

/-- On a token in range the clip into [0, 127999] is the identity. -/
theorem clip_eq (a : IVec S1 32) (h : GruStep.TokOk (a (ix1 0))) : clipTerm a = a := by
  funext i
  obtain rfl := idx_S1 i
  show IntOp.minsi 127999#32 (IntOp.maxsi 0#32 (a (ix1 0))) = a (ix1 0)
  have hmax : IntOp.maxsi 0#32 (a (ix1 0)) = a (ix1 0) := by
    unfold IntOp.maxsi
    rw [if_neg (by simp only [BitVec.slt, toInt_zero32, decide_eq_true_eq]; have := h.1; omega)]
  rw [hmax]
  unfold IntOp.minsi
  rw [if_neg (by simp only [BitVec.slt, toInt_top32, decide_eq_true_eq]; have := h.2; omega)]

/-- On a token that is not negative the wrap of a negative index does nothing: the column holds the token. -/
theorem wrap_eq (a : IVec S1 32) (h : 0 ≤ (a (ix1 0)).toInt) : wrapTerm a = fun _ => a (ix1 0) := by
  funext p
  unfold wrapTerm
  rw [broadcastInDim_apply (s := S1) (t := S1x1) ![0] bcast_S1_S1x1_0 _ p (ix1 0) (fun b => match b with | ⟨0, _⟩ => rfl)]
  show Scalar.select (IntOp.cmpi .slt (a (ix1 0)) 0#32) (IntOp.addi (a (ix1 0)) 128000#32) (a (ix1 0)) = a (ix1 0)
  have hc : IntOp.cmpi .slt (a (ix1 0)) 0#32 = 0#1 := by
    show BitVec.ofBool ((a (ix1 0)).slt 0#32) = 0#1
    rw [show (a (ix1 0)).slt 0#32 = false from by
      simp only [BitVec.slt, toInt_zero32, decide_eq_false_iff_not]; omega]
    rfl
  rw [hc]
  exact select_zero _ _

/-- A fold of bitwise "and" over ones from one is one. -/
theorem fold_andi_one {ι : Type} (S : Finset ι) : S.fold IntOp.andi 1#1 (fun _ => 1#1) = 1#1 := by
  classical
  induction S using Finset.induction_on with
  | empty => rfl
  | insert a s ha ih => rw [Finset.fold_insert ha, ih]; rfl

/-- On a token in range the range mask is all ones. -/
theorem mask_eq (t : BitVec 32) (h : GruStep.TokOk t) : maskTerm (fun _ => t) = fun _ => 1#1 := by
  have hm : andi (cmpi .sge (fun _ : S1x1.Idx => t) (broadcastInDim S1x1 ![] bcast_S_S1x1 (constantI S_ 32 0#32)))
      (cmpi .sle (fun _ : S1x1.Idx => t) (broadcastInDim S1x1 ![1] bcast_S1_S1x1_1 (constantI S1 32 127999#32))) = fun _ => 1#1 := by
    funext p
    show IntOp.andi (IntOp.cmpi .sge t 0#32) (IntOp.cmpi .sle t 127999#32) = 1#1
    have h1 : IntOp.cmpi .sge t 0#32 = 1#1 := by
      show BitVec.ofBool ((0#32 : BitVec 32).sle t) = 1#1
      rw [show (0#32 : BitVec 32).sle t = true from by
        simp only [BitVec.sle, toInt_zero32, decide_eq_true_eq]; exact h.1]
      rfl
    have h2 : IntOp.cmpi .sle t 127999#32 = 1#1 := by
      show BitVec.ofBool (t.sle 127999#32) = 1#1
      rw [show t.sle 127999#32 = true from by
        simp only [BitVec.sle, toInt_top32, decide_eq_true_eq]; have := h.2; omega]
      rfl
    rw [h1, h2]; rfl
  funext k
  unfold maskTerm
  rw [hm, Host.reduce_eq_fold]
  exact fold_andi_one _

/-- On a token in range the row lookup is the token's row of the table. -/
theorem take_eq (emb : S128000x1024.Idx → EReal) (t : BitVec 32) (h : GruStep.TokOk t) :
    takeTerm emb (fun _ => t) = GruStep.tokenRow emb t := by
  funext j
  obtain ⟨e, q, rfl⟩ : ∃ (e : Fin 1) (q : Fin 1024), j = ix2 e q := ⟨j 0, j 1, eq_ix2 j⟩
  unfold takeTerm
  rw [select_apply, mask_eq t h]
  show Scalar.select 1#1 (Host.gather gather_S128000x1024_S1x1_S1x1024_1_0_n_n_0_1_11024 emb (fun _ => t) (ix2 e q)) _ = _
  rw [select_one]
  exact RowOps.gather_apply (by decide) gather_S128000x1024_S1x1_S1x1024_1_0_n_n_0_1_11024_wf emb (fun _ => t) e q

set_option maxHeartbeats 2000000 in
/-- The row lookup's operations from any contents: the result row from the table and the clipped token. -/
theorem take_after (X : Valuation τ sig (Elt Ideal)) :
    StableHlo.after hostOps0_2 X (Proc.devRef .tc main_v1)
      = takeTerm (X (Proc.devRef .tc main_arg2)) (wrapTerm (X (Proc.devRef .tc main_v0))) := by
  after_results_simp
  rfl

/-- The clip's operations (with the two constants before them) from any contents. -/
theorem clip_after (X : Valuation τ sig (Elt Ideal)) :
    StableHlo.after hostOps0_1 (StableHlo.after hostOps0 X) (Proc.devRef .tc main_v0)
      = clipTerm (X (Proc.devRef .tc main_arg0)) := by
  after_results_simp
  rfl

/-! ## The tail's reductions over the 25 tiles' statistics -/

/-- Lane 0 of each of the 25 rows of a [25, 1, 128] array, sliced to [25, 1, 1] and reshaped to [25]. -/
theorem stat_lane (x : S25x1x128.Idx → EReal) :
    (fun i => shapeCast S25 (extractStridedSlice S25x1x1 ![0, 0, 0] x slices_S25x1x128_S25x1x1_0_0_0) shapeCasts_S25x1x1_S25 i)
      = fun i : S25.Idx => x (ix3 (i 0) 0 0) := by
  funext i
  refine (shapeCast_apply (s := S25x1x1) (t := S25) _ _ i (ix3 (i 0) 0 0) ?_).trans ?_
  · rw [Shape.rowMajor_val_one, Shape.rowMajor_val_three]
    show ((i 0).val * 1 + 0) * 1 + 0 = (i 0).val
    omega
  · exact extractStridedSlice_apply (s := S25x1x128) (t := S25x1x1) _ _ _ _ (ix3 (i 0) 0 0)
      (fun a => match a with
        | ⟨0, _⟩ => (Nat.zero_add _).symm
        | ⟨1, _⟩ => rfl
        | ⟨2, _⟩ => rfl)

/-- A rank-1 index is its one coordinate. -/
def idxEquiv1 {n : Nat} : (⟨1, ![n]⟩ : Shape).Idx ≃ Fin n where
  toFun j := j 0
  invFun a := ix1 a
  left_inv j := (eq_ix1 j).symm
  right_inv a := rfl

/-- The maximum of a [25] array from −∞, as a rank-0 array. -/
theorem max25 (x : S25.Idx → EReal) :
    Host.reduce FloatOps.maximumf x (constant (F := Ideal) S_ .f32 0xFF800000#32) reducesTo_S25_S_d0 h_S_
      = fun _ => Finset.univ.fold max ⊥ (fun t : Fin 25 => x (ix1 t)) := by
  funext j
  rw [Host.reduce_eq_fold, Finset.filter_true_of_mem fun i _ => funext fun b => b.elim0]
  have hb : constant (F := Ideal) S_ .f32 0xFF800000#32 (Shape.Idx.first h_S_) = (⊥ : EReal) := by
    show Ideal.ofBits .f32 0xFF800000#32 = ⊥
    simp [Ideal.ofBits, Ideal.ieee]
  rw [hb, ← Finset.map_univ_equiv (idxEquiv1 (n := 25)).symm, Finset.fold_map]
  rfl

/-- The sum of a [25] array from 0, as a rank-0 array. -/
theorem sum25 (x : S25.Idx → EReal) :
    Host.reduceAdd (F := Ideal) (φ := .f32) x (constant (F := Ideal) S_ .f32 0x00000000#32) reducesTo_S25_S_d0 h_S_
      = fun _ => ∑ t : Fin 25, x (ix1 t) := by
  funext j
  show Ideal.hostReduceAdd reducesTo_S25_S_d0 x (constant (F := Ideal) S_ .f32 0x00000000#32 (Shape.Idx.first h_S_)) j = _
  rw [Ideal.hostReduceAdd_total reducesTo_S25_S_d0 (fun b => b.elim0)]
  have hb : constant (F := Ideal) S_ .f32 0x00000000#32 (Shape.Idx.first h_S_) = (0 : EReal) := by
    show Ideal.ofBits .f32 0x00000000#32 = 0
    simp [Ideal.ofBits, Ideal.ieee]
  rw [hb, zero_add]
  exact (Fintype.sum_equiv (idxEquiv1 (n := 25)).symm _ _ (fun _ => rfl)).symm

/-- The scalar tail of a tiled log-softmax: from the logits and the tiles' statistics to the result. -/
theorem tail_term (L : S1x128000.Idx → EReal) (A B : S25x1x128.Idx → EReal) :
    subf (F := Ideal) (φ := .f32) L
      (broadcastInDim S1x128000 ![] bcast_S_S1x128000
        (addf
          (Host.reduce FloatOps.maximumf
            (fun i => shapeCast S25 (extractStridedSlice S25x1x1 ![0, 0, 0] A slices_S25x1x128_S25x1x1_0_0_0) shapeCasts_S25x1x1_S25 i)
            (constant S_ .f32 0xFF800000#32) reducesTo_S25_S_d0 h_S_)
          (Host.log
            (Host.reduceAdd
              (mulf
                (Host.exp
                  (subf
                    (fun i => shapeCast S25 (extractStridedSlice S25x1x1 ![0, 0, 0] A slices_S25x1x128_S25x1x1_0_0_0) shapeCasts_S25x1x1_S25 i)
                    (broadcastInDim S25 ![] bcast_S_S25
                      (Host.reduce FloatOps.maximumf
                        (fun i => shapeCast S25 (extractStridedSlice S25x1x1 ![0, 0, 0] A slices_S25x1x128_S25x1x1_0_0_0) shapeCasts_S25x1x1_S25 i)
                        (constant S_ .f32 0xFF800000#32) reducesTo_S25_S_d0 h_S_))))
                (fun i => shapeCast S25 (extractStridedSlice S25x1x1 ![0, 0, 0] B slices_S25x1x128_S25x1x1_0_0_0) shapeCasts_S25x1x1_S25 i))
              (constant S_ .f32 0x00000000#32) reducesTo_S25_S_d0 h_S_))))
      = GruStep.lsmFrom L (fun t => A (ix3 t 0 0)) (fun t => B (ix3 t 0 0)) := by
  rw [stat_lane A, stat_lane B, max25, sum25]
  rfl

/-! The host operations before the first pallas_call, read at the buffers the three calls stage. -/

theorem v1_eq (c : Dev nD) (htok : GruStep.TokOk (GruStep.tokOf (m ((c : Thread nD τ).loc main_arg0)))) :
    V4 m ρ c main_v1 = GruStep.tokenRow (m ((c : Thread nD τ).loc main_arg2)) (GruStep.tokOf (m ((c : Thread nD τ).loc main_arg0))) := by
  have e3 : W4 m ρ c (Proc.devRef .tc main_v1) = W3 m ρ c (Proc.devRef .tc main_v1) :=
    StableHlo.after_of_forall_not_mem (b := Proc.devRef .tc main_v1) _ _ (List.forall_iff_forall_mem.mp (by
      simp only [hostOps0_3, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
  have e2 : W2 m ρ c (Proc.devRef .tc main_arg2) = m ((c : Thread nD τ).loc main_arg2) :=
    calc W2 m ρ c (Proc.devRef .tc main_arg2)
      _ = W1 m ρ c (Proc.devRef .tc main_arg2) := StableHlo.after_of_forall_not_mem (b := Proc.devRef .tc main_arg2) _ _ (List.forall_iff_forall_mem.mp (by
            simp only [hostOps0_1, List.flatten_cons, List.flatten_nil, List.append_nil, List.cons_append,
              List.nil_append, List.Forall, StableHlo.nullary_writes, StableHlo.unary_writes, StableHlo.binary_writes, StableHlo.ternary_writes, StableHlo.quaternary_writes, StableHlo.reshape_writes, StableHlo.binaryIndexed_writes, Finset.mem_singleton]
            repeat' apply And.intro
            all_goals exact StableHlo.devRef_ne_of_ne (by decide)))
      _ = W0 m ρ c (Proc.devRef .tc main_arg2) := StableHlo.after_of_forall_not_mem (b := Proc.devRef .tc main_arg2) _ _ (List.forall_iff_forall_mem.mp (by
            simp only [hostOps0, List.flatten_cons, List.flatten_nil, List.append_nil, List.cons_append,
              List.nil_append, List.Forall, StableHlo.nullary_writes, StableHlo.unary_writes, StableHlo.binary_writes, StableHlo.ternary_writes, StableHlo.quaternary_writes, StableHlo.reshape_writes, StableHlo.binaryIndexed_writes, Finset.mem_singleton]
            repeat' apply And.intro
            all_goals exact StableHlo.devRef_ne_of_ne (by decide)))
      _ = m ((c : Thread nD τ).loc main_arg2) := rfl
  have e0 : W2 m ρ c (Proc.devRef .tc main_v0) = clipTerm (m ((c : Thread nD τ).loc main_arg0)) :=
    clip_after (W0 m ρ c)
  have htok' : GruStep.TokOk ((m ((c : Thread nD τ).loc main_arg0) : IVec S1 32) (ix1 0)) := htok
  show W4 m ρ c (Proc.devRef .tc main_v1) = _
  rw [e3]
  show StableHlo.after hostOps0_2 (W2 m ρ c) (Proc.devRef .tc main_v1) = _
  rw [take_after, e2, e0, clip_eq _ htok', wrap_eq _ htok'.1]
  exact take_eq _ _ htok'
theorem v2_eq (c : Dev nD) : V4 m ρ c main_v2 = GruStep.hidRow (m ((c : Thread nD τ).loc main_arg1)) := by
  show StableHlo.after hostOps0_3 _ (Proc.devRef .tc main_v2) = _
  after_results
  refine funext fun (j : (⟨2, ![1, 1024]⟩ : Shape).Idx) => ?_
  show shapeCast (⟨2, ![1, 1024]⟩ : Shape) (m ((c : Thread nD τ).loc main_arg1)) shapeCasts_S1x1x1024_S1x1024 j = _
  refine (shapeCast_apply (s := (⟨3, ![1, 1, 1024]⟩ : Shape)) (t := (⟨2, ![1, 1024]⟩ : Shape)) _ _ j (ix3 0 0 (j 1)) ?_).trans rfl
  rw [Shape.rowMajor_val_two, Shape.rowMajor_val_three]
  have h0 : (j 0).val = 0 := by have := (j 0).isLt; simp at this; omega
  show ((0 : Nat) * 1 + 0) * 1024 + (j 1).val = (j 0).val * 1024 + (j 1).val
  omega
theorem v3_eq (c : Dev nD) : V4 m ρ c main_v3 = GruStep.gateRow (m ((c : Thread nD τ).loc main_arg5)) := by
  show StableHlo.after hostOps0_3 _ (Proc.devRef .tc main_v3) = _
  after_results
  refine funext fun (j : (⟨2, ![1, 3072]⟩ : Shape).Idx) => ?_
  show shapeCast (⟨2, ![1, 3072]⟩ : Shape) (m ((c : Thread nD τ).loc main_arg5)) shapeCasts_S3072_S1x3072 j = _
  refine (shapeCast_apply (s := (⟨1, ![3072]⟩ : Shape)) (t := (⟨2, ![1, 3072]⟩ : Shape)) _ _ j (ix1 (j 1)) ?_).trans rfl
  rw [Shape.rowMajor_val_two, Shape.rowMajor_val_one]
  have h0 : (j 0).val = 0 := by have := (j 0).isLt; simp at this; omega
  show (j 1).val = (j 0).val * 3072 + (j 1).val
  omega
theorem v4_eq (c : Dev nD) : V4 m ρ c main_v4 = GruStep.gateRow (m ((c : Thread nD τ).loc main_arg6)) := by
  show StableHlo.after hostOps0_3 _ (Proc.devRef .tc main_v4) = _
  after_results
  refine funext fun (j : (⟨2, ![1, 3072]⟩ : Shape).Idx) => ?_
  show shapeCast (⟨2, ![1, 3072]⟩ : Shape) (m ((c : Thread nD τ).loc main_arg6)) shapeCasts_S3072_S1x3072 j = _
  refine (shapeCast_apply (s := (⟨1, ![3072]⟩ : Shape)) (t := (⟨2, ![1, 3072]⟩ : Shape)) _ _ j (ix1 (j 1)) ?_).trans rfl
  rw [Shape.rowMajor_val_two, Shape.rowMajor_val_one]
  have h0 : (j 0).val = 0 := by have := (j 0).isLt; simp at this; omega
  show (j 1).val = (j 0).val * 3072 + (j 1).val
  omega
theorem v5_eq (c : Dev nD) : V4 m ρ c main_v5 = GruStep.logitRow (m ((c : Thread nD τ).loc main_arg8)) := by
  show StableHlo.after hostOps0_3 _ (Proc.devRef .tc main_v5) = _
  after_results
  refine funext fun (j : (⟨2, ![1, 128000]⟩ : Shape).Idx) => ?_
  show shapeCast (⟨2, ![1, 128000]⟩ : Shape) (m ((c : Thread nD τ).loc main_arg8)) shapeCasts_S128000_S1x128000 j = _
  refine (shapeCast_apply (s := (⟨1, ![128000]⟩ : Shape)) (t := (⟨2, ![1, 128000]⟩ : Shape)) _ _ j (ix1 (j 1)) ?_).trans rfl
  rw [Shape.rowMajor_val_two, Shape.rowMajor_val_one]
  have h0 : (j 0).val = 0 := by have := (j 0).isLt; simp at this; omega
  show (j 1).val = (j 0).val * 128000 + (j 1).val
  omega
theorem arg3_eq (c : Dev nD) : V4 m ρ c main_arg3 = (m ((c : Thread nD τ).loc main_arg3)) :=
  calc W4 m ρ c (Proc.devRef .tc main_arg3)
    _ = W3 m ρ c (Proc.devRef .tc main_arg3) := StableHlo.after_of_forall_not_mem (b := Proc.devRef .tc main_arg3) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg3) := StableHlo.after_of_forall_not_mem (b := Proc.devRef .tc main_arg3) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg3) := StableHlo.after_of_forall_not_mem (b := Proc.devRef .tc main_arg3) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl
theorem arg4_eq (c : Dev nD) : V4 m ρ c main_arg4 = (m ((c : Thread nD τ).loc main_arg4)) :=
  calc W4 m ρ c (Proc.devRef .tc main_arg4)
    _ = W3 m ρ c (Proc.devRef .tc main_arg4) := StableHlo.after_of_forall_not_mem (b := Proc.devRef .tc main_arg4) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg4) := StableHlo.after_of_forall_not_mem (b := Proc.devRef .tc main_arg4) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := StableHlo.after_of_forall_not_mem (b := Proc.devRef .tc main_arg4) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl
theorem arg7_eq (c : Dev nD) : V4 m ρ c main_arg7 = (m ((c : Thread nD τ).loc main_arg7)) :=
  calc W4 m ρ c (Proc.devRef .tc main_arg7)
    _ = W3 m ρ c (Proc.devRef .tc main_arg7) := StableHlo.after_of_forall_not_mem (b := Proc.devRef .tc main_arg7) _ _ (List.forall_iff_forall_mem.mp (by
          simp only [hostOps0_3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg7) := StableHlo.after_of_forall_not_mem (b := Proc.devRef .tc main_arg7) _ _ (List.forall_iff_forall_mem.mp (by
          simp only [hostOps0_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg7) := StableHlo.after_of_forall_not_mem (b := Proc.devRef .tc main_arg7) _ _ (List.forall_iff_forall_mem.mp (by
          simp only [hostOps0_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

/-! The host operations after the last pallas_call, from any contents `W` of the buffers. -/

set_option maxHeartbeats 2000000 in
theorem tail_v22 (W : Valuation τ sig (Elt Ideal)) :
    StableHlo.after hostOps3 W (Proc.devRef .tc main_v22)
      = GruStep.lsmFrom (W (Proc.devRef .tc main_v8_0))
          (fun t => W (Proc.devRef .tc main_v8_1) (ix3 t 0 0)) (fun t => W (Proc.devRef .tc main_v8_2) (ix3 t 0 0)) := by
  after_results_simp
  exact tail_term _ _ _
theorem tail_v23 (W : Valuation τ sig (Elt Ideal)) :
    StableHlo.after hostOps3 W (Proc.devRef .tc main_v23) = GruStep.hid3 (W (Proc.devRef .tc main_v7)) := by
  after_results
  refine funext fun (j : (⟨3, ![1, 1, 1024]⟩ : Shape).Idx) => ?_
  show shapeCast (⟨3, ![1, 1, 1024]⟩ : Shape) (W (Proc.devRef .tc main_v7)) shapeCasts_S1x1024_S1x1x1024 j = _
  refine (shapeCast_apply (s := (⟨2, ![1, 1024]⟩ : Shape)) (t := (⟨3, ![1, 1, 1024]⟩ : Shape)) _ _ j (ix2 0 (j 2)) ?_).trans rfl
  rw [Shape.rowMajor_val_two, Shape.rowMajor_val_three]
  have h0 : (j 0).val = 0 := by have := (j 0).isLt; simp at this; omega
  have h1 : (j 1).val = 0 := by have := (j 1).isLt; simp at this; omega
  show (0 : Nat) * 1024 + (j 2).val = ((j 0).val * 1 + (j 1).val) * 1024 + (j 2).val
  rw [h0, h1]

end GruStep.KHost

end
-- ==== Proof.KChain.lean ====
/-
  The kernel program's two results as functions of its arguments: the three pallas_calls' final arrays and the host
  operations around them, composed. Each call's outputs are read at the contents the call is entered with; a buffer a
  call only reads, or does not touch, keeps its contents across the call.
-/
import proofs.«401664_j15015205666921_3_alg».proof.Proof.K0Value
import proofs.«401664_j15015205666921_3_alg».proof.Proof.K1Value
import proofs.«401664_j15015205666921_3_alg».proof.Proof.K2Value
import proofs.«401664_j15015205666921_3_alg».proof.Proof.KHost

set_option maxRecDepth 16384

noncomputable section

open scoped BigOperators
open Idealize.ShloMosaic Idealize.ShloMosaic.TcCoe Idealize.ShloMosaic.ValueIdx
open Idealize.SL.Sem
open Idealize.ShloMosaic.Pipeline (Dat Cfg Window)
open Cert.KernelIdeal Cert.KernelIdeal.Gen

namespace GruStep.KChain

variable (m : (ℓ : Loc nD τ sig) → Buf (Elt Ideal) ℓ) (ρ : Dev nD → PrngReg)

/-! ## After the first call: the two rows of gate pre-activations; the hidden row, the output weights and bias kept -/

theorem gi_eq (c : Dev nD) (htok : GruStep.TokOk (GruStep.tokOf (m ((c : Thread nD τ).loc main_arg0)))) :
    V5 m ρ c main_v6_0
      = GruStep.gate (GruStep.relu (GruStep.tokenRow (m ((c : Thread nD τ).loc main_arg2)) (GruStep.tokOf (m ((c : Thread nD τ).loc main_arg0))))) (m ((c : Thread nD τ).loc main_arg3)) (GruStep.gateRow (m ((c : Thread nD τ).loc main_arg5))) := by
  refine (W5_arr m ρ c 6).trans ((GruStep.K0.gi_final (V4 m ρ) c).trans ?_)
  rw [GruStep.KHost.v1_eq m ρ c htok, GruStep.KHost.arg3_eq m ρ c, GruStep.KHost.v3_eq m ρ c]

theorem gh_eq (c : Dev nD) :
    V5 m ρ c main_v6_1 = GruStep.gate (GruStep.hidRow (m ((c : Thread nD τ).loc main_arg1))) (m ((c : Thread nD τ).loc main_arg4)) (GruStep.gateRow (m ((c : Thread nD τ).loc main_arg6))) := by
  refine (W5_arr m ρ c 7).trans ((GruStep.K0.gh_final (V4 m ρ) c).trans ?_)
  rw [GruStep.KHost.v2_eq m ρ c, GruStep.KHost.arg4_eq m ρ c, GruStep.KHost.v4_eq m ρ c]

theorem h_kept5 (c : Dev nD) : V5 m ρ c main_v2 = GruStep.hidRow (m ((c : Thread nD τ).loc main_arg1)) :=
  ((W5_arr m ρ c 1).trans (((dat0 (V4 m ρ) c).arrAt_in 1 rfl _).trans (A_eq0 (V4 m ρ) c 1))).trans (GruStep.KHost.v2_eq m ρ c)

theorem wout_kept5 (c : Dev nD) : V5 m ρ c main_arg7 = (m ((c : Thread nD τ).loc main_arg7)) :=
  (W5_of_ne m ρ c main_arg7 (by decide)).trans (GruStep.KHost.arg7_eq m ρ c)

theorem bout_kept5 (c : Dev nD) : V5 m ρ c main_v5 = GruStep.logitRow (m ((c : Thread nD τ).loc main_arg8)) :=
  (W5_of_ne m ρ c main_v5 (by decide)).trans (GruStep.KHost.v5_eq m ρ c)

/-! ## After the second call: the new hidden row -/

theorem hn_eq (c : Dev nD) (htok : GruStep.TokOk (GruStep.tokOf (m ((c : Thread nD τ).loc main_arg0)))) :
    V6 m ρ c main_v7 = GruStep.hiddenOf (GruStep.tokOf (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W6_arr m ρ c 3).trans ((GruStep.K1.hnew_final (V5 m ρ) c).trans ?_)
  rw [gi_eq m ρ c htok, gh_eq m ρ c, h_kept5 m ρ c]
  rfl

theorem wout_kept6 (c : Dev nD) : V6 m ρ c main_arg7 = (m ((c : Thread nD τ).loc main_arg7)) :=
  (W6_of_ne m ρ c main_arg7 (by decide)).trans (wout_kept5 m ρ c)

theorem bout_kept6 (c : Dev nD) : V6 m ρ c main_v5 = GruStep.logitRow (m ((c : Thread nD τ).loc main_arg8)) :=
  (W6_of_ne m ρ c main_v5 (by decide)).trans (bout_kept5 m ρ c)

/-! ## After the third call: the logits and the 25 tiles' statistics; the hidden row kept -/

theorem logits_eq (c : Dev nD) (htok : GruStep.TokOk (GruStep.tokOf (m ((c : Thread nD τ).loc main_arg0)))) :
    W7 m ρ c (Proc.devRef .tc main_v8_0) = GruStep.logitsOf (GruStep.tokOf (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  refine (W7_arr m ρ c 3).trans ((GruStep.K2.logits_final (V6 m ρ) c).trans ?_)
  rw [hn_eq m ρ c htok, wout_kept6 m ρ c, bout_kept6 m ρ c]
  rfl

theorem tmax_eq (c : Dev nD) (htok : GruStep.TokOk (GruStep.tokOf (m ((c : Thread nD τ).loc main_arg0)))) :
    W7 m ρ c (Proc.devRef .tc main_v8_1) = fun i : GruStep.Stat.Idx => GruStep.tileMax (GruStep.logitsOf (GruStep.tokOf (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (i 0) := by
  refine (W7_arr m ρ c 4).trans ((GruStep.K2.tmax_final (V6 m ρ) c).trans ?_)
  rw [hn_eq m ρ c htok, wout_kept6 m ρ c, bout_kept6 m ρ c]
  rfl

theorem tsum_eq (c : Dev nD) (htok : GruStep.TokOk (GruStep.tokOf (m ((c : Thread nD τ).loc main_arg0)))) :
    W7 m ρ c (Proc.devRef .tc main_v8_2) = fun i : GruStep.Stat.Idx => GruStep.tileSum (GruStep.logitsOf (GruStep.tokOf (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (i 0) := by
  refine (W7_arr m ρ c 5).trans ((GruStep.K2.tsum_final (V6 m ρ) c).trans ?_)
  rw [hn_eq m ρ c htok, wout_kept6 m ρ c, bout_kept6 m ρ c]
  rfl

theorem hn_kept7 (c : Dev nD) (htok : GruStep.TokOk (GruStep.tokOf (m ((c : Thread nD τ).loc main_arg0)))) :
    W7 m ρ c (Proc.devRef .tc main_v7) = GruStep.hiddenOf (GruStep.tokOf (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ((W7_arr m ρ c 0).trans (((dat2 (V6 m ρ) c).arrAt_in 0 rfl _).trans (A_eq2 (V6 m ρ) c 0))).trans (hn_eq m ρ c htok)

/-! ## The two results -/

theorem out0 (c : Dev nD) (htok : GruStep.TokOk (GruStep.tokOf (m ((c : Thread nD τ).loc main_arg0)))) :
    W8 m ρ c (Proc.devRef .tc main_v22)
      = GruStep.lsmTiled (GruStep.logitsOf (GruStep.tokOf (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine (GruStep.KHost.tail_v22 (W7 m ρ c)).trans ?_
  rw [logits_eq m ρ c htok, tmax_eq m ρ c htok, tsum_eq m ρ c htok]
  rfl

theorem out1 (c : Dev nD) (htok : GruStep.TokOk (GruStep.tokOf (m ((c : Thread nD τ).loc main_arg0)))) :
    W8 m ρ c (Proc.devRef .tc main_v23) = GruStep.hid3 (GruStep.hiddenOf (GruStep.tokOf (m ((c : Thread nD τ).loc main_arg0))) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) := by
  refine (GruStep.KHost.tail_v23 (W7 m ρ c)).trans ?_
  rw [hn_kept7 m ρ c htok]

end GruStep.KChain

end
-- ==== Proof.RefBridge.lean ====
/-
  What the reference program's 74 host operations leave in its two result buffers, read from any contents `W` of the
  buffers they start from: the operations are cut into five stretches — the embedding row and the hidden row; the two
  rows of gate pre-activations; the new hidden row; the logits; the log-softmax and the reshaped hidden row — and each
  stretch's outputs are the stage functions of the arguments, given that the stretch before left its own.
-/
import proofs.«401664_j15015205666921_3_alg».proof.Proof.RefRead
import Idealize.ShloMosaic.Lib.Pipeline.Frame

set_option maxRecDepth 16384

noncomputable section

namespace GruStep.RefBridge

open Cert.ReferenceIdeal Cert.ReferenceIdeal.Gen Idealize.ShloMosaic Idealize.ShloMosaic.TcCoe Idealize.SL.Sem Idealize.ShloMosaic.StableHlo
open Cert.ReferenceIdeal.Value Cert.ReferenceIdeal.Read

variable {F : FTy → Type} [FloatOps F]

/-- The token's index arithmetic, the gather of the embedding row, its rectifier, and the hidden state as a row. -/
abbrev ops1 : List (HloOp τ sig (Elt F)) :=
  [ nullary main_c (constantI S_ 32 0#32),
    unary main_c main_v0 (broadcastInDim S1 ![] bcast_S_S1 : (⟨S_, .i32⟩ : BufTy).Contents (Elt F) → (⟨S1, .i32⟩ : BufTy).Contents (Elt F)),
    binary main_arg0 main_v0 main_v1 (cmpi .slt : (⟨S1, .i32⟩ : BufTy).Contents (Elt F) → (⟨S1, .i32⟩ : BufTy).Contents (Elt F) → (⟨S1, .i1⟩ : BufTy).Contents (Elt F)),
    nullary main_c_0 (constantI S_ 32 128000#32),
    unary main_c_0 main_v2 (broadcastInDim S1 ![] bcast_S_S1 : (⟨S_, .i32⟩ : BufTy).Contents (Elt F) → (⟨S1, .i32⟩ : BufTy).Contents (Elt F)),
    binary main_arg0 main_v2 main_v3 (addi : (⟨S1, .i32⟩ : BufTy).Contents (Elt F) → (⟨S1, .i32⟩ : BufTy).Contents (Elt F) → (⟨S1, .i32⟩ : BufTy).Contents (Elt F)),
    ternary main_v1 main_v3 main_arg0 main_v4 (select : (⟨S1, .i1⟩ : BufTy).Contents (Elt F) → (⟨S1, .i32⟩ : BufTy).Contents (Elt F) → (⟨S1, .i32⟩ : BufTy).Contents (Elt F) → (⟨S1, .i32⟩ : BufTy).Contents (Elt F)),
    unary main_v4 main_v5 (broadcastInDim S1x1 ![0] bcast_S1_S1x1_0 : (⟨S1, .i32⟩ : BufTy).Contents (Elt F) → (⟨S1x1, .i32⟩ : BufTy).Contents (Elt F)),
    binary main_arg2 main_v5 main_v6 ((fun x i => Host.gather gather_S128000x1024_S1x1_S1x1024_1_0_n_n_0_1_11024 x i) : (⟨S128000x1024, .f32⟩ : BufTy).Contents (Elt F) → (⟨S1x1, .i32⟩ : BufTy).Contents (Elt F) → (⟨S1x1024, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S1x1024, .f32⟩) main_call0_v0) (broadcastInDim S1x1024 ![] bcast_S_S1x1024),
    TRef.binary (TRef.of (T := ⟨S1x1024, .f32⟩) main_v6) (TRef.of (T := ⟨S1x1024, .f32⟩) main_call0_v0) (TRef.of (T := ⟨S1x1024, .f32⟩) main_v7) maximumf,
    reshape main_arg1 main_v8 rfl shapeCasts_S1x1x1024_S1x1024 ]
/-- The two affine maps: gate pre-activations from the rectified row and from the hidden row. -/
abbrev ops2 : List (HloOp τ sig (Elt F)) :=
  [ unary main_arg3 main_v9 ((transpose S1024x3072 [1, 0] · transposes_S3072x1024_S1024x3072_1_0) : (⟨S3072x1024, .f32⟩ : BufTy).Contents (Elt F) → (⟨S1024x3072, .f32⟩ : BufTy).Contents (Elt F)),
    binary main_v7 main_v9 main_v10 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg5 main_v11 (broadcastInDim S1x3072 ![1] bcast_S3072_S1x3072_1 : (⟨S3072, .f32⟩ : BufTy).Contents (Elt F) → (⟨S1x3072, .f32⟩ : BufTy).Contents (Elt F)),
    binary main_v10 main_v11 main_v12 (addf : (⟨S1x3072, .f32⟩ : BufTy).Contents (Elt F) → (⟨S1x3072, .f32⟩ : BufTy).Contents (Elt F) → (⟨S1x3072, .f32⟩ : BufTy).Contents (Elt F)),
    unary main_arg4 main_v13 ((transpose S1024x3072 [1, 0] · transposes_S3072x1024_S1024x3072_1_0) : (⟨S3072x1024, .f32⟩ : BufTy).Contents (Elt F) → (⟨S1024x3072, .f32⟩ : BufTy).Contents (Elt F)),
    binary main_v8 main_v13 main_v14 ((fun l r => Host.dotGeneral dot_S1x1024_S1024x3072_S1x3072_1_0_0_1_n_n none l r) : (⟨S1x1024, .f32⟩ : BufTy).Contents (Elt F) → (⟨S1024x3072, .f32⟩ : BufTy).Contents (Elt F) → (⟨S1x3072, .f32⟩ : BufTy).Contents (Elt F)),
    unary main_arg6 main_v15 (broadcastInDim S1x3072 ![1] bcast_S3072_S1x3072_1 : (⟨S3072, .f32⟩ : BufTy).Contents (Elt F) → (⟨S1x3072, .f32⟩ : BufTy).Contents (Elt F)),
    binary main_v14 main_v15 main_v16 (addf : (⟨S1x3072, .f32⟩ : BufTy).Contents (Elt F) → (⟨S1x3072, .f32⟩ : BufTy).Contents (Elt F) → (⟨S1x3072, .f32⟩ : BufTy).Contents (Elt F)) ]
/-- The gates and the new hidden row. -/
abbrev ops3 : List (HloOp τ sig (Elt F)) :=
  [ unary main_v12 main_v17 ((extractStridedSlice S1x1024 ![0, 0] · slices_S1x3072_S1x1024_0_0) : (⟨S1x3072, .f32⟩ : BufTy).Contents (Elt F) → (⟨S1x1024, .f32⟩ : BufTy).Contents (Elt F)),
    unary main_v12 main_v18 ((extractStridedSlice S1x1024 ![0, 1024] · slices_S1x3072_S1x1024_0_1024) : (⟨S1x3072, .f32⟩ : BufTy).Contents (Elt F) → (⟨S1x1024, .f32⟩ : BufTy).Contents (Elt F)),
    unary main_v12 main_v19 ((extractStridedSlice S1x1024 ![0, 2048] · slices_S1x3072_S1x1024_0_2048) : (⟨S1x3072, .f32⟩ : BufTy).Contents (Elt F) → (⟨S1x1024, .f32⟩ : BufTy).Contents (Elt F)),
    unary main_v16 main_v20 ((extractStridedSlice S1x1024 ![0, 0] · slices_S1x3072_S1x1024_0_0) : (⟨S1x3072, .f32⟩ : BufTy).Contents (Elt F) → (⟨S1x1024, .f32⟩ : BufTy).Contents (Elt F)),
    unary main_v16 main_v21 ((extractStridedSlice S1x1024 ![0, 1024] · slices_S1x3072_S1x1024_0_1024) : (⟨S1x3072, .f32⟩ : BufTy).Contents (Elt F) → (⟨S1x1024, .f32⟩ : BufTy).Contents (Elt F)),
    unary main_v16 main_v22 ((extractStridedSlice S1x1024 ![0, 2048] · slices_S1x3072_S1x1024_0_2048) : (⟨S1x3072, .f32⟩ : BufTy).Contents (Elt F) → (⟨S1x1024, .f32⟩ : BufTy).Contents (Elt F)),
    binary main_v17 main_v20 main_v23 (addf : (⟨S1x1024, .f32⟩ : BufTy).Contents (Elt F) → (⟨S1x1024, .f32⟩ : BufTy).Contents (Elt F) → (⟨S1x1024, .f32⟩ : BufTy).Contents (Elt F)),
    unary main_v23 main_v24 (Host.negf : (⟨S1x1024, .f32⟩ : BufTy).Contents (Elt F) → (⟨S1x1024, .f32⟩ : BufTy).Contents (Elt F)),
    unary main_v24 main_v25 (Host.exp : (⟨S1x1024, .f32⟩ : BufTy).Contents (Elt F) → (⟨S1x1024, .f32⟩ : BufTy).Contents (Elt F)),
    nullary main_cst (constant S_ .f32 0x3F800000#32),
    unary main_cst main_v26 (broadcastInDim S1x1024 ![] bcast_S_S1x1024 : (⟨S_, .f32⟩ : BufTy).Contents (Elt F) → (⟨S1x1024, .f32⟩ : BufTy).Contents (Elt F)),
    binary main_v26 main_v25 main_v27 (addf : (⟨S1x1024, .f32⟩ : BufTy).Contents (Elt F) → (⟨S1x1024, .f32⟩ : BufTy).Contents (Elt F) → (⟨S1x1024, .f32⟩ : BufTy).Contents (Elt F)),
    nullary main_cst_1 (constant S_ .f32 0x3F800000#32),
    unary main_cst_1 main_v28 (broadcastInDim S1x1024 ![] bcast_S_S1x1024 : (⟨S_, .f32⟩ : BufTy).Contents (Elt F) → (⟨S1x1024, .f32⟩ : BufTy).Contents (Elt F)),
    binary main_v28 main_v27 main_v29 (Host.divf : (⟨S1x1024, .f32⟩ : BufTy).Contents (Elt F) → (⟨S1x1024, .f32⟩ : BufTy).Contents (Elt F) → (⟨S1x1024, .f32⟩ : BufTy).Contents (Elt F)),
    binary main_v18 main_v21 main_v30 (addf : (⟨S1x1024, .f32⟩ : BufTy).Contents (Elt F) → (⟨S1x1024, .f32⟩ : BufTy).Contents (Elt F) → (⟨S1x1024, .f32⟩ : BufTy).Contents (Elt F)),
    unary main_v30 main_v31 (Host.negf : (⟨S1x1024, .f32⟩ : BufTy).Contents (Elt F) → (⟨S1x1024, .f32⟩ : BufTy).Contents (Elt F)),
    unary main_v31 main_v32 (Host.exp : (⟨S1x1024, .f32⟩ : BufTy).Contents (Elt F) → (⟨S1x1024, .f32⟩ : BufTy).Contents (Elt F)),
    nullary main_cst_2 (constant S_ .f32 0x3F800000#32),
    unary main_cst_2 main_v33 (broadcastInDim S1x1024 ![] bcast_S_S1x1024 : (⟨S_, .f32⟩ : BufTy).Contents (Elt F) → (⟨S1x1024, .f32⟩ : BufTy).Contents (Elt F)),
    binary main_v33 main_v32 main_v34 (addf : (⟨S1x1024, .f32⟩ : BufTy).Contents (Elt F) → (⟨S1x1024, .f32⟩ : BufTy).Contents (Elt F) → (⟨S1x1024, .f32⟩ : BufTy).Contents (Elt F)),
    nullary main_cst_3 (constant S_ .f32 0x3F800000#32),
    unary main_cst_3 main_v35 (broadcastInDim S1x1024 ![] bcast_S_S1x1024 : (⟨S_, .f32⟩ : BufTy).Contents (Elt F) → (⟨S1x1024, .f32⟩ : BufTy).Contents (Elt F)),
    binary main_v35 main_v34 main_v36 (Host.divf : (⟨S1x1024, .f32⟩ : BufTy).Contents (Elt F) → (⟨S1x1024, .f32⟩ : BufTy).Contents (Elt F) → (⟨S1x1024, .f32⟩ : BufTy).Contents (Elt F)),
    binary main_v29 main_v22 main_v37 (mulf : (⟨S1x1024, .f32⟩ : BufTy).Contents (Elt F) → (⟨S1x1024, .f32⟩ : BufTy).Contents (Elt F) → (⟨S1x1024, .f32⟩ : BufTy).Contents (Elt F)),
    binary main_v19 main_v37 main_v38 (addf : (⟨S1x1024, .f32⟩ : BufTy).Contents (Elt F) → (⟨S1x1024, .f32⟩ : BufTy).Contents (Elt F) → (⟨S1x1024, .f32⟩ : BufTy).Contents (Elt F)),
    unary main_v38 main_v39 (Host.tanh : (⟨S1x1024, .f32⟩ : BufTy).Contents (Elt F) → (⟨S1x1024, .f32⟩ : BufTy).Contents (Elt F)),
    nullary main_cst_4 (constant S_ .f32 0x3F800000#32),
    unary main_cst_4 main_v40 (broadcastInDim S1x1024 ![] bcast_S_S1x1024 : (⟨S_, .f32⟩ : BufTy).Contents (Elt F) → (⟨S1x1024, .f32⟩ : BufTy).Contents (Elt F)),
    binary main_v40 main_v36 main_v41 (subf : (⟨S1x1024, .f32⟩ : BufTy).Contents (Elt F) → (⟨S1x1024, .f32⟩ : BufTy).Contents (Elt F) → (⟨S1x1024, .f32⟩ : BufTy).Contents (Elt F)),
    binary main_v41 main_v39 main_v42 (mulf : (⟨S1x1024, .f32⟩ : BufTy).Contents (Elt F) → (⟨S1x1024, .f32⟩ : BufTy).Contents (Elt F) → (⟨S1x1024, .f32⟩ : BufTy).Contents (Elt F)),
    binary main_v36 main_v8 main_v43 (mulf : (⟨S1x1024, .f32⟩ : BufTy).Contents (Elt F) → (⟨S1x1024, .f32⟩ : BufTy).Contents (Elt F) → (⟨S1x1024, .f32⟩ : BufTy).Contents (Elt F)),
    binary main_v42 main_v43 main_v44 (addf : (⟨S1x1024, .f32⟩ : BufTy).Contents (Elt F) → (⟨S1x1024, .f32⟩ : BufTy).Contents (Elt F) → (⟨S1x1024, .f32⟩ : BufTy).Contents (Elt F)) ]
/-- The output projection. -/
abbrev ops4 : List (HloOp τ sig (Elt F)) :=
  [ unary main_arg7 main_v45 ((transpose S1024x128000 [1, 0] · transposes_S128000x1024_S1024x128000_1_0) : (⟨S128000x1024, .f32⟩ : BufTy).Contents (Elt F) → (⟨S1024x128000, .f32⟩ : BufTy).Contents (Elt F)),
    binary main_v44 main_v45 main_v46 ((fun l r => Host.dotGeneral dot_S1x1024_S1024x128000_S1x128000_1_0_0_1_n_n none l r) : (⟨S1x1024, .f32⟩ : BufTy).Contents (Elt F) → (⟨S1024x128000, .f32⟩ : BufTy).Contents (Elt F) → (⟨S1x128000, .f32⟩ : BufTy).Contents (Elt F)),
    unary main_arg8 main_v47 (broadcastInDim S1x128000 ![1] bcast_S128000_S1x128000_1 : (⟨S128000, .f32⟩ : BufTy).Contents (Elt F) → (⟨S1x128000, .f32⟩ : BufTy).Contents (Elt F)),
    binary main_v46 main_v47 main_v48 (addf : (⟨S1x128000, .f32⟩ : BufTy).Contents (Elt F) → (⟨S1x128000, .f32⟩ : BufTy).Contents (Elt F) → (⟨S1x128000, .f32⟩ : BufTy).Contents (Elt F)) ]
/-- The row's maximum. -/
abbrev ops5a : List (HloOp τ sig (Elt F)) :=
  [ TRef.nullary (TRef.of (T := ⟨S_, .f32⟩) main_call1_cst) (constant S_ .f32 0xFF800000#32),
    TRef.binary (TRef.of (T := ⟨S1x128000, .f32⟩) main_v48) (TRef.of (T := ⟨S_, .f32⟩) main_call1_cst) (TRef.of (T := ⟨S1, .f32⟩) main_call1_v0) (fun x v => Host.reduce FloatOps.maximumf x v reducesTo_S1x128000_S1_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S1, .f32⟩) main_call1_v1) (broadcastInDim S1 ![] bcast_S_S1),
    TRef.binary (TRef.of (T := ⟨S1, .f32⟩) main_call1_v1) (TRef.of (T := ⟨S1, .f32⟩) main_call1_v0) (TRef.of (T := ⟨S1, .f32⟩) main_call1_v2) maximumf ]
/-- The logits less their maximum, and the exponentials of that. -/
abbrev ops5b : List (HloOp τ sig (Elt F)) :=
  [ TRef.unary (TRef.of (T := ⟨S1, .f32⟩) main_call1_v2) (TRef.of (T := ⟨S1x1, .f32⟩) main_call1_v3) (broadcastInDim S1x1 ![0] bcast_S1_S1x1_0),
    TRef.unary (TRef.of (T := ⟨S1x1, .f32⟩) main_call1_v3) (TRef.of (T := ⟨S1x128000, .f32⟩) main_call1_v4) (broadcastInDim S1x128000 ![0, 1] bcast_S1x1_S1x128000_0_1),
    TRef.binary (TRef.of (T := ⟨S1x128000, .f32⟩) main_v48) (TRef.of (T := ⟨S1x128000, .f32⟩) main_call1_v4) (TRef.of (T := ⟨S1x128000, .f32⟩) main_call1_v5) subf,
    TRef.unary (TRef.of (T := ⟨S1x128000, .f32⟩) main_call1_v5) (TRef.of (T := ⟨S1x128000, .f32⟩) main_call1_v6) Host.exp ]
/-- The logarithm of the exponentials' sum, as a row. -/
abbrev ops5c : List (HloOp τ sig (Elt F)) :=
  [ TRef.nullary (TRef.of (T := ⟨S_, .f32⟩) main_call1_cst_1) (constant S_ .f32 0x00000000#32),
    TRef.binary (TRef.of (T := ⟨S1x128000, .f32⟩) main_call1_v6) (TRef.of (T := ⟨S_, .f32⟩) main_call1_cst_1) (TRef.of (T := ⟨S1, .f32⟩) main_call1_v7) (fun x v => Host.reduceAdd x v reducesTo_S1x128000_S1_d1 h_S_),
    TRef.unary (TRef.of (T := ⟨S1, .f32⟩) main_call1_v7) (TRef.of (T := ⟨S1x1, .f32⟩) main_call1_v8) (broadcastInDim S1x1 ![0] bcast_S1_S1x1_0),
    TRef.unary (TRef.of (T := ⟨S1x1, .f32⟩) main_call1_v8) (TRef.of (T := ⟨S1x1, .f32⟩) main_call1_v9) Host.log,
    TRef.unary (TRef.of (T := ⟨S1x1, .f32⟩) main_call1_v9) (TRef.of (T := ⟨S1x128000, .f32⟩) main_call1_v10) (broadcastInDim S1x128000 ![0, 1] bcast_S1x1_S1x128000_0_1) ]
/-- The last subtraction, and the hidden row as [1, 1, 1024]. -/
abbrev ops5d : List (HloOp τ sig (Elt F)) :=
  [ TRef.binary (TRef.of (T := ⟨S1x128000, .f32⟩) main_call1_v5) (TRef.of (T := ⟨S1x128000, .f32⟩) main_call1_v10) (TRef.of (T := ⟨S1x128000, .f32⟩) main_v49) subf,
    unary main_v44 main_v50 (broadcastInDim S1x1x1024 ![1, 2] bcast_S1x1024_S1x1x1024_1_2 : (⟨S1x1024, .f32⟩ : BufTy).Contents (Elt F) → (⟨S1x1x1024, .f32⟩ : BufTy).Contents (Elt F)) ]

theorem ops_eq : (ops : List (HloOp τ sig (Elt F)))
    = ops1 ++ (ops2 ++ (ops3 ++ (ops4 ++ (ops5a ++ (ops5b ++ (ops5c ++ ops5d)))))) := rfl

variable (W : Valuation τ sig (Elt F))

/-- Contents carried to a typed reference's buffer and back are the contents. -/
theorem ofBuf_toBuf {T : BufTy} (x : TRef sig T) (v : T.Contents (Elt F)) : x.ofBuf (x.toBuf v) = v := by
  obtain ⟨r, h, _, _⟩ := x; subst h; rfl

/-! ## Stretch 1 -/

theorem s1_v7 : after ops1 W (Proc.devRef .tc main_v7) = val_main_v7 (W (Proc.devRef .tc main_arg0)) (W (Proc.devRef .tc main_arg2)) := by
  after_results <;> rfl
theorem s1_v8 : after ops1 W (Proc.devRef .tc main_v8) = val_main_v8 (W (Proc.devRef .tc main_arg1)) := by
  after_results <;> rfl
theorem s1_arg3 : after ops1 W (Proc.devRef .tc main_arg3) = (W (Proc.devRef .tc main_arg3)) := by
  after_results <;> rfl
theorem s1_arg4 : after ops1 W (Proc.devRef .tc main_arg4) = (W (Proc.devRef .tc main_arg4)) := by
  after_results <;> rfl
theorem s1_arg5 : after ops1 W (Proc.devRef .tc main_arg5) = (W (Proc.devRef .tc main_arg5)) := by
  after_results <;> rfl
theorem s1_arg6 : after ops1 W (Proc.devRef .tc main_arg6) = (W (Proc.devRef .tc main_arg6)) := by
  after_results <;> rfl
theorem s1_arg7 : after ops1 W (Proc.devRef .tc main_arg7) = (W (Proc.devRef .tc main_arg7)) := by
  after_results <;> rfl
theorem s1_arg8 : after ops1 W (Proc.devRef .tc main_arg8) = (W (Proc.devRef .tc main_arg8)) := by
  after_results <;> rfl

/-! ## Stretch 2 -/

theorem s2_v12 (a0 : (⟨S1, .i32⟩ : BufTy).Contents (Elt F)) (a2 : (⟨S128000x1024, .f32⟩ : BufTy).Contents (Elt F))
    (h7 : W (Proc.devRef .tc main_v7) = val_main_v7 a0 a2) :
    after ops2 W (Proc.devRef .tc main_v12) = val_main_v12 a0 a2 (W (Proc.devRef .tc main_arg3)) (W (Proc.devRef .tc main_arg5)) := by
  after_results
  rw [h7]
  rfl
theorem s2_v16 (a1 : (⟨S1x1x1024, .f32⟩ : BufTy).Contents (Elt F)) (h8 : W (Proc.devRef .tc main_v8) = val_main_v8 a1) :
    after ops2 W (Proc.devRef .tc main_v16) = val_main_v16 a1 (W (Proc.devRef .tc main_arg4)) (W (Proc.devRef .tc main_arg6)) := by
  after_results
  rw [h8]
  rfl
theorem s2_v8 : after ops2 W (Proc.devRef .tc main_v8) = W (Proc.devRef .tc main_v8) := by
  after_results <;> rfl
theorem s2_arg7 : after ops2 W (Proc.devRef .tc main_arg7) = (W (Proc.devRef .tc main_arg7)) := by
  after_results <;> rfl
theorem s2_arg8 : after ops2 W (Proc.devRef .tc main_arg8) = (W (Proc.devRef .tc main_arg8)) := by
  after_results <;> rfl

/-! ## Stretch 3 -/

theorem s3_v44 (a0 : (⟨S1, .i32⟩ : BufTy).Contents (Elt F)) (a1 : (⟨S1x1x1024, .f32⟩ : BufTy).Contents (Elt F))
    (a2 : (⟨S128000x1024, .f32⟩ : BufTy).Contents (Elt F)) (a3 a4 : (⟨S3072x1024, .f32⟩ : BufTy).Contents (Elt F))
    (a5 a6 : (⟨S3072, .f32⟩ : BufTy).Contents (Elt F))
    (h12 : W (Proc.devRef .tc main_v12) = val_main_v12 a0 a2 a3 a5) (h16 : W (Proc.devRef .tc main_v16) = val_main_v16 a1 a4 a6)
    (h8 : W (Proc.devRef .tc main_v8) = val_main_v8 a1) :
    after ops3 W (Proc.devRef .tc main_v44) = val_main_v44 a0 a1 a2 a3 a4 a5 a6 := by
  after_results_simp
  rw [h12, h16, h8]
  rfl
theorem s3_arg7 : after ops3 W (Proc.devRef .tc main_arg7) = (W (Proc.devRef .tc main_arg7)) := by
  after_results_simp <;> rfl
theorem s3_arg8 : after ops3 W (Proc.devRef .tc main_arg8) = (W (Proc.devRef .tc main_arg8)) := by
  after_results_simp <;> rfl

/-! ## Stretch 4 -/

theorem s4_v48 (a0 : (⟨S1, .i32⟩ : BufTy).Contents (Elt F)) (a1 : (⟨S1x1x1024, .f32⟩ : BufTy).Contents (Elt F))
    (a2 : (⟨S128000x1024, .f32⟩ : BufTy).Contents (Elt F)) (a3 a4 : (⟨S3072x1024, .f32⟩ : BufTy).Contents (Elt F))
    (a5 a6 : (⟨S3072, .f32⟩ : BufTy).Contents (Elt F))
    (h44 : W (Proc.devRef .tc main_v44) = val_main_v44 a0 a1 a2 a3 a4 a5 a6) :
    after ops4 W (Proc.devRef .tc main_v48) = val_main_v48 a0 a1 a2 a3 a4 a5 a6 (W (Proc.devRef .tc main_arg7)) (W (Proc.devRef .tc main_arg8)) := by
  after_results
  rw [h44]
  rfl
theorem s4_v44 : after ops4 W (Proc.devRef .tc main_v44) = W (Proc.devRef .tc main_v44) := by
  after_results <;> rfl

/-! ## Stretch 5, in four -/

theorem s5a_v2 (a0 : (⟨S1, .i32⟩ : BufTy).Contents (Elt F)) (a1 : (⟨S1x1x1024, .f32⟩ : BufTy).Contents (Elt F))
    (a2 : (⟨S128000x1024, .f32⟩ : BufTy).Contents (Elt F)) (a3 a4 : (⟨S3072x1024, .f32⟩ : BufTy).Contents (Elt F))
    (a5 a6 : (⟨S3072, .f32⟩ : BufTy).Contents (Elt F)) (a7 : (⟨S128000x1024, .f32⟩ : BufTy).Contents (Elt F))
    (a8 : (⟨S128000, .f32⟩ : BufTy).Contents (Elt F))
    (h48 : W (Proc.devRef .tc main_v48) = val_main_v48 a0 a1 a2 a3 a4 a5 a6 a7 a8) :
    after ops5a W (Proc.devRef .tc main_call1_v2) = val_main_call1_v2 a0 a1 a2 a3 a4 a5 a6 a7 a8 := by
  after_results
  rw [h48]
  try simp only [ofBuf_toBuf]
  rfl
theorem s5a_v48 : after ops5a W (Proc.devRef .tc main_v48) = W (Proc.devRef .tc main_v48) := by
  after_results <;> rfl
theorem s5a_v44 : after ops5a W (Proc.devRef .tc main_v44) = W (Proc.devRef .tc main_v44) := by
  after_results <;> rfl

theorem s5b_v5 (a0 : (⟨S1, .i32⟩ : BufTy).Contents (Elt F)) (a1 : (⟨S1x1x1024, .f32⟩ : BufTy).Contents (Elt F))
    (a2 : (⟨S128000x1024, .f32⟩ : BufTy).Contents (Elt F)) (a3 a4 : (⟨S3072x1024, .f32⟩ : BufTy).Contents (Elt F))
    (a5 a6 : (⟨S3072, .f32⟩ : BufTy).Contents (Elt F)) (a7 : (⟨S128000x1024, .f32⟩ : BufTy).Contents (Elt F))
    (a8 : (⟨S128000, .f32⟩ : BufTy).Contents (Elt F))
    (h2 : W (Proc.devRef .tc main_call1_v2) = val_main_call1_v2 a0 a1 a2 a3 a4 a5 a6 a7 a8) (h48 : W (Proc.devRef .tc main_v48) = val_main_v48 a0 a1 a2 a3 a4 a5 a6 a7 a8) :
    after ops5b W (Proc.devRef .tc main_call1_v5) = val_main_call1_v5 a0 a1 a2 a3 a4 a5 a6 a7 a8 := by
  after_results
  rw [h2, h48]
  try simp only [ofBuf_toBuf]
  rfl
theorem s5b_v6 (a0 : (⟨S1, .i32⟩ : BufTy).Contents (Elt F)) (a1 : (⟨S1x1x1024, .f32⟩ : BufTy).Contents (Elt F))
    (a2 : (⟨S128000x1024, .f32⟩ : BufTy).Contents (Elt F)) (a3 a4 : (⟨S3072x1024, .f32⟩ : BufTy).Contents (Elt F))
    (a5 a6 : (⟨S3072, .f32⟩ : BufTy).Contents (Elt F)) (a7 : (⟨S128000x1024, .f32⟩ : BufTy).Contents (Elt F))
    (a8 : (⟨S128000, .f32⟩ : BufTy).Contents (Elt F))
    (h2 : W (Proc.devRef .tc main_call1_v2) = val_main_call1_v2 a0 a1 a2 a3 a4 a5 a6 a7 a8) (h48 : W (Proc.devRef .tc main_v48) = val_main_v48 a0 a1 a2 a3 a4 a5 a6 a7 a8) :
    after ops5b W (Proc.devRef .tc main_call1_v6) = val_main_call1_v6 a0 a1 a2 a3 a4 a5 a6 a7 a8 := by
  after_results
  rw [h2, h48]
  try simp only [ofBuf_toBuf]
  rfl
theorem s5b_v44 : after ops5b W (Proc.devRef .tc main_v44) = W (Proc.devRef .tc main_v44) := by
  after_results <;> rfl

theorem s5c_v10 (a0 : (⟨S1, .i32⟩ : BufTy).Contents (Elt F)) (a1 : (⟨S1x1x1024, .f32⟩ : BufTy).Contents (Elt F))
    (a2 : (⟨S128000x1024, .f32⟩ : BufTy).Contents (Elt F)) (a3 a4 : (⟨S3072x1024, .f32⟩ : BufTy).Contents (Elt F))
    (a5 a6 : (⟨S3072, .f32⟩ : BufTy).Contents (Elt F)) (a7 : (⟨S128000x1024, .f32⟩ : BufTy).Contents (Elt F))
    (a8 : (⟨S128000, .f32⟩ : BufTy).Contents (Elt F))
    (h6 : W (Proc.devRef .tc main_call1_v6) = val_main_call1_v6 a0 a1 a2 a3 a4 a5 a6 a7 a8) :
    after ops5c W (Proc.devRef .tc main_call1_v10) = val_main_call1_v10 a0 a1 a2 a3 a4 a5 a6 a7 a8 := by
  after_results
  rw [h6]
  try simp only [ofBuf_toBuf]
  rfl
theorem s5c_v5 : after ops5c W (Proc.devRef .tc main_call1_v5) = W (Proc.devRef .tc main_call1_v5) := by
  after_results <;> rfl
theorem s5c_v44 : after ops5c W (Proc.devRef .tc main_v44) = W (Proc.devRef .tc main_v44) := by
  after_results <;> rfl

theorem s5d_v49 (a0 : (⟨S1, .i32⟩ : BufTy).Contents (Elt F)) (a1 : (⟨S1x1x1024, .f32⟩ : BufTy).Contents (Elt F))
    (a2 : (⟨S128000x1024, .f32⟩ : BufTy).Contents (Elt F)) (a3 a4 : (⟨S3072x1024, .f32⟩ : BufTy).Contents (Elt F))
    (a5 a6 : (⟨S3072, .f32⟩ : BufTy).Contents (Elt F)) (a7 : (⟨S128000x1024, .f32⟩ : BufTy).Contents (Elt F))
    (a8 : (⟨S128000, .f32⟩ : BufTy).Contents (Elt F))
    (h5 : W (Proc.devRef .tc main_call1_v5) = val_main_call1_v5 a0 a1 a2 a3 a4 a5 a6 a7 a8) (h10 : W (Proc.devRef .tc main_call1_v10) = val_main_call1_v10 a0 a1 a2 a3 a4 a5 a6 a7 a8) :
    after ops5d W (Proc.devRef .tc main_v49) = val_main_v49 a0 a1 a2 a3 a4 a5 a6 a7 a8 := by
  after_results
  rw [h5, h10]
  try simp only [ofBuf_toBuf]
  rfl
theorem s5d_v50 (a0 : (⟨S1, .i32⟩ : BufTy).Contents (Elt F)) (a1 : (⟨S1x1x1024, .f32⟩ : BufTy).Contents (Elt F))
    (a2 : (⟨S128000x1024, .f32⟩ : BufTy).Contents (Elt F)) (a3 a4 : (⟨S3072x1024, .f32⟩ : BufTy).Contents (Elt F))
    (a5 a6 : (⟨S3072, .f32⟩ : BufTy).Contents (Elt F))
    (h44 : W (Proc.devRef .tc main_v44) = val_main_v44 a0 a1 a2 a3 a4 a5 a6) :
    after ops5d W (Proc.devRef .tc main_v50) = val_main_v50 a0 a1 a2 a3 a4 a5 a6 := by
  after_results
  rw [h44]
  try simp only [ofBuf_toBuf]
  rfl

/-! ## The stretches in a row -/

/-- The buffers' contents after the first four stretches. -/
abbrev X4 : Valuation τ sig (Elt F) := after ops4 (after ops3 (after ops2 (after ops1 W)))

theorem v44_eq : after ops3 (after ops2 (after ops1 W)) (Proc.devRef .tc main_v44)
    = val_main_v44 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  refine s3_v44 _ _ _ _ _ _ _ _ ?_ ?_ ?_
  · rw [s2_v12 (after ops1 W) _ _ (s1_v7 W), s1_arg3, s1_arg5]
  · rw [s2_v16 (after ops1 W) _ (s1_v8 W), s1_arg4, s1_arg6]
  · rw [s2_v8, s1_v8]

theorem x4_v48 : X4 W (Proc.devRef .tc main_v48) = val_main_v48 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  show after ops4 (after ops3 (after ops2 (after ops1 W))) (Proc.devRef .tc main_v48) = _
  rw [s4_v48 _ _ _ _ _ _ _ _ (v44_eq W), s3_arg7, s3_arg8, s2_arg7, s2_arg8, s1_arg7, s1_arg8]

theorem x4_v44 : X4 W (Proc.devRef .tc main_v44) = val_main_v44 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  show after ops4 (after ops3 (after ops2 (after ops1 W))) (Proc.devRef .tc main_v44) = _
  rw [s4_v44, v44_eq]

/-- The first result buffer after the whole program: the last stage function of the nine arguments. -/
theorem v49_eq : after ops W (Proc.devRef .tc main_v49) = val_main_v49 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [ops_eq, StableHlo.after_append, StableHlo.after_append, StableHlo.after_append, StableHlo.after_append,
    StableHlo.after_append, StableHlo.after_append, StableHlo.after_append]
  show after ops5d (after ops5c (after ops5b (after ops5a (X4 W)))) (Proc.devRef .tc main_v49) = _
  have e48 := x4_v48 W
  have e2 := s5a_v2 (X4 W) _ _ _ _ _ _ _ _ _ e48
  have k48 : after ops5a (X4 W) (Proc.devRef .tc main_v48) = val_main_v48 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := (s5a_v48 (X4 W)).trans e48
  have e5 := s5b_v5 (after ops5a (X4 W)) _ _ _ _ _ _ _ _ _ e2 k48
  have e6 := s5b_v6 (after ops5a (X4 W)) _ _ _ _ _ _ _ _ _ e2 k48
  have e10 := s5c_v10 (after ops5b (after ops5a (X4 W))) _ _ _ _ _ _ _ _ _ e6
  have k5 : after ops5c (after ops5b (after ops5a (X4 W))) (Proc.devRef .tc main_call1_v5) = val_main_call1_v5 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) :=
    (s5c_v5 _).trans e5
  exact s5d_v49 _ _ _ _ _ _ _ _ _ _ k5 e10

/-- The second result buffer after the whole program. -/
theorem v50_eq : after ops W (Proc.devRef .tc main_v50) = val_main_v50 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) := by
  rw [ops_eq, StableHlo.after_append, StableHlo.after_append, StableHlo.after_append, StableHlo.after_append,
    StableHlo.after_append, StableHlo.after_append, StableHlo.after_append]
  show after ops5d (after ops5c (after ops5b (after ops5a (X4 W)))) (Proc.devRef .tc main_v50) = _
  refine s5d_v50 _ _ _ _ _ _ _ _ ?_
  rw [s5c_v44, s5b_v44, s5a_v44, x4_v44]

/-- No operation writes an argument. -/
theorem arg0_eq : after ops W (Proc.devRef .tc main_arg0) = (W (Proc.devRef .tc main_arg0)) := by
  after_results_simp <;> rfl
theorem arg1_eq : after ops W (Proc.devRef .tc main_arg1) = (W (Proc.devRef .tc main_arg1)) := by
  after_results_simp <;> rfl
theorem arg2_eq : after ops W (Proc.devRef .tc main_arg2) = (W (Proc.devRef .tc main_arg2)) := by
  after_results_simp <;> rfl
theorem arg3_eq : after ops W (Proc.devRef .tc main_arg3) = (W (Proc.devRef .tc main_arg3)) := by
  after_results_simp <;> rfl
theorem arg4_eq : after ops W (Proc.devRef .tc main_arg4) = (W (Proc.devRef .tc main_arg4)) := by
  after_results_simp <;> rfl
theorem arg5_eq : after ops W (Proc.devRef .tc main_arg5) = (W (Proc.devRef .tc main_arg5)) := by
  after_results_simp <;> rfl
theorem arg6_eq : after ops W (Proc.devRef .tc main_arg6) = (W (Proc.devRef .tc main_arg6)) := by
  after_results_simp <;> rfl
theorem arg7_eq : after ops W (Proc.devRef .tc main_arg7) = (W (Proc.devRef .tc main_arg7)) := by
  after_results_simp <;> rfl
theorem arg8_eq : after ops W (Proc.devRef .tc main_arg8) = (W (Proc.devRef .tc main_arg8)) := by
  after_results_simp <;> rfl

/-! ## The run -/

/-- Every weakly fair execution of the reference terminates with its two results at the stage functions of the launch
    memory's arguments, the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = val_main_v49 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v50) = val_main_v50 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  (θ_run defs _ _).mono (fun _ h c => ⟨(h c main_v49).trans (v49_eq (launchContents m c)),
      (h c main_v50).trans (v50_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c)),
      (h c main_arg6).trans (arg6_eq (launchContents m c)),
      (h c main_arg7).trans (arg7_eq (launchContents m c)),
      (h c main_arg8).trans (arg8_eq (launchContents m c))⟩)
    (Cert.ReferenceIdeal.Value.run_raw m ρ)

end GruStep.RefBridge

end
-- ==== Proof.RefValue.lean ====
import proofs.«401664_j15015205666921_3_alg».proof.Proof.RefRead
import proofs.«401664_j15015205666921_3_alg».proof.Proof.Spec
import Idealize.ShloMosaic.Lib.Pipeline.Value
import Idealize.ShloMosaic.Lib.StableHlo.Predicate
import Idealize.ShloMosaic.PureOps.Ideal.Laws

set_option maxRecDepth 16384

noncomputable section

open scoped BigOperators
open Idealize.ShloMosaic Idealize.ShloMosaic.TcCoe Idealize.ShloMosaic.ValueIdx
open Idealize.SL.Sem
open Cert.ReferenceIdeal Cert.ReferenceIdeal.Gen Cert.ReferenceIdeal.Read

namespace GruStep.Ref

/-! ## The three constants of the program, as extended reals -/

theorem ofBits_zero : (FloatOps.ofBits (F := Ideal) .f32 0x00000000#32 : EReal) = 0 := by
  rw [Ideal.ofBits_def]; simp [Ideal.ofBits, Ideal.ieee]

theorem ofBits_one : (FloatOps.ofBits (F := Ideal) .f32 0x3F800000#32 : EReal) = 1 := by
  rw [Ideal.ofBits_def]; simp [Ideal.ofBits, Ideal.ieee, -EReal.coe_mul]; norm_num

theorem ofBits_negInf : (FloatOps.ofBits (F := Ideal) .f32 0xFF800000#32 : EReal) = ⊥ := by
  rw [Ideal.ofBits_def]; simp [Ideal.ofBits, Ideal.ieee]

/-! ## The log-softmax of a row -/

section Lsm

/-- The reduction of a [1, 128000] row by `max` from −∞ is the row's maximum. -/
theorem reduce_max_eq (L : (⟨S1x128000, .f32⟩ : BufTy).Contents (Elt Ideal)) (j : S1.Idx) :
    Host.reduce (FloatOps.maximumf (F := Ideal) (φ := .f32)) L (val_main_call1_cst (F := Ideal)) reducesTo_S1x128000_S1_d1 h_S_ j
      = GruStep.rowMax L := by
  obtain ⟨p, rfl⟩ : ∃ p : Fin 1, j = ix1 p := ⟨j 0, eq_ix1 j⟩
  obtain rfl : p = 0 := Subsingleton.elim _ _
  have hR : S1x128000.Reduces [(1 : Fin S1x128000.rank)] S1 := by decide
  rw [Host.reduce_eq_fold_single (FloatOps.maximumf (F := Ideal) (φ := .f32)) L _ reducesTo_S1x128000_S1_d1 hR h_S_ (ix1 0),
    val_main_call1_cst_apply, ofBits_negInf]
  have hl : ∀ k : Fin 128000, hR.lift (ix1 (0 : Fin 1)) k = ix2 0 k := fun k =>
    funext fun c => Fin.ext (by match c with | ⟨0, _⟩ => rfl | ⟨1, _⟩ => rfl)
  show Finset.fold max ⊥ (L ∘ hR.lift (ix1 (0 : Fin 1))) (Finset.univ : Finset (Fin 128000))
    = Finset.fold max ⊥ (fun u : Fin 128000 => L (ix2 0 u)) Finset.univ
  exact Finset.fold_congr (fun k _ => congrArg L (hl k))

end Lsm

section Stages

variable (a0 : (⟨S1, .i32⟩ : BufTy).Contents (Elt Ideal))
  (a1 : (⟨S1x1x1024, .f32⟩ : BufTy).Contents (Elt Ideal))
  (a2 : (⟨S128000x1024, .f32⟩ : BufTy).Contents (Elt Ideal))
  (a3 a4 : (⟨S3072x1024, .f32⟩ : BufTy).Contents (Elt Ideal))
  (a5 a6 : (⟨S3072, .f32⟩ : BufTy).Contents (Elt Ideal))
  (a7 : (⟨S128000x1024, .f32⟩ : BufTy).Contents (Elt Ideal))
  (a8 : (⟨S128000, .f32⟩ : BufTy).Contents (Elt Ideal))

/-- A token in range is not negative, so the wrapped index is the token itself. -/
theorem v4_eq (h : GruStep.TokOk (GruStep.tokOf a0)) : val_main_v4 (F := Ideal) a0 = a0 := by
  funext i
  obtain ⟨p, rfl⟩ : ∃ p : Fin 1, i = ix1 p := ⟨i 0, eq_ix1 i⟩
  obtain rfl : p = 0 := Subsingleton.elim _ _
  rw [val_main_v4_apply, val_main_v1_apply, val_main_v0_apply, val_main_c_apply]
  have hlt : IntOp.cmpi .slt (a0 (ix1 0)) 0#32 = 0#1 := by
    have hs : (a0 (ix1 0)).slt 0#32 = false := by
      have h0 : 0 ≤ (a0 (ix1 0)).toInt := h.1
      simp only [BitVec.slt, BitVec.toInt_zero, decide_eq_false_iff_not, not_lt]
      exact h0
    unfold IntOp.cmpi
    simp only [hs]
    rfl
  rw [hlt]
  simp [Scalar.select]

/-- The index column the gather reads holds the token. -/
theorem v5_at (h : GruStep.TokOk (GruStep.tokOf a0)) :
    val_main_v5 (F := Ideal) a0 (ix2 0 0) = GruStep.tokOf a0 := by
  rw [val_main_v5_apply, v4_eq a0 h]
  show a0 _ = a0 (ix1 0)
  exact congrArg a0 (funext fun a => Fin.ext (by match a with | ⟨0, _⟩ => rfl))

/-- The gathered row is row `clamp(index)` of the table. -/
theorem v6_apply (q : Fin 1024) :
    val_main_v6 (F := Ideal) a0 a2 (ix2 0 q)
      = a2 (ix2 (RowOps.clampRow 128000 (by decide) (val_main_v5 (F := Ideal) a0 (ix2 0 0))) q) :=
  RowOps.gather_apply (by decide) gather_S128000x1024_S1x1_S1x1024_1_0_n_n_0_1_11024_wf a2 (val_main_v5 (F := Ideal) a0) 0 q

/-- The rectified embedding row of the token. -/
theorem v7_eq (h : GruStep.TokOk (GruStep.tokOf a0)) :
    val_main_v7 (F := Ideal) a0 a2 = GruStep.relu (GruStep.tokenRow a2 (GruStep.tokOf a0)) := by
  funext i
  obtain ⟨p, q, rfl⟩ : ∃ (p : Fin 1) (q : Fin 1024), i = ix2 p q := ⟨i 0, i 1, eq_ix2 i⟩
  obtain rfl : p = 0 := Subsingleton.elim _ _
  rw [val_main_v7_apply, v6_apply, val_main_call0_v0_apply, val_main_call0_cst_apply, v5_at a0 h, ofBits_zero]
  rfl

/-- The previous hidden state as a row. -/
theorem v8_eq : val_main_v8 (F := Ideal) a1 = GruStep.hidRow a1 := by
  funext i
  obtain ⟨p, q, rfl⟩ : ∃ (p : Fin 1) (q : Fin 1024), i = ix2 p q := ⟨i 0, i 1, eq_ix2 i⟩
  obtain rfl : p = 0 := Subsingleton.elim _ _
  rw [val_main_v8_apply]
  show a1 _ = a1 (ix3 0 0 q)
  refine congrArg a1 (funext fun a => Fin.ext ?_)
  match a with
  | ⟨0, _⟩ => rfl
  | ⟨1, _⟩ => rfl
  | ⟨2, _⟩ =>
    show ((0 : Nat) * 1024 + q.val) % 1024 = q.val
    have := q.isLt
    omega

/-- The input-side gate pre-activations. -/
theorem v12_eq (h : GruStep.TokOk (GruStep.tokOf a0)) :
    val_main_v12 (F := Ideal) a0 a2 a3 a5
      = GruStep.gate (GruStep.relu (GruStep.tokenRow a2 (GruStep.tokOf a0))) a3 (GruStep.gateRow a5) := by
  funext i
  obtain ⟨p, j, rfl⟩ : ∃ (p : Fin 1) (j : Fin 3072), i = ix2 p j := ⟨i 0, i 1, eq_ix2 i⟩
  obtain rfl : p = 0 := Subsingleton.elim _ _
  rw [val_main_v12_apply, val_main_v10_apply, val_main_v11_apply, v7_eq a0 a2 h]
  have e1 : ∀ k : Fin 1024, lidx_main_v10 (ix2 (0 : Fin 1) j) k = ix2 0 k := fun k =>
    funext fun a => Fin.ext (by match a with | ⟨0, _⟩ => rfl | ⟨1, _⟩ => rfl)
  have e2 : ∀ k : Fin 1024, idx_main_v9 (ridx_main_v10 (ix2 (0 : Fin 1) j) k) = ix2 j k := fun k =>
    funext fun a => Fin.ext (by match a with | ⟨0, _⟩ => rfl | ⟨1, _⟩ => rfl)
  have e3 : idx_main_v11 (ix2 (0 : Fin 1) j) = ix1 j :=
    funext fun a => Fin.ext (by match a with | ⟨0, _⟩ => rfl)
  simp only [val_main_v9_apply, e1, e2, e3, Ideal.addf_def]
  rfl

/-- The hidden-side gate pre-activations. -/
theorem v16_eq :
    val_main_v16 (F := Ideal) a1 a4 a6 = GruStep.gate (GruStep.hidRow a1) a4 (GruStep.gateRow a6) := by
  funext i
  obtain ⟨p, j, rfl⟩ : ∃ (p : Fin 1) (j : Fin 3072), i = ix2 p j := ⟨i 0, i 1, eq_ix2 i⟩
  obtain rfl : p = 0 := Subsingleton.elim _ _
  rw [val_main_v16_apply, val_main_v14_apply, val_main_v15_apply, v8_eq a1]
  have e1 : ∀ k : Fin 1024, lidx_main_v14 (ix2 (0 : Fin 1) j) k = ix2 0 k := fun k =>
    funext fun a => Fin.ext (by match a with | ⟨0, _⟩ => rfl | ⟨1, _⟩ => rfl)
  have e2 : ∀ k : Fin 1024, idx_main_v13 (ridx_main_v14 (ix2 (0 : Fin 1) j) k) = ix2 j k := fun k =>
    funext fun a => Fin.ext (by match a with | ⟨0, _⟩ => rfl | ⟨1, _⟩ => rfl)
  have e3 : idx_main_v15 (ix2 (0 : Fin 1) j) = ix1 j :=
    funext fun a => Fin.ext (by match a with | ⟨0, _⟩ => rfl)
  simp only [val_main_v13_apply, e1, e2, e3, Ideal.addf_def]
  rfl

/-- The new hidden row: the three column blocks of the two pre-activation rows through the gates. -/
theorem v44_eq (h : GruStep.TokOk (GruStep.tokOf a0)) :
    val_main_v44 (F := Ideal) a0 a1 a2 a3 a4 a5 a6 = GruStep.hiddenOf (GruStep.tokOf a0) a1 a2 a3 a4 a5 a6 := by
  funext i
  obtain ⟨p, q, rfl⟩ : ∃ (p : Fin 1) (q : Fin 1024), i = ix2 p q := ⟨i 0, i 1, eq_ix2 i⟩
  obtain rfl : p = 0 := Subsingleton.elim _ _
  have hq := q.isLt
  have i17 : idx_main_v17 (ix2 (0 : Fin 1) q) = ix2 0 ⟨0 + q.val, by omega⟩ :=
    funext fun a => Fin.ext (by match a with | ⟨0, _⟩ => rfl | ⟨1, _⟩ => exact (Nat.zero_add _).symm)
  have i18 : idx_main_v18 (ix2 (0 : Fin 1) q) = ix2 0 ⟨1024 + q.val, by omega⟩ :=
    funext fun a => Fin.ext (by match a with | ⟨0, _⟩ => rfl | ⟨1, _⟩ => rfl)
  have i19 : idx_main_v19 (ix2 (0 : Fin 1) q) = ix2 0 ⟨2048 + q.val, by omega⟩ :=
    funext fun a => Fin.ext (by match a with | ⟨0, _⟩ => rfl | ⟨1, _⟩ => rfl)
  have i20 : idx_main_v20 (ix2 (0 : Fin 1) q) = ix2 0 ⟨0 + q.val, by omega⟩ :=
    funext fun a => Fin.ext (by match a with | ⟨0, _⟩ => rfl | ⟨1, _⟩ => exact (Nat.zero_add _).symm)
  have i21 : idx_main_v21 (ix2 (0 : Fin 1) q) = ix2 0 ⟨1024 + q.val, by omega⟩ :=
    funext fun a => Fin.ext (by match a with | ⟨0, _⟩ => rfl | ⟨1, _⟩ => rfl)
  have i22 : idx_main_v22 (ix2 (0 : Fin 1) q) = ix2 0 ⟨2048 + q.val, by omega⟩ :=
    funext fun a => Fin.ext (by match a with | ⟨0, _⟩ => rfl | ⟨1, _⟩ => rfl)
  simp only [val_main_v44_apply, val_main_v43_apply, val_main_v42_apply, val_main_v41_apply, val_main_v40_apply,
    val_main_cst_4_apply, val_main_v39_apply, val_main_v38_apply, val_main_v37_apply, val_main_v36_apply,
    val_main_v35_apply, val_main_cst_3_apply, val_main_v34_apply, val_main_v33_apply, val_main_cst_2_apply,
    val_main_v32_apply, val_main_v31_apply, val_main_v30_apply, val_main_v29_apply, val_main_v28_apply,
    val_main_cst_1_apply, val_main_v27_apply, val_main_v26_apply, val_main_cst_apply, val_main_v25_apply,
    val_main_v24_apply, val_main_v23_apply, val_main_v22_apply, val_main_v21_apply, val_main_v20_apply,
    val_main_v19_apply, val_main_v18_apply, val_main_v17_apply, i17, i18, i19, i20, i21, i22,
    v12_eq a0 a2 a3 a5 h, v16_eq a1 a4 a6, v8_eq a1, ofBits_one,
    Ideal.hostDivf_def, Ideal.addf_def, Ideal.subf_def, Ideal.mulf_def, Ideal.hostUnary_exp_def,
    Ideal.hostUnary_tanh_def, Ideal.hostNegf_def, Ideal.negf_def]
  rfl

/-- The logits. -/
theorem v48_eq (h : GruStep.TokOk (GruStep.tokOf a0)) :
    val_main_v48 (F := Ideal) a0 a1 a2 a3 a4 a5 a6 a7 a8
      = GruStep.logitsOf (GruStep.tokOf a0) a1 a2 a3 a4 a5 a6 a7 a8 := by
  funext i
  obtain ⟨p, v, rfl⟩ : ∃ (p : Fin 1) (v : Fin 128000), i = ix2 p v := ⟨i 0, i 1, eq_ix2 i⟩
  obtain rfl : p = 0 := Subsingleton.elim _ _
  rw [val_main_v48_apply, val_main_v46_apply, val_main_v47_apply, v44_eq a0 a1 a2 a3 a4 a5 a6 h]
  have e1 : ∀ k : Fin 1024, lidx_main_v46 (ix2 (0 : Fin 1) v) k = ix2 0 k := fun k =>
    funext fun a => Fin.ext (by match a with | ⟨0, _⟩ => rfl | ⟨1, _⟩ => rfl)
  have e2 : ∀ k : Fin 1024, idx_main_v45 (ridx_main_v46 (ix2 (0 : Fin 1) v) k) = ix2 v k := fun k =>
    funext fun a => Fin.ext (by match a with | ⟨0, _⟩ => rfl | ⟨1, _⟩ => rfl)
  have e3 : idx_main_v47 (ix2 (0 : Fin 1) v) = ix1 v :=
    funext fun a => Fin.ext (by match a with | ⟨0, _⟩ => rfl)
  simp only [val_main_v45_apply, e1, e2, e3, Ideal.addf_def]
  rfl

/-- The logits less their maximum (the maximum is first taken again against −∞, which changes nothing). -/
theorem c5_eq (h : GruStep.TokOk (GruStep.tokOf a0)) :
    val_main_call1_v5 (F := Ideal) a0 a1 a2 a3 a4 a5 a6 a7 a8
      = fun v => GruStep.logitsOf (GruStep.tokOf a0) a1 a2 a3 a4 a5 a6 a7 a8 v
          - GruStep.rowMax (GruStep.logitsOf (GruStep.tokOf a0) a1 a2 a3 a4 a5 a6 a7 a8) := by
  funext i
  have hM : val_main_call1_v0 (F := Ideal) a0 a1 a2 a3 a4 a5 a6 a7 a8 (idx_main_call1_v3 (idx_main_call1_v4 i))
      = GruStep.rowMax (GruStep.logitsOf (GruStep.tokOf a0) a1 a2 a3 a4 a5 a6 a7 a8) := by
    unfold val_main_call1_v0
    rw [v48_eq a0 a1 a2 a3 a4 a5 a6 a7 a8 h]
    exact reduce_max_eq _ _
  rw [val_main_call1_v5_apply, val_main_call1_v4_apply, val_main_call1_v3_apply, val_main_call1_v2_apply,
    val_main_call1_v1_apply, val_main_call1_cst_0_apply, ofBits_negInf, hM, v48_eq a0 a1 a2 a3 a4 a5 a6 a7 a8 h]
  simp only [Ideal.subf_def, Ideal.maximumf_def, max_bot_left]

/-- The first result: the row-wise log-softmax of the logits. -/
theorem v49_eq (h : GruStep.TokOk (GruStep.tokOf a0)) :
    val_main_v49 (F := Ideal) a0 a1 a2 a3 a4 a5 a6 a7 a8
      = GruStep.lsmRow (GruStep.logitsOf (GruStep.tokOf a0) a1 a2 a3 a4 a5 a6 a7 a8) := by
  funext i
  rw [val_main_v49_apply, val_main_call1_v10_apply, val_main_call1_v9_apply, val_main_call1_v8_apply,
    val_main_call1_v7_apply, val_main_call1_cst_1_apply, ofBits_zero]
  have e : ∀ k : Fin 128000,
      idx_main_call1_v7 (idx_main_call1_v8 (idx_main_call1_v10 i)) k = ix2 0 k := fun k =>
    funext fun a => Fin.ext (by match a with | ⟨0, _⟩ => rfl | ⟨1, _⟩ => rfl)
  simp only [val_main_call1_v6_apply, c5_eq a0 a1 a2 a3 a4 a5 a6 a7 a8 h, e, Ideal.subf_def,
    Ideal.hostUnary_log_def, Ideal.hostUnary_exp_def, zero_add]
  rfl

/-- The second result: the new hidden row as [1, 1, 1024]. -/
theorem v50_eq (h : GruStep.TokOk (GruStep.tokOf a0)) :
    val_main_v50 (F := Ideal) a0 a1 a2 a3 a4 a5 a6
      = GruStep.hid3 (GruStep.hiddenOf (GruStep.tokOf a0) a1 a2 a3 a4 a5 a6) := by
  funext i
  obtain ⟨p, r, q, rfl⟩ : ∃ (p : Fin 1) (r : Fin 1) (q : Fin 1024), i = ix3 p r q := ⟨i 0, i 1, i 2, eq_ix3 i⟩
  rw [val_main_v50_apply, v44_eq a0 a1 a2 a3 a4 a5 a6 h]
  show GruStep.hiddenOf (GruStep.tokOf a0) a1 a2 a3 a4 a5 a6 _
    = GruStep.hiddenOf (GruStep.tokOf a0) a1 a2 a3 a4 a5 a6 (ix2 0 q)
  exact congrArg _ (funext fun a => Fin.ext (by match a with | ⟨0, _⟩ => rfl | ⟨1, _⟩ => rfl))

end Stages

variable (a0 : (⟨S1, .i32⟩ : BufTy).Contents (Elt Ideal)) (a1 : (⟨S1x1x1024, .f32⟩ : BufTy).Contents (Elt Ideal))
  (a2 : (⟨S128000x1024, .f32⟩ : BufTy).Contents (Elt Ideal)) (a3 a4 : (⟨S3072x1024, .f32⟩ : BufTy).Contents (Elt Ideal))
  (a5 a6 : (⟨S3072, .f32⟩ : BufTy).Contents (Elt Ideal)) (a7 : (⟨S128000x1024, .f32⟩ : BufTy).Contents (Elt Ideal))
  (a8 : (⟨S128000, .f32⟩ : BufTy).Contents (Elt Ideal))

/-- The reference's last stage is the row-wise log-softmax of the logits. -/
theorem out0 (htok : GruStep.TokOk (GruStep.tokOf a0)) :
    Cert.ReferenceIdeal.Read.val_main_v49 (F := Ideal) a0 a1 a2 a3 a4 a5 a6 a7 a8
      = GruStep.lsmRow (GruStep.logitsOf (GruStep.tokOf a0) a1 a2 a3 a4 a5 a6 a7 a8) := by
  exact v49_eq a0 a1 a2 a3 a4 a5 a6 a7 a8 htok

/-- The reference's second result is the new hidden row, as [1, 1, 1024]. -/
theorem out1 (htok : GruStep.TokOk (GruStep.tokOf a0)) :
    Cert.ReferenceIdeal.Read.val_main_v50 (F := Ideal) a0 a1 a2 a3 a4 a5 a6
      = GruStep.hid3 (GruStep.hiddenOf (GruStep.tokOf a0) a1 a2 a3 a4 a5 a6) := by
  exact v50_eq a0 a1 a2 a3 a4 a5 a6 htok

end GruStep.Ref

end
-- ==== Proof.Algebra.lean ====
import proofs.«401664_j15015205666921_3_alg».proof.Proof.Spec
import Mathlib.Data.Finset.Fold
import Mathlib.Data.EReal.Basic
import Mathlib.Logic.Equiv.Fin.Basic
import Mathlib.Algebra.BigOperators.Group.Finset.Basic
import Mathlib.Analysis.SpecialFunctions.Log.Basic

noncomputable section

open scoped BigOperators

namespace GruStep

open Idealize.ShloMosaic Idealize.ShloMosaic.ValueIdx

/-- The running maximum, started at ⊥, of a nonempty finite family of real numbers is a real number:
    it is at least one of the entries, and every entry is below ⊤. -/
theorem fold_max_coe {ι : Type} [Fintype ι] [Nonempty ι] (f : ι → ℝ) :
    ∃ m : ℝ, Finset.univ.fold max ⊥ (fun i => (f i : EReal)) = (m : EReal) := by
  obtain ⟨i0⟩ := ‹Nonempty ι›
  have hbot : Finset.univ.fold max (⊥ : EReal) (fun i => (f i : EReal)) ≠ ⊥ := by
    have h : (f i0 : EReal) ≤ Finset.univ.fold max (⊥ : EReal) (fun i => (f i : EReal)) :=
      (Finset.le_fold_max _).mpr (Or.inr ⟨i0, Finset.mem_univ _, le_rfl⟩)
    intro h0
    rw [h0] at h
    exact EReal.coe_ne_bot _ (le_bot_iff.mp h)
  have htop : Finset.univ.fold max (⊥ : EReal) (fun i => (f i : EReal)) ≠ ⊤ := by
    have h : Finset.univ.fold max (⊥ : EReal) (fun i => (f i : EReal)) < ⊤ :=
      (Finset.fold_max_lt _).mpr ⟨bot_lt_top, fun i _ => EReal.coe_lt_top _⟩
    exact ne_of_lt h
  exact ⟨_, (EReal.coe_toReal htop hbot).symm⟩

/-- A finite sum of real numbers, each read as an extended real, is the real sum read as an extended real. -/
theorem sum_coe {ι : Type} (s : Finset ι) (f : ι → ℝ) :
    (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The shifted log-sum-exp over a nonempty finite family of reals, for any real shift c:
    log Σ exp(f i − c) = log (Σ exp (f i)) − c. -/
theorem log_sum_exp_shift {ι : Type} [Fintype ι] [Nonempty ι] (f : ι → ℝ) (c : ℝ) :
    Ideal.log (∑ i, Ideal.exp ((f i : EReal) - (c : EReal)))
      = ((Real.log (∑ i, Real.exp (f i)) - c : ℝ) : EReal) := by
  have hS : 0 < ∑ i, Real.exp (f i) := Finset.sum_pos (fun i _ => Real.exp_pos _) Finset.univ_nonempty
  have h1 : ∀ i, Ideal.exp ((f i : EReal) - (c : EReal)) = ((Real.exp (f i) * Real.exp (-c) : ℝ) : EReal) := by
    intro i
    rw [← EReal.coe_sub, Ideal.exp_coe, sub_eq_add_neg, Real.exp_add]
  simp only [h1]
  rw [sum_coe, ← Finset.sum_mul, Ideal.log_coe]
  have hpos : 0 < (∑ i, Real.exp (f i)) * Real.exp (-c) := mul_pos hS (Real.exp_pos _)
  rw [if_neg (not_le.mpr hpos), Real.log_mul hS.ne' (Real.exp_pos _).ne', Real.log_exp]
  rfl

/-- The same quantity recombined from tiles: with the index set cut into tiles by a bijection e, any real
    per-tile shifts a and any real global shift g,
    log Σ_t exp(a t − g) · Σ_j exp(f (e (t, j)) − a t) = log (Σ exp (f i)) − g. -/
theorem log_sum_exp_tiled {τ κ ι : Type} [Fintype τ] [Fintype κ] [Fintype ι] [Nonempty ι]
    (f : ι → ℝ) (e : τ × κ ≃ ι) (a : τ → ℝ) (g : ℝ) :
    Ideal.log (∑ t, Ideal.exp ((a t : EReal) - (g : EReal)) *
        ∑ j, Ideal.exp ((f (e (t, j)) : EReal) - (a t : EReal)))
      = ((Real.log (∑ i, Real.exp (f i)) - g : ℝ) : EReal) := by
  rw [← log_sum_exp_shift f g]
  congr 1
  have h1 : ∀ t, Ideal.exp ((a t : EReal) - (g : EReal)) *
        ∑ j, Ideal.exp ((f (e (t, j)) : EReal) - (a t : EReal))
      = ∑ j, Ideal.exp ((f (e (t, j)) : EReal) - (g : EReal)) := by
    intro t
    have h2 : ∀ j, Ideal.exp ((f (e (t, j)) : EReal) - (a t : EReal))
        = ((Real.exp (f (e (t, j)) - a t) : ℝ) : EReal) := by
      intro j; rw [← EReal.coe_sub, Ideal.exp_coe]
    have h3 : ∀ j, Ideal.exp ((f (e (t, j)) : EReal) - (g : EReal))
        = ((Real.exp (f (e (t, j)) - g) : ℝ) : EReal) := by
      intro j; rw [← EReal.coe_sub, Ideal.exp_coe]
    simp only [h2, h3]
    rw [← EReal.coe_sub, Ideal.exp_coe, sum_coe, sum_coe, ← EReal.coe_mul, Finset.mul_sum]
    congr 1
    refine Finset.sum_congr rfl fun j _ => ?_
    rw [← Real.exp_add]
    congr 1
    ring
  simp only [h1]
  rw [← Fintype.sum_prod_type (f := fun p : τ × κ => Ideal.exp ((f (e p) : EReal) - (g : EReal)))]
  exact Equiv.sum_comp e (fun i => Ideal.exp ((f i : EReal) - (g : EReal)))

/-- On a row of real numbers the log-softmax recombined from the 25 tiles' statistics is the log-softmax of the row. -/
theorem lsmTiled_eq_lsmRow (L : Logit.Idx → EReal) (hL : IsReal L) : lsmTiled L = lsmRow L := by
  choose ℓ hℓ using hL
  obtain rfl : L = fun v => (ℓ v : EReal) := funext hℓ
  haveI : Nonempty (Fin 5120) := ⟨⟨0, by norm_num⟩⟩
  haveI : Nonempty (Fin 25) := ⟨⟨0, by norm_num⟩⟩
  haveI : Nonempty (Fin 128000) := ⟨⟨0, by norm_num⟩⟩
  -- every tile maximum, their maximum, and the row maximum are real numbers
  have ha : ∀ t, ∃ a : ℝ, tileMax (fun v => (ℓ v : EReal)) t = (a : EReal) :=
    fun t => fold_max_coe (fun j : Fin 5120 => ℓ (tileIx t j))
  choose a ha using ha
  have haf : tileMax (fun v => (ℓ v : EReal)) = fun t => (a t : EReal) := funext ha
  obtain ⟨g, hg⟩ : ∃ g : ℝ, Finset.univ.fold max ⊥ (tileMax fun v => (ℓ v : EReal)) = (g : EReal) := by
    rw [haf]; exact fold_max_coe a
  rw [haf] at hg
  obtain ⟨M, hM⟩ : ∃ M : ℝ, rowMax (fun v => (ℓ v : EReal)) = (M : EReal) :=
    fold_max_coe (fun u : Fin 128000 => ℓ (ix2 0 u))
  -- logit number j of tile t is logit number j + 5120 * t of the row
  let e : Fin 25 × Fin 5120 ≃ Fin 128000 := finProdFinEquiv
  have he : ∀ t j, (ix2 0 (e (t, j)) : Logit.Idx) = tileIx t j := by
    intro t j
    have h : e (t, j) = ⟨5120 * t.val + j.val, by have := t.isLt; have := j.isLt; omega⟩ := by
      apply Fin.ext
      show j.val + 5120 * t.val = 5120 * t.val + j.val
      omega
    unfold tileIx
    rw [h]
  have hT := log_sum_exp_tiled (fun u : Fin 128000 => ℓ (ix2 0 u)) e a g
  have hR := log_sum_exp_shift (fun u : Fin 128000 => ℓ (ix2 0 u)) M
  simp only [he] at hT
  funext v
  simp only [lsmTiled, lsmFrom, lsmRow, tileSum, hg, hM, ha, hT, hR]
  rw [← EReal.coe_add, ← EReal.coe_sub, ← EReal.coe_sub, ← EReal.coe_sub]
  exact congrArg Real.toEReal (by ring)

end GruStep

end
-- ==== Proof.Finite.lean ====
import proofs.«401664_j15015205666921_3_alg».proof.Proof.Spec

noncomputable section

open scoped BigOperators

namespace GruStep

open Idealize.ShloMosaic Idealize.ShloMosaic.ValueIdx

/-- A finite sum of coerced reals is the coercion of the real sum. -/
theorem coe_sum_real {ι : Type} (s : Finset ι) (f : ι → ℝ) :
    (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- A finite sum of products of reals is a real. -/
theorem sum_mul_real {ι : Type} (s : Finset ι) (f g : ι → EReal)
    (hf : ∀ k, ∃ r : ℝ, f k = (r : EReal)) (hg : ∀ k, ∃ r : ℝ, g k = (r : EReal)) :
    ∃ r : ℝ, (∑ k ∈ s, f k * g k) = (r : EReal) := by
  choose a ha using hf
  choose b hb using hg
  refine ⟨∑ k ∈ s, a k * b k, ?_⟩
  rw [← coe_sum_real]
  refine Finset.sum_congr rfl fun k _ => ?_
  rw [ha k, hb k, EReal.coe_mul]

/-- Reading a real table at one row gives a real row. -/
theorem tokenRow_real (emb : ProjW.Idx → EReal) (tok : BitVec 32) (hemb : IsReal emb) :
    IsReal (tokenRow emb tok) := fun _ => hemb _

/-- The larger of a real and zero is a real. -/
theorem relu_real (x : Row.Idx → EReal) (hx : IsReal x) : IsReal (relu x) := by
  intro j
  obtain ⟨r, hr⟩ := hx j
  refine ⟨max r 0, ?_⟩
  show max (x j) 0 = _
  rw [hr, ← EReal.coe_zero]
  exact (EReal.coe_strictMono.monotone.map_max).symm

theorem gateRow_real (b : GateB.Idx → EReal) (hb : IsReal b) : IsReal (gateRow b) := fun _ => hb _
theorem logitRow_real (b : ProjB.Idx → EReal) (hb : IsReal b) : IsReal (logitRow b) := fun _ => hb _
theorem hidRow_real (h : Hid3.Idx → EReal) (hh : IsReal h) : IsReal (hidRow h) := fun _ => hh _

/-- An inner product of real rows plus a real bias is a real. -/
theorem gate_real (x : Row.Idx → EReal) (w : GateW.Idx → EReal) (b : Gates.Idx → EReal)
    (hx : IsReal x) (hw : IsReal w) (hb : IsReal b) : IsReal (gate x w b) := by
  intro j
  obtain ⟨s, hs⟩ := sum_mul_real Finset.univ (fun k : Fin 1024 => x (ix2 0 k)) (fun k => w (ix2 (j 1) k))
    (fun _ => hx _) (fun _ => hw _)
  obtain ⟨c, hc⟩ := hb j
  refine ⟨s + c, ?_⟩
  show (∑ k : Fin 1024, x (ix2 0 k) * w (ix2 (j 1) k)) + b j = _
  rw [hs, hc, EReal.coe_add]

theorem proj_real (hn : Row.Idx → EReal) (w : ProjW.Idx → EReal) (b : Logit.Idx → EReal)
    (hx : IsReal hn) (hw : IsReal w) (hb : IsReal b) : IsReal (proj hn w b) := by
  intro v
  obtain ⟨s, hs⟩ := sum_mul_real Finset.univ (fun k : Fin 1024 => hn (ix2 0 k)) (fun k => w (ix2 (v 1) k))
    (fun _ => hx _) (fun _ => hw _)
  obtain ⟨c, hc⟩ := hb v
  refine ⟨s + c, ?_⟩
  show (∑ k : Fin 1024, hn (ix2 0 k) * w (ix2 (v 1) k)) + b v = _
  rw [hs, hc, EReal.coe_add]

/-- One column of a real row is a real. -/
theorem gcol_real (g : Gates.Idx → EReal) (hg : IsReal g) (off : Nat) (q : Fin 1024) (h : off + 1024 ≤ 3072) :
    ∃ r : ℝ, gcol g off q h = (r : EReal) := by
  unfold gcol
  exact hg _

/-- The gated combination of real pre-activations and a real hidden row is a real row. -/
theorem hnew_real (gi gh : Gates.Idx → EReal) (h : Row.Idx → EReal)
    (hgi : IsReal gi) (hgh : IsReal gh) (hh : IsReal h) : IsReal (hnew gi gh h) := by
  intro j
  obtain ⟨a0, ha0⟩ := gcol_real gi hgi 0 (j 1) (by decide)
  obtain ⟨b0, hb0⟩ := gcol_real gh hgh 0 (j 1) (by decide)
  obtain ⟨a1, ha1⟩ := gcol_real gi hgi 1024 (j 1) (by decide)
  obtain ⟨b1, hb1⟩ := gcol_real gh hgh 1024 (j 1) (by decide)
  obtain ⟨a2, ha2⟩ := gcol_real gi hgi 2048 (j 1) (by decide)
  obtain ⟨b2, hb2⟩ := gcol_real gh hgh 2048 (j 1) (by decide)
  obtain ⟨c, hc⟩ := hh j
  refine ⟨(1 - (1 + Real.exp (-(a1 + b1)))⁻¹) * Real.tanh (a2 + (1 + Real.exp (-(a0 + b0)))⁻¹ * b2)
    + (1 + Real.exp (-(a1 + b1)))⁻¹ * c, ?_⟩
  show (1 - Ideal.logistic (gcol gi 1024 (j 1) (by decide) + gcol gh 1024 (j 1) (by decide)))
      * Ideal.tanh (gcol gi 2048 (j 1) (by decide)
        + Ideal.logistic (gcol gi 0 (j 1) (by decide) + gcol gh 0 (j 1) (by decide)) * gcol gh 2048 (j 1) (by decide))
      + Ideal.logistic (gcol gi 1024 (j 1) (by decide) + gcol gh 1024 (j 1) (by decide)) * h j = _
  rw [ha0, hb0, ha1, hb1, ha2, hb2, hc, ← EReal.coe_add, ← EReal.coe_add, Ideal.logistic_coe, Ideal.logistic_coe,
    ← EReal.coe_mul, ← EReal.coe_add, Ideal.tanh_coe, ← EReal.coe_one, ← EReal.coe_sub, ← EReal.coe_mul,
    ← EReal.coe_mul, ← EReal.coe_add]

/-- From real arguments every logit is a real number. -/
theorem logitsOf_real (tok : BitVec 32) (h : Hid3.Idx → EReal) (emb : ProjW.Idx → EReal) (wih whh : GateW.Idx → EReal)
    (bih bhh : GateB.Idx → EReal) (wout : ProjW.Idx → EReal) (bout : ProjB.Idx → EReal)
    (hh : IsReal h) (hemb : IsReal emb) (hwih : IsReal wih) (hwhh : IsReal whh) (hbih : IsReal bih) (hbhh : IsReal bhh)
    (hwout : IsReal wout) (hbout : IsReal bout) :
    IsReal (logitsOf tok h emb wih whh bih bhh wout bout) :=
  proj_real _ _ _
    (hnew_real _ _ _
      (gate_real _ _ _ (relu_real _ (tokenRow_real emb tok hemb)) hwih (gateRow_real bih hbih))
      (gate_real _ _ _ (hidRow_real h hh) hwhh (gateRow_real bhh hbhh))
      (hidRow_real h hh))
    hwout (logitRow_real bout hbout)

end GruStep

end
-- ==== Proof.PreFacts.lean ====
import proofs.«401664_j15015205666921_3_alg».proof.Pre_finite_inputs
import proofs.«401664_j15015205666921_3_alg».proof.Proof.Spec
import Idealize.ShloMosaic.Lib.ReduceAll
import Idealize.ShloMosaic.Lib.StableHlo.Predicate

noncomputable section

namespace GruStep

open Idealize.ShloMosaic Idealize.ShloMosaic.ValueIdx Cert.Pre_finite_inputs

namespace PreFacts

/-- The rank-0 shape has one index. -/
instance subsingleton_S_ : Subsingleton S_.Idx := ⟨fun _ _ => funext fun d => d.elim0⟩

/-- The bit pattern 0x7F800000 denotes +∞. -/
theorem ofBits_top : Ideal.ofBits .f32 0x7F800000#32 = (⊤ : EReal) := by
  simp [Ideal.ofBits, Ideal.ieee]

/-- An extended real whose absolute value max x (−x) lies below +∞ is a real number. -/
theorem real_of_abs_lt_top (x : EReal) (h : max x (-x) < ⊤) : ∃ r : ℝ, x = (r : EReal) := by
  induction x using EReal.rec with
  | bot => simp at h
  | coe r => exact ⟨r, rfl⟩
  | top => simp at h

/-- One float conjunct of the precondition: if "all |x| < +∞" reduces to 1, every entry of x is real. -/
theorem isReal_of_all {S : Shape} {axes : List (Fin S.rank)}
    (hb : S_.BroadcastsInDim S (![] : Fin 0 → Fin S.rank)) (hr : S.ReducesTo axes S_) (h0 : 0 < S_.numel)
    (x : FVec Ideal S .f32)
    (e : Host.reduce IntOp.andi
          (cmpf .olt (Host.absf x) (broadcastInDim S ![] hb (constant (F := Ideal) S_ .f32 0x7F800000#32)))
          (constantI S_ 1 1#1) hr h0 ix0 = 1#1) : IsReal x := by
  intro i
  have hi := Host.reduce_andi_all _ _ hr h0 ix0 e i
  apply real_of_abs_lt_top
  have hlt : decide (max (x i) (-(x i)) < Ideal.ofBits .f32 0x7F800000#32) = true :=
    (StableHlo.Predicate.ofBool_eq_one_iff _).1 hi
  rw [ofBits_top] at hlt
  exact of_decide_eq_true hlt

/-- A word that is ≥ 0 and < 128000, both signed, is a token id in range. -/
theorem tokOk_of_cmp (w : BitVec 32) (h0 : IntOp.cmpi .sge w 0#32 = 1#1) (h1 : IntOp.cmpi .slt w 128000#32 = 1#1) :
    TokOk w := by
  unfold IntOp.cmpi at h0 h1
  rw [StableHlo.Predicate.ofBool_eq_one_iff] at h0 h1
  simp only [BitVec.slt, BitVec.sle, decide_eq_true_eq] at h0 h1
  have e0 : (0#32).toInt = 0 := by decide
  have e1 : (128000#32).toInt = 128000 := by decide
  rw [e0] at h0
  rw [e1] at h1
  exact ⟨h0, h1⟩

end PreFacts

/-- What the precondition says: the token id is in range and every float argument holds real numbers. -/
theorem of_pre [Cert.Pre_finite_inputs.Facts] (a0 : IVec S1 32) (a1 : FVec Ideal S1x1x1024 .f32)
    (a2 : FVec Ideal S128000x1024 .f32) (a3 a4 : FVec Ideal S3072x1024 .f32) (a5 a6 : FVec Ideal S3072 .f32)
    (a7 : FVec Ideal S128000x1024 .f32) (a8 : FVec Ideal S128000 .f32)
    (h : Cert.Pre_finite_inputs.fn (F := Ideal) a0 a1 a2 a3 a4 a5 a6 a7 a8 = fun _ => 1#1) :
    TokOk (tokOf a0) ∧ IsReal a1 ∧ IsReal a2 ∧ IsReal a3 ∧ IsReal a4 ∧ IsReal a5 ∧ IsReal a6 ∧ IsReal a7 ∧ IsReal a8 := by
  have e := congrFun h ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨⟨⟨h1, h2⟩, h3⟩, h4⟩, h5⟩, h6⟩, h7⟩, h8⟩, hge⟩, hlt⟩ := e
  refine ⟨?_, PreFacts.isReal_of_all _ _ _ a1 h1, PreFacts.isReal_of_all _ _ _ a2 h2, PreFacts.isReal_of_all _ _ _ a3 h3,
    PreFacts.isReal_of_all _ _ _ a4 h4, PreFacts.isReal_of_all _ _ _ a5 h5, PreFacts.isReal_of_all _ _ _ a6 h6, PreFacts.isReal_of_all _ _ _ a7 h7,
    PreFacts.isReal_of_all _ _ _ a8 h8⟩
  have g0 := Host.reduce_andi_all _ _ _ _ ix0 hge (ix1 0)
  have g1 := Host.reduce_andi_all _ _ _ _ ix0 hlt (ix1 0)
  exact PreFacts.tokOk_of_cmp _ g0 g1

end GruStep

end
-- ==== Proof.lean ====
/-
  One decoding step of a GRU language model: the kernel program (three pallas_calls: the gate pre-activations in two
  halves of the 3072 gate columns, the gates' combination into the new hidden row, and the output projection in 25
  tiles of 5120 logits with each tile's maximum and shifted exponential sum; the log-softmax is recombined from those
  statistics on the host) against the reference (the same affine maps and gates, and the log-softmax of the whole row).

  Under the precondition — every float argument finite and the token id in [0, 128000) — both programs read the same
  embedding row (the kernel clips the id, the reference wraps a negative one: both are the identity on that range),
  the gate pre-activations, the new hidden row and the logits are the same sums of products on both sides, and the
  logits are real numbers, where the log-softmax recombined from any real per-tile shifts equals the row-wise one:
  with S the sum of exp over the row, both are L v − log S.
-/
import proofs.«401664_j15015205666921_3_alg».proof.Defs
import proofs.«401664_j15015205666921_3_alg».proof.Proof.Gen.Kernel.Frame
import proofs.«401664_j15015205666921_3_alg».proof.Proof.Gen.KernelIdeal.Frame
import proofs.«401664_j15015205666921_3_alg».proof.Proof.Gen.ReferenceIdeal
import proofs.«401664_j15015205666921_3_alg».proof.Proof.Gen.Pre_finite_inputs
import proofs.«401664_j15015205666921_3_alg».proof.Proof.KRun
import proofs.«401664_j15015205666921_3_alg».proof.Proof.KChain
import proofs.«401664_j15015205666921_3_alg».proof.Proof.RefBridge
import proofs.«401664_j15015205666921_3_alg».proof.Proof.RefValue
import proofs.«401664_j15015205666921_3_alg».proof.Proof.Algebra
import proofs.«401664_j15015205666921_3_alg».proof.Proof.Finite
import proofs.«401664_j15015205666921_3_alg».proof.Proof.PreFacts
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a host program: its run, with the results dropped. -/
theorem frame_ri : Cert.frame_ReferenceIdeal := fun m ρ _ =>
  (θ_run Cert.ReferenceIdeal.defs _ _).mono (fun _ h c => (h c).2.2) (GruStep.RefBridge.run (F := Ideal) m ρ)

/-- Both programs end with the log-softmax of the same real logits and with the same new hidden row. -/
theorem algebraic : Cert.algebraic_KernelIdeal_ReferenceIdeal := by
  intro m ρ m' ρ' hpre hagree
  refine ⟨fun c => GruStep.lsmTiled (GruStep.logitsOf (GruStep.tokOf (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))),
    fun c => GruStep.hid3 (GruStep.hiddenOf (GruStep.tokOf (m ((c.tc : Thread Cert.KernelIdeal.nD Cert.KernelIdeal.τ).loc Cert.KernelIdeal.main_arg0))) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))), ?_, ?_⟩
  · refine (θ_run Cert.KernelIdeal.defs _ _).mono (fun r h c => ?_) (Cert.KernelIdeal.GenRun.run_values (F := Ideal) m ρ)
    have hp := GruStep.of_pre _ _ _ _ _ _ _ _ _ (hpre c)
    exact ⟨(h c).1.trans (GruStep.KChain.out0 m ρ c hp.1), (h c).2.1.trans (GruStep.KChain.out1 m ρ c hp.1), (h c).2.2⟩
  · refine (θ_run Cert.ReferenceIdeal.defs _ _).mono (fun r h c => ?_) (GruStep.RefBridge.run (F := Ideal) m' ρ')
    obtain ⟨htok, h1, h2, h3, h4, h5, h6, h7, h8⟩ := GruStep.of_pre _ _ _ _ _ _ _ _ _ (hpre c)
    obtain ⟨e0, e1, e2, e3, e4, e5, e6, e7, e8⟩ := hagree c
    have htok' : GruStep.TokOk (GruStep.tokOf (m' ((c.tc : Thread Cert.ReferenceIdeal.nD Cert.ReferenceIdeal.τ).loc Cert.ReferenceIdeal.main_arg0))) := by rw [e0]; exact htok
    refine ⟨(h c).1.trans ?_, (h c).2.1.trans ?_, (h c).2.2⟩
    · rw [GruStep.Ref.out0 _ _ _ _ _ _ _ _ _ htok', e0, e1, e2, e3, e4, e5, e6, e7, e8]
      exact (GruStep.lsmTiled_eq_lsmRow _ (GruStep.logitsOf_real _ _ _ _ _ _ _ _ _ h1 h2 h3 h4 h5 h6 h7 h8)).symm
    · rw [GruStep.Ref.out1 _ _ _ _ _ _ _ htok', e0, e1, e2, e3, e4, e5, e6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
